-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S4096x1024 : Shape := ⟨2, ![4096, 1024]⟩
abbrev S8192x1024 : Shape := ⟨2, ![8192, 1024]⟩
abbrev S16 : Shape := ⟨1, ![16]⟩
abbrev S8 : Shape := ⟨1, ![8]⟩
abbrev S_ : Shape := ⟨0, ![]⟩
abbrev S1 : Shape := ⟨1, ![1]⟩
abbrev S512x1024 : Shape := ⟨2, ![512, 1024]⟩
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4096x1024, .f32⟩
  | .hbm, ⟨1, _⟩ => ⟨S8192x1024, .bf16⟩
  | .local _ .vmem, ⟨0, _⟩ => ⟨S4096x1024, .f32⟩
  | .local _ .vmem, ⟨1, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v8 : BitVec 32 := Scalar.muli v5 c2048_i32
  let v9 : BitVec 32 := Scalar.addi v8 c0_i32
  let c0_i32_5 : BitVec 32 := 0#32
  ![v9.toNat, 0]
def k0_off2 (d0 : Dev nD) (c0_i32_19 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c2048_i32_18 : BitVec 32 := 2048#32
  let v32 : BitVec 32 := Scalar.muli v7 c2048_i32_18
  let v33 : BitVec 32 := Scalar.addi v32 c0_i32_19
  let c0_i32_20 : BitVec 32 := 0#32
  ![v33.toNat, 0]
def k0_dev1 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v57 : BitVec 32 := Scalar.muli v6 c2_i32_35
  let v58 : BitVec 32 := Scalar.addi c0_i32_36 v57
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v59 : BitVec 32 := Scalar.muli v5 c1_i32_37
  let v60 : BitVec 32 := Scalar.addi v58 v59
  v60.toNat
def k0_dev2 (d0 : Dev nD) : Nat :=
  let c0_i32_40 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_39 : BitVec 32 := 2#32
  let v61 : BitVec 32 := Scalar.muli v2 c2_i32_39
  let v62 : BitVec 32 := Scalar.addi c0_i32_40 v61
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_41 : BitVec 32 := 1#32
  let v63 : BitVec 32 := Scalar.muli v7 c1_i32_41
  let v64 : BitVec 32 := Scalar.addi v62 v63
  v64.toNat
def k0_off3 (d0 : Dev nD) (c0_i32_48 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_47 : BitVec 32 := 2048#32
  let v72 : BitVec 32 := Scalar.muli v5 c2048_i32_47
  let v73 : BitVec 32 := Scalar.addi v72 c0_i32_48
  let v74 : Index := Scalar.indexCast v73
  let c0 : Index := 0#32
  ![v74.toNat, 0]
def k0_off4 (d0 : Dev nD) (c0_i32_50 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32 : BitVec 32 := 4096#32
  let v65 : BitVec 32 := Scalar.muli v2 c4096_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_43 : BitVec 32 := 2048#32
  let v66 : BitVec 32 := Scalar.muli v5 c2048_i32_43
  let v67 : BitVec 32 := Scalar.addi v65 v66
  let v81 : BitVec 32 := Scalar.addi v67 c0_i32_50
  let c0_i32_56 : BitVec 32 := 0#32
  ![v81.toNat, 0]
def k0_off5 (d0 : Dev nD) (c0_i32_48 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_47 : BitVec 32 := 2048#32
  let v72 : BitVec 32 := Scalar.muli v5 c2048_i32_47
  let v73 : BitVec 32 := Scalar.addi v72 c0_i32_48
  let c0_i32_57 : BitVec 32 := 0#32
  ![v73.toNat, 0]
def k0_dev3 (d0 : Dev nD) : Nat :=
  let c0_i32_54 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_53 : BitVec 32 := 2#32
  let v82 : BitVec 32 := Scalar.muli v6 c2_i32_53
  let v83 : BitVec 32 := Scalar.addi c0_i32_54 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_55 : BitVec 32 := 1#32
  let v84 : BitVec 32 := Scalar.muli v5 c1_i32_55
  let v85 : BitVec 32 := Scalar.addi v83 v84
  v85.toNat
def k0_dev4 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v102 : BitVec 32 := Scalar.muli v6 c2_i32_64
  let v103 : BitVec 32 := Scalar.addi c0_i32_65 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v104 : BitVec 32 := Scalar.muli v5 c1_i32_66
  let v105 : BitVec 32 := Scalar.addi v103 v104
  v105.toNat
def k0_dev5 (d0 : Dev nD) : Nat :=
  let c0_i32_76 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_75 : BitVec 32 := 2#32
  let v122 : BitVec 32 := Scalar.muli v6 c2_i32_75
  let v123 : BitVec 32 := Scalar.addi c0_i32_76 v122
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v124 : BitVec 32 := Scalar.muli v5 c1_i32_77
  let v125 : BitVec 32 := Scalar.addi v123 v124
  v125.toNat
def k0_dev6 (d0 : Dev nD) : Nat :=
  let c0_i32_87 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_86 : BitVec 32 := 2#32
  let v142 : BitVec 32 := Scalar.muli v6 c2_i32_86
  let v143 : BitVec 32 := Scalar.addi c0_i32_87 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_88 : BitVec 32 := 1#32
  let v144 : BitVec 32 := Scalar.muli v5 c1_i32_88
  let v145 : BitVec 32 := Scalar.addi v143 v144
  v145.toNat
def k0_dev7 (d0 : Dev nD) : Nat :=
  let c0_i32_102 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_101 : BitVec 32 := 2#32
  let v166 : BitVec 32 := Scalar.muli v6 c2_i32_101
  let v167 : BitVec 32 := Scalar.addi c0_i32_102 v166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_103 : BitVec 32 := 1#32
  let v168 : BitVec 32 := Scalar.muli v5 c1_i32_103
  let v169 : BitVec 32 := Scalar.addi v167 v168
  v169.toNat
def k0_dev8 (d0 : Dev nD) : Nat :=
  let c0_i32_113 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_112 : BitVec 32 := 2#32
  let v186 : BitVec 32 := Scalar.muli v6 c2_i32_112
  let v187 : BitVec 32 := Scalar.addi c0_i32_113 v186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v188 : BitVec 32 := Scalar.muli v5 c1_i32_114
  let v189 : BitVec 32 := Scalar.addi v187 v188
  v189.toNat
def k0_dev9 (d0 : Dev nD) : Nat :=
  let c0_i32_124 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_123 : BitVec 32 := 2#32
  let v206 : BitVec 32 := Scalar.muli v6 c2_i32_123
  let v207 : BitVec 32 := Scalar.addi c0_i32_124 v206
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_125 : BitVec 32 := 1#32
  let v208 : BitVec 32 := Scalar.muli v5 c1_i32_125
  let v209 : BitVec 32 := Scalar.addi v207 v208
  v209.toNat
def k0_dev10 (d0 : Dev nD) : Nat :=
  let c0_i32_135 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_134 : BitVec 32 := 2#32
  let v226 : BitVec 32 := Scalar.muli v6 c2_i32_134
  let v227 : BitVec 32 := Scalar.addi c0_i32_135 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v228 : BitVec 32 := Scalar.muli v5 c1_i32_136
  let v229 : BitVec 32 := Scalar.addi v227 v228
  v229.toNat
def k0_dev11 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v250 : BitVec 32 := Scalar.muli v6 c2_i32_148
  let v251 : BitVec 32 := Scalar.addi c0_i32_149 v250
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v252 : BitVec 32 := Scalar.muli v5 c1_i32_150
  let v253 : BitVec 32 := Scalar.addi v251 v252
  v253.toNat
def k0_dev12 (d0 : Dev nD) : Nat :=
  let c0_i32_159 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_158 : BitVec 32 := 2#32
  let v270 : BitVec 32 := Scalar.muli v6 c2_i32_158
  let v271 : BitVec 32 := Scalar.addi c0_i32_159 v270
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_160 : BitVec 32 := 1#32
  let v272 : BitVec 32 := Scalar.muli v5 c1_i32_160
  let v273 : BitVec 32 := Scalar.addi v271 v272
  v273.toNat
def k0_dev13 (d0 : Dev nD) : Nat :=
  let c0_i32_169 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_168 : BitVec 32 := 2#32
  let v290 : BitVec 32 := Scalar.muli v6 c2_i32_168
  let v291 : BitVec 32 := Scalar.addi c0_i32_169 v290
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_170 : BitVec 32 := 1#32
  let v292 : BitVec 32 := Scalar.muli v5 c1_i32_170
  let v293 : BitVec 32 := Scalar.addi v291 v292
  v293.toNat
def k0_dev14 (d0 : Dev nD) : Nat :=
  let c0_i32_179 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_178 : BitVec 32 := 2#32
  let v310 : BitVec 32 := Scalar.muli v6 c2_i32_178
  let v311 : BitVec 32 := Scalar.addi c0_i32_179 v310
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v312 : BitVec 32 := Scalar.muli v5 c1_i32_180
  let v313 : BitVec 32 := Scalar.addi v311 v312
  v313.toNat
def k0_dev15 (d0 : Dev nD) : Nat :=
  let c0_i32_193 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_192 : BitVec 32 := 2#32
  let v334 : BitVec 32 := Scalar.muli v6 c2_i32_192
  let v335 : BitVec 32 := Scalar.addi c0_i32_193 v334
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_194 : BitVec 32 := 1#32
  let v336 : BitVec 32 := Scalar.muli v5 c1_i32_194
  let v337 : BitVec 32 := Scalar.addi v335 v336
  v337.toNat
def k0_dev16 (d0 : Dev nD) : Nat :=
  let c0_i32_203 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_202 : BitVec 32 := 2#32
  let v354 : BitVec 32 := Scalar.muli v6 c2_i32_202
  let v355 : BitVec 32 := Scalar.addi c0_i32_203 v354
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_204 : BitVec 32 := 1#32
  let v356 : BitVec 32 := Scalar.muli v5 c1_i32_204
  let v357 : BitVec 32 := Scalar.addi v355 v356
  v357.toNat
def k0_dev17 (d0 : Dev nD) : Nat :=
  let c0_i32_213 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_212 : BitVec 32 := 2#32
  let v374 : BitVec 32 := Scalar.muli v6 c2_i32_212
  let v375 : BitVec 32 := Scalar.addi c0_i32_213 v374
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_214 : BitVec 32 := 1#32
  let v376 : BitVec 32 := Scalar.muli v5 c1_i32_214
  let v377 : BitVec 32 := Scalar.addi v375 v376
  v377.toNat
def k0_dev18 (d0 : Dev nD) : Nat :=
  let c0_i32_223 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_222 : BitVec 32 := 2#32
  let v394 : BitVec 32 := Scalar.muli v6 c2_i32_222
  let v395 : BitVec 32 := Scalar.addi c0_i32_223 v394
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_224 : BitVec 32 := 1#32
  let v396 : BitVec 32 := Scalar.muli v5 c1_i32_224
  let v397 : BitVec 32 := Scalar.addi v395 v396
  v397.toNat
def k0_off6 (d0 : Dev nD) (c0_i32_231 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c2048_i32_230 : BitVec 32 := 2048#32
  let v408 : BitVec 32 := Scalar.muli v7 c2048_i32_230
  let v409 : BitVec 32 := Scalar.addi v408 c0_i32_231
  let v410 : Index := Scalar.indexCast v409
  let c0_232 : Index := 0#32
  ![v410.toNat, 0]
def k0_off7 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c4096_i32_255 : BitVec 32 := 4096#32
  let v456 : BitVec 32 := Scalar.muli v2 c4096_i32_255
  let c0_i32_256 : BitVec 32 := 0#32
  ![v456.toNat, 0]
def k0_off8 (d0 : Dev nD) (c0_i32_266 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c4096_i32_257 : BitVec 32 := 4096#32
  let v458 : BitVec 32 := Scalar.muli v6 c4096_i32_257
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_258 : BitVec 32 := 2048#32
  let v459 : BitVec 32 := Scalar.muli v5 c2048_i32_258
  let v460 : BitVec 32 := Scalar.addi v458 v459
  let v469 : BitVec 32 := Scalar.addi v460 c0_i32_266
  let c0_i32_272 : BitVec 32 := 0#32
  ![v469.toNat, 0]
def k0_dev19 (d0 : Dev nD) : Nat :=
  let c0_i32_270 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_269 : BitVec 32 := 2#32
  let v470 : BitVec 32 := Scalar.muli v2 c2_i32_269
  let v471 : BitVec 32 := Scalar.addi c0_i32_270 v470
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_271 : BitVec 32 := 1#32
  let v472 : BitVec 32 := Scalar.muli v7 c1_i32_271
  let v473 : BitVec 32 := Scalar.addi v471 v472
  v473.toNat
def k0_dev20 (d0 : Dev nD) : Nat :=
  let c0_i32_285 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_284 : BitVec 32 := 2#32
  let v489 : BitVec 32 := Scalar.muli v2 c2_i32_284
  let v490 : BitVec 32 := Scalar.addi c0_i32_285 v489
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_286 : BitVec 32 := 1#32
  let v491 : BitVec 32 := Scalar.muli v7 c1_i32_286
  let v492 : BitVec 32 := Scalar.addi v490 v491
  v492.toNat
def k0_dev21 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_299 : BitVec 32 := 2#32
  let v508 : BitVec 32 := Scalar.muli v2 c2_i32_299
  let v509 : BitVec 32 := Scalar.addi c0_i32_300 v508
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_301 : BitVec 32 := 1#32
  let v510 : BitVec 32 := Scalar.muli v7 c1_i32_301
  let v511 : BitVec 32 := Scalar.addi v509 v510
  v511.toNat
def k0_dev22 (d0 : Dev nD) : Nat :=
  let c0_i32_315 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_314 : BitVec 32 := 2#32
  let v527 : BitVec 32 := Scalar.muli v2 c2_i32_314
  let v528 : BitVec 32 := Scalar.addi c0_i32_315 v527
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_316 : BitVec 32 := 1#32
  let v529 : BitVec 32 := Scalar.muli v7 c1_i32_316
  let v530 : BitVec 32 := Scalar.addi v528 v529
  v530.toNat
def k0_dev23 (d0 : Dev nD) : Nat :=
  let c0_i32_330 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_329 : BitVec 32 := 2#32
  let v546 : BitVec 32 := Scalar.muli v2 c2_i32_329
  let v547 : BitVec 32 := Scalar.addi c0_i32_330 v546
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_331 : BitVec 32 := 1#32
  let v548 : BitVec 32 := Scalar.muli v7 c1_i32_331
  let v549 : BitVec 32 := Scalar.addi v547 v548
  v549.toNat
def k0_dev24 (d0 : Dev nD) : Nat :=
  let c0_i32_345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_344 : BitVec 32 := 2#32
  let v565 : BitVec 32 := Scalar.muli v2 c2_i32_344
  let v566 : BitVec 32 := Scalar.addi c0_i32_345 v565
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_346 : BitVec 32 := 1#32
  let v567 : BitVec 32 := Scalar.muli v7 c1_i32_346
  let v568 : BitVec 32 := Scalar.addi v566 v567
  v568.toNat
def k0_dev25 (d0 : Dev nD) : Nat :=
  let c0_i32_360 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_359 : BitVec 32 := 2#32
  let v584 : BitVec 32 := Scalar.muli v2 c2_i32_359
  let v585 : BitVec 32 := Scalar.addi c0_i32_360 v584
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_361 : BitVec 32 := 1#32
  let v586 : BitVec 32 := Scalar.muli v7 c1_i32_361
  let v587 : BitVec 32 := Scalar.addi v585 v586
  v587.toNat
def k0_dev26 (d0 : Dev nD) : Nat :=
  let c0_i32_375 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_374 : BitVec 32 := 2#32
  let v603 : BitVec 32 := Scalar.muli v2 c2_i32_374
  let v604 : BitVec 32 := Scalar.addi c0_i32_375 v603
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_376 : BitVec 32 := 1#32
  let v605 : BitVec 32 := Scalar.muli v7 c1_i32_376
  let v606 : BitVec 32 := Scalar.addi v604 v605
  v606.toNat
def k0_dev27 (d0 : Dev nD) : Nat :=
  let c0_i32_390 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_389 : BitVec 32 := 2#32
  let v622 : BitVec 32 := Scalar.muli v2 c2_i32_389
  let v623 : BitVec 32 := Scalar.addi c0_i32_390 v622
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_391 : BitVec 32 := 1#32
  let v624 : BitVec 32 := Scalar.muli v7 c1_i32_391
  let v625 : BitVec 32 := Scalar.addi v623 v624
  v625.toNat
def k0_dev28 (d0 : Dev nD) : Nat :=
  let c0_i32_405 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_404 : BitVec 32 := 2#32
  let v641 : BitVec 32 := Scalar.muli v2 c2_i32_404
  let v642 : BitVec 32 := Scalar.addi c0_i32_405 v641
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_406 : BitVec 32 := 1#32
  let v643 : BitVec 32 := Scalar.muli v7 c1_i32_406
  let v644 : BitVec 32 := Scalar.addi v642 v643
  v644.toNat
def k0_dev29 (d0 : Dev nD) : Nat :=
  let c0_i32_420 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_419 : BitVec 32 := 2#32
  let v660 : BitVec 32 := Scalar.muli v2 c2_i32_419
  let v661 : BitVec 32 := Scalar.addi c0_i32_420 v660
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_421 : BitVec 32 := 1#32
  let v662 : BitVec 32 := Scalar.muli v7 c1_i32_421
  let v663 : BitVec 32 := Scalar.addi v661 v662
  v663.toNat
def k0_dev30 (d0 : Dev nD) : Nat :=
  let c0_i32_435 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_434 : BitVec 32 := 2#32
  let v679 : BitVec 32 := Scalar.muli v2 c2_i32_434
  let v680 : BitVec 32 := Scalar.addi c0_i32_435 v679
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_436 : BitVec 32 := 1#32
  let v681 : BitVec 32 := Scalar.muli v7 c1_i32_436
  let v682 : BitVec 32 := Scalar.addi v680 v681
  v682.toNat
def k0_dev31 (d0 : Dev nD) : Nat :=
  let c0_i32_450 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_449 : BitVec 32 := 2#32
  let v698 : BitVec 32 := Scalar.muli v2 c2_i32_449
  let v699 : BitVec 32 := Scalar.addi c0_i32_450 v698
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_451 : BitVec 32 := 1#32
  let v700 : BitVec 32 := Scalar.muli v7 c1_i32_451
  let v701 : BitVec 32 := Scalar.addi v699 v700
  v701.toNat
def k0_dev32 (d0 : Dev nD) : Nat :=
  let c0_i32_465 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_464 : BitVec 32 := 2#32
  let v717 : BitVec 32 := Scalar.muli v2 c2_i32_464
  let v718 : BitVec 32 := Scalar.addi c0_i32_465 v717
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_466 : BitVec 32 := 1#32
  let v719 : BitVec 32 := Scalar.muli v7 c1_i32_466
  let v720 : BitVec 32 := Scalar.addi v718 v719
  v720.toNat
def k0_dev33 (d0 : Dev nD) : Nat :=
  let c0_i32_480 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_479 : BitVec 32 := 2#32
  let v736 : BitVec 32 := Scalar.muli v2 c2_i32_479
  let v737 : BitVec 32 := Scalar.addi c0_i32_480 v736
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_481 : BitVec 32 := 1#32
  let v738 : BitVec 32 := Scalar.muli v7 c1_i32_481
  let v739 : BitVec 32 := Scalar.addi v737 v738
  v739.toNat
def k0_dev34 (d0 : Dev nD) : Nat :=
  let c0_i32_495 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_494 : BitVec 32 := 2#32
  let v755 : BitVec 32 := Scalar.muli v2 c2_i32_494
  let v756 : BitVec 32 := Scalar.addi c0_i32_495 v755
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_496 : BitVec 32 := 1#32
  let v757 : BitVec 32 := Scalar.muli v7 c1_i32_496
  let v758 : BitVec 32 := Scalar.addi v756 v757
  v758.toNat

class Facts₀ : Prop where
  inb_S8_S1_0 : ∀ a, (![0] : Fin 1 → Nat) a + S1.size a ≤ S8.size a
  squeezes_S1_S_ : S1.Squeezes S_
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  hamt_1 : (1#32 : BitVec 32).msb = false
  hamt_2 : (2#32 : BitVec 32).msb = false
  h_S128x1024 : 0 < S128x1024.numel
  bitsLt_bf16_f32 : FTy.bits .bf16 < FTy.bits .f32
  shapeCasts_S128x1024_S128x1024 : S128x1024.ShapeCasts S128x1024
  inb_S16_S1_0 : ∀ a, (![0] : Fin 1 → Nat) a + S1.size a ≤ S16.size a
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  h_S512x1024 : 0 < S512x1024.numel
  shapeCasts_S512x1024_S512x1024 : S512x1024.ShapeCasts S512x1024
  hcc0_scratch2 : 0 + S16.numel ≤ 73
  hcc0_scratch3 : 16 + S16.numel ≤ 73
  hcc0_scratch4 : 32 + S16.numel ≤ 73
  hcc0_scratch5 : 48 + S16.numel ≤ 73
  hcc0_scratch6 : 64 + S8.numel ≤ 73
  hcc0_scratch7 : 72 + S_.numel ≤ 73
  k0_off1_inb : ∀ d0 : Dev nD, ∀ (r : Fin 4), ∀ a, (k0_off1 d0 (BitVec.ofNat 32 (512 * r.val))) a + S512x1024.size a ≤ S4096x1024.size a
  k0_off2_inb : ∀ d0 : Dev nD, ∀ (r : Fin 4), ∀ a, (k0_off2 d0 (BitVec.ofNat 32 (512 * r.val))) a + S512x1024.size a ≤ S4096x1024.size a
  k0_dev1_lt : ∀ d0 : Dev nD, (k0_dev1 d0) < nD
  k0_dev2_lt : ∀ d0 : Dev nD, (k0_dev2 d0) < nD
  k0_off3_inb : ∀ d0 : Dev nD, ∀ (r : Fin 16), ∀ a, (k0_off3 d0 (BitVec.ofNat 32 (128 * r.val))) a + S128x1024.size a ≤ S4096x1024.size a
  k0_off3_packedbf16 : ∀ d0 : Dev nD, ∀ (r : Fin 16), (Rect.unit (s := S4096x1024) (k0_off3 d0 (BitVec.ofNat 32 (128 * r.val))) S128x1024.size (k0_off3_inb d0 r)).PackedRows (EltTy.packing .bf16)
  k0_off4_inb : ∀ d0 : Dev nD, ∀ (r : Fin 16), ∀ a, (k0_off4 d0 (BitVec.ofNat 32 (128 * r.val))) a + S128x1024.size a ≤ S8192x1024.size a
  k0_off5_inb : ∀ d0 : Dev nD, ∀ (r : Fin 16), ∀ a, (k0_off5 d0 (BitVec.ofNat 32 (128 * r.val))) a + S128x1024.size a ≤ S4096x1024.size a
  k0_off5_wordsbf16 : ∀ d0 : Dev nD, ∀ (r : Fin 16), (Rect.unit (s := S4096x1024) (k0_off5 d0 (BitVec.ofNat 32 (128 * r.val))) S128x1024.size (k0_off5_inb d0 r)).WholeWords (EltTy.packing .bf16)
  k0_off4_wordsbf16 : ∀ d0 : Dev nD, ∀ (r : Fin 16), (Rect.unit (s := S8192x1024) (k0_off4 d0 (BitVec.ofNat 32 (128 * r.val))) S128x1024.size (k0_off4_inb d0 r)).WholeWords (EltTy.packing .bf16)
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off6_inb : ∀ d0 : Dev nD, ∀ (r : Fin 4), ∀ a, (k0_off6 d0 (BitVec.ofNat 32 (512 * r.val))) a + S512x1024.size a ≤ S4096x1024.size a
  k0_off6_packedbf16 : ∀ d0 : Dev nD, ∀ (r : Fin 4), (Rect.unit (s := S4096x1024) (k0_off6 d0 (BitVec.ofNat 32 (512 * r.val))) S512x1024.size (k0_off6_inb d0 r)).PackedRows (EltTy.packing .bf16)
  k0_off7_inb : ∀ d0 : Dev nD, ∀ a, (k0_off7 d0) a + S4096x1024.size a ≤ S8192x1024.size a
  k0_off7_wordsbf16 : ∀ d0 : Dev nD, (Rect.unit (s := S8192x1024) (k0_off7 d0) S4096x1024.size (k0_off7_inb d0)).WholeWords (EltTy.packing .bf16)
  k0_off8_inb : ∀ d0 : Dev nD, ∀ (r : Fin 16), ∀ a, (k0_off8 d0 (BitVec.ofNat 32 (128 * r.val))) a + S128x1024.size a ≤ S8192x1024.size a
  k0_off8_wordsbf16 : ∀ d0 : Dev nD, ∀ (r : Fin 16), (Rect.unit (s := S8192x1024) (k0_off8 d0 (BitVec.ofNat 32 (128 * r.val))) S128x1024.size (k0_off8_inb d0 r)).WholeWords (EltTy.packing .bf16)
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD

variable [Facts₀]

abbrev cc0_scratch2 : DmaSems sig S16 := SemArray.consecutive 0 S16 hcc0_scratch2
abbrev cc0_scratch3 : DmaSems sig S16 := SemArray.consecutive 16 S16 hcc0_scratch3
abbrev cc0_scratch4 : DmaSems sig S16 := SemArray.consecutive 32 S16 hcc0_scratch4
abbrev cc0_scratch5 : DmaSems sig S16 := SemArray.consecutive 48 S16 hcc0_scratch5
abbrev cc0_scratch6 : DmaSems sig S8 := SemArray.consecutive 64 S8 hcc0_scratch6
abbrev cc0_scratch7 : DmaSems sig S_ := SemArray.consecutive 72 S_ hcc0_scratch7

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x1024 : Shape := ⟨2, ![8192, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Proto.lean ====
/-
# The all-gather on the 2 × 2 mesh: names, geometry, contents and the schedule

Device `c` sits at mesh coordinates `(c / 2, c % 2)`. It holds block `c / 2` of `x` (4096 rows). The kernel
gathers the two blocks into every device's result (8192 rows) in three movements:
* its own block goes, through VMEM (cast on the way), into rows `4096 (c / 2) …` of its own result (one local copy);
* the half `c % 2` of its block (2048 rows, sixteen chunks of 128) goes to its column partner `pa c = (1 - c / 2, c % 2)`,
  into the same rows of that device's result (sixteen remote copies, cells `sa i` / `ra i`);
* each chunk it receives that way it forwards to its row partner `pb c = (c / 2, 1 - c % 2)`, same rows
  (sixteen remote copies, cells `sb i` / `rb i`).
-/
import proofs.«900086_g7700000000000087_dist_ag_v7x_xy2x2_x_m4096_n1024_bf16_1_alg».proof.Proof.Gen.KernelIdeal
import proofs.«900086_g7700000000000087_dist_ag_v7x_xy2x2_x_m4096_n1024_bf16_1_alg».proof.Proof.Gen.KernelIdeal.Skeleton
import proofs.«900086_g7700000000000087_dist_ag_v7x_xy2x2_x_m4096_n1024_bf16_1_alg».proof.Proof.Gen.KernelIdeal.Launch
import proofs.«900086_g7700000000000087_dist_ag_v7x_xy2x2_x_m4096_n1024_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The two partners -/

/-- The column partner: the device with the other block of `x` and the same half. -/
def pa (c : Dev nD) : Dev nD := ⟨((c.val % 2) + 2) - 2 * (c.val / 2), by have h : c.val < 4 := c.isLt; show _ < 4; omega⟩
/-- The row partner: the device with the same block and the other half. -/
def pb (c : Dev nD) : Dev nD := ⟨(2 * (c.val / 2) + 1) - (c.val % 2), by have h : c.val < 4 := c.isLt; show _ < 4; omega⟩

theorem pa_pa (c : Dev nD) : pa (pa c) = c := by revert c; decide
theorem pb_pb (c : Dev nD) : pb (pb c) = c := by revert c; decide
theorem pa_pb (c : Dev nD) : pa (pb c) = pb (pa c) := by revert c; decide
theorem pa_ne (c : Dev nD) : pa c ≠ c := by revert c; decide
theorem pb_ne (c : Dev nD) : pb c ≠ c := by revert c; decide
theorem pa_ne_pb (c : Dev nD) : pa c ≠ pb c := by revert c; decide

def swapA : Dev nD ≃ Dev nD := ⟨pa, pa, pa_pa, pa_pa⟩
def swapB : Dev nD ≃ Dev nD := ⟨pb, pb, pb_pb, pb_pb⟩

/-! ## Memrefs -/

abbrev xM : Memref sig .tc .hbm S4096x1024 .f32 := Memref.whole main_arg0
abbrev oM : Memref sig .tc .hbm S8192x1024 .bf16 := Memref.whole main_v1
abbrev vM : Memref sig .tc .vmem S4096x1024 .f32 := Memref.whole cc0_scratch0
abbrev bM : Memref sig .tc .vmem S4096x1024 .bf16 := Memref.whole cc0_scratch1

abbrev w128 (i : Fin 16) : BitVec 32 := BitVec.ofNat 32 (128 * i.val)
abbrev w512 (j : Fin 4) : BitVec 32 := BitVec.ofNat 32 (512 * j.val)

/-- Rows of the block's own half, 512 at a time: source (HBM) and destination (VMEM) of the first four input copies. -/
abbrev rIn1 (c : Dev nD) (j : Fin 4) : Rect S4096x1024 := Rect.unit (s := S4096x1024) (k0_off1 c (w512 j)) S512x1024.size (k0_off1_inb c j)
/-- Rows of the other half, 512 at a time: the last four input copies. -/
abbrev rIn2 (c : Dev nD) (j : Fin 4) : Rect S4096x1024 := Rect.unit (s := S4096x1024) (k0_off2 c (w512 j)) S512x1024.size (k0_off2_inb c j)
/-- Chunk `i` of the own half, as loaded from the f32 scratch and stored to the bf16 scratch. -/
abbrev rCh (c : Dev nD) (i : Fin 16) : Rect S4096x1024 := Rect.unit (s := S4096x1024) (k0_off3 c (w128 i)) S128x1024.size (k0_off3_inb c i)
/-- The same chunk as the source of remote copy `a i`. -/
abbrev rSrcA (c : Dev nD) (i : Fin 16) : Rect S4096x1024 := Rect.unit (s := S4096x1024) (k0_off5 c (w128 i)) S128x1024.size (k0_off5_inb c i)
/-- Its destination rows in the column partner's result. -/
abbrev rDstA (c : Dev nD) (i : Fin 16) : Rect S8192x1024 := Rect.unit (s := S8192x1024) (k0_off4 c (w128 i)) S128x1024.size (k0_off4_inb c i)
/-- The rows of the own result chunk `i` of the column partner lands in: source and destination rows of remote copy `b i`. -/
abbrev rRecvA (c : Dev nD) (i : Fin 16) : Rect S8192x1024 := Rect.unit (s := S8192x1024) (k0_off8 c (w128 i)) S128x1024.size (k0_off8_inb c i)
/-- The other half, 512 rows at a time, as loaded and stored. -/
abbrev rCh2 (c : Dev nD) (j : Fin 4) : Rect S4096x1024 := Rect.unit (s := S4096x1024) (k0_off6 c (w512 j)) S512x1024.size (k0_off6_inb c j)
/-- The own block's rows in the own result. -/
abbrev rOwn (c : Dev nD) : Rect S8192x1024 := Rect.unit (s := S8192x1024) (k0_off7 c) S4096x1024.size (k0_off7_inb c)

abbrev xIn1 (c : Dev nD) (j : Fin 4) : Memref sig .tc .hbm S512x1024 .f32 := xM.slice (rIn1 c j) (fun _ => rfl)
abbrev vIn1 (c : Dev nD) (j : Fin 4) : Memref sig .tc .vmem S512x1024 .f32 := vM.slice (rIn1 c j) (fun _ => rfl)
abbrev xIn2 (c : Dev nD) (j : Fin 4) : Memref sig .tc .hbm S512x1024 .f32 := xM.slice (rIn2 c j) (fun _ => rfl)
abbrev vIn2 (c : Dev nD) (j : Fin 4) : Memref sig .tc .vmem S512x1024 .f32 := vM.slice (rIn2 c j) (fun _ => rfl)
abbrev bSrcA (c : Dev nD) (i : Fin 16) : Memref sig .tc .vmem S128x1024 .bf16 := bM.slice (rSrcA c i) (fun _ => rfl)
abbrev oDstA (c : Dev nD) (i : Fin 16) : Memref sig .tc .hbm S128x1024 .bf16 := oM.slice (rDstA c i) (fun _ => rfl)
abbrev oRecvA (c : Dev nD) (i : Fin 16) : Memref sig .tc .hbm S128x1024 .bf16 := oM.slice (rRecvA c i) (fun _ => rfl)
abbrev oOwn (c : Dev nD) : Memref sig .tc .hbm S4096x1024 .bf16 := oM.slice (rOwn c) (fun _ => rfl)

/-! ## Semaphores and cells -/

abbrev barS : Sem sig := (SemArray.scalar (sig.barrier 0 rfl) : Sems sig S_).sem
/-- The DMA semaphores by number: `sa i = i`, `ra i = 16 + i`, `sb i = 32 + i`, `rb i = 48 + i`, input copy `j` at `64 + j`,
    the local copy's at 72. -/
abbrev dsem (n : ℕ) (h : n < 73) : DmaSem sig := ⟨n, h⟩
abbrev saS (i : Fin 16) : DmaSem sig := dsem i.val (by have := i.isLt; omega)
abbrev raS (i : Fin 16) : DmaSem sig := dsem (16 + i.val) (by have := i.isLt; omega)
abbrev sbS (i : Fin 16) : DmaSem sig := dsem (32 + i.val) (by have := i.isLt; omega)
abbrev rbS (i : Fin 16) : DmaSem sig := dsem (48 + i.val) (by have := i.isLt; omega)
abbrev inS (j : Fin 8) : DmaSem sig := dsem (64 + j.val) (by have := j.isLt; omega)
abbrev locS : DmaSem sig := dsem 72 (by omega)

abbrev barCell (c : Dev nD) : GSem nD τ sig := ((c : Thread nD τ), .reg barS)
abbrev dCell (c : Dev nD) (s : DmaSem sig) : GSem nD τ sig := ((c : Thread nD τ), .dma s)

/-! ## Contents -/

/-- Device `c`'s block of `x`. -/
def X (c : Dev nD) : Vec F S4096x1024 .f32 := m ((c : Thread nD τ).loc main_arg0)
/-- The block in the result's format: what the bf16 scratch ends up holding. -/
def BUF (c : Dev nD) : Vec F S4096x1024 .bf16 := truncf .bf16 (X m c) bitsLt_bf16_f32
/-- Whose block's row `r % 4096` device `c`'s result holds in row `r`: its own in its own block's rows; in the other block's
    rows, the column partner's in the half the two share, the diagonal device's in the other half. -/
def srcOf (c : Dev nD) (r : ℕ) : Dev nD :=
  if r / 4096 = c.val / 2 then c else if (r % 4096) / 2048 = c.val % 2 then pa c else pa (pb c)
/-- What device `c`'s result ends up holding. -/
def OUT (c : Dev nD) : Vec F S8192x1024 .bf16 := fun i =>
  BUF m (srcOf c (i 0).val) (ValueIdx.ix2 (⟨(i 0).val % 4096, Nat.mod_lt _ (by decide)⟩ : Fin 4096) (⟨(i 1).val, (i 1).isLt⟩ : Fin 1024))

/-- Device `c` holds the elements under the memref `M` at share `q`, with contents `f`. -/
abbrev pts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-! ## The schedule: one round per cell -/

/-- The credit of a 128-row chunk of the result, of a 512-row slab of the f32 scratch, of the own block in the result. -/
abbrev N128 : ℕ := (oRecvA 0 0).view.dmaCredit
abbrev N512 : ℕ := (vIn1 0 0).view.dmaCredit
abbrev N4096 : ℕ := (oOwn 0).view.dmaCredit

/-- What the column partner's barrier signal hands device `d`: the sixteen chunks of the partner's result that `d` writes,
    as `d` names them, and that the partner is at round 0 of the cells those copies credit. -/
def payBarA (d : Dev nD) : sProp 𝕄 :=
  bigSep Finset.univ fun i : Fin 16 => iprop((∃ f, pts (pa d) (oDstA d i) fullShare f) ∗ reached ER (dCell (pa d) (raS i)) 0)
/-- What the row partner's hands it: the sixteen chunks of that partner's result that `d` forwards into. -/
def payBarB (d : Dev nD) : sProp 𝕄 :=
  bigSep Finset.univ fun i : Fin 16 => iprop((∃ f, pts (pb d) (oRecvA d i) fullShare f) ∗ reached ER (dCell (pb d) (rbS i)) 0)
/-- Send cell `a i`: the source chunk's lent half back. -/
def paySa (d : Dev nD) (i : Fin 16) : sProp 𝕄 := pts d (bSrcA d i) fullShare.left (BUF m d)
/-- Receive cell `a i`: the chunk landed from the column partner (spelt as the partner's copy names the rows). -/
def payRa (d : Dev nD) (i : Fin 16) : sProp 𝕄 := pts d (oDstA (pa d) i) fullShare (OUT m d)
/-- Send cell `b i`: the forwarded chunk back. -/
def paySb (d : Dev nD) (i : Fin 16) : sProp 𝕄 := pts d (oRecvA d i) fullShare (OUT m d)
/-- Receive cell `b i`: the chunk landed from the row partner. -/
def payRb (d : Dev nD) (i : Fin 16) : sProp 𝕄 := pts d (oRecvA (pb d) i) fullShare (OUT m d)
/-- Input copy `j`: the slab landed in the f32 scratch, and its source back. -/
def payIn (d : Dev nD) (j : Fin 8) : sProp 𝕄 :=
  if h : j.val < 4 then iprop(pts d (vIn1 d ⟨j.val, h⟩) fullShare (X m d) ∗ pts d (xIn1 d ⟨j.val, h⟩) fullShare (X m d))
  else iprop(pts d (vIn2 d ⟨j.val - 4, by have := j.isLt; omega⟩) fullShare (X m d) ∗ pts d (xIn2 d ⟨j.val - 4, by have := j.isLt; omega⟩) fullShare (X m d))
/-- The local copy: the own block landed in the result, and the bf16 scratch's lent half back. -/
def payLoc (d : Dev nD) : sProp 𝕄 := iprop(pts d (oOwn d) fullShare (OUT m d) ∗ pts d bM fullShare.right (BUF m d))

def payDma (d : Dev nD) (s : DmaSem sig) : sProp 𝕄 :=
  if h : s.val < 16 then paySa m d ⟨s.val, h⟩
  else if h : s.val < 32 then payRa m d ⟨s.val - 16, by omega⟩
  else if h : s.val < 48 then paySb m d ⟨s.val - 32, by omega⟩
  else if h : s.val < 64 then payRb m d ⟨s.val - 48, by omega⟩
  else if h : s.val < 72 then payIn m d ⟨s.val - 64, by omega⟩
  else payLoc m d

def dmaAmt (s : DmaSem sig) : ℕ := if s.val < 64 then N128 else if s.val < 72 then N512 else N4096

/-- Round 0 only. A barrier cell has the two duties `false` (the column partner's signal) and `true` (the row partner's),
    one unit each; every DMA cell the one duty `false` of its copy's credit. -/
def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => dmaAmt s
  payload g _ d := match g.2 with
    | .reg _ => if d then payBarB g.1.1 else payBarA g.1.1
    | .dma s => payDma m g.1.1 s
  amount_pos g _ _ _ := by
    rcases g with ⟨th, sm⟩
    cases sm with
    | reg s => exact Nat.one_pos
    | dma s =>
      show 0 < dmaAmt s
      unfold dmaAmt
      split
      · exact View.dmaCredit_pos _ (by decide)
      · split
        · exact View.dmaCredit_pos _ (by decide)
        · exact View.dmaCredit_pos _ (by decide)

instance sched_payload_storable (g : GSem nD τ sig) (r : ℕ) (d : Bool) :
    BI.Storable (upEmb : UEmb _ 𝕄) ((sched (F := F) m).payload g r d) := by
  rcases g with ⟨th, sm⟩
  cases sm with
  | reg s =>
    show BI.Storable upEmb (if d then payBarB th.1 else payBarA th.1)
    unfold payBarA payBarB
    split <;> infer_instance
  | dma s =>
    show BI.Storable upEmb (payDma m th.1 s)
    unfold payDma paySa payRa paySb payRb payIn payLoc
    (repeat' split) <;> infer_instance

end Cert.KernelIdeal.AG

end
-- ==== Proof.Ghost.lean ====
import proofs.«900086_g7700000000000087_dist_ag_v7x_xy2x2_x_m4096_n1024_bf16_1_alg».proof.Proof.Proto

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch

In the order the body pays: the signal to the column partner's barrier, the signal to the row partner's, the sixteen
arrivals at the column partner, the sixteen at the row partner. The terms are sums whose LAST summand is the next payment,
so that each payment peels one summand. -/

/-- Chunk `15 - k`: the `k`-th from the end. -/
def rev16 (k : ℕ) : Fin 16 := ⟨15 - k % 16, by omega⟩

/-- The last `n` arrivals at the row partner (chunks `16 - n … 15`). -/
def owedB (c : Dev nD) (n : ℕ) : CellTallies nD τ sig Unit :=
  ∑ k ∈ Finset.range n, tallyAt (dCell (pb c) (rbS (rev16 k))) () N128
/-- All sixteen of those and the last `n` arrivals at the column partner. -/
def owedA (c : Dev nD) (n : ℕ) : CellTallies nD τ sig Unit :=
  owedB c 16 + ∑ k ∈ Finset.range n, tallyAt (dCell (pa c) (raS (rev16 k))) () N128
def O₁ (c : Dev nD) : CellTallies nD τ sig Unit := owedA c 16 + tallyAt (barCell (pb c)) () 1
def O₀ (c : Dev nD) : CellTallies nD τ sig Unit := O₁ c + tallyAt (barCell (pa c)) () 1

theorem owedB_peel (c : Dev nD) (i : Fin 16) :
    owedB c (16 - i.val) = owedB c (15 - i.val) + tallyAt (dCell (pb c) (rbS i)) () N128 := by
  have hi := i.isLt
  have h1 : 16 - i.val = (15 - i.val) + 1 := by omega
  have h2 : rev16 (15 - i.val) = i := Fin.ext (by show 15 - (15 - i.val) % 16 = i.val; omega)
  unfold owedB
  rw [h1, Finset.sum_range_succ, h2]
theorem owedA_peel (c : Dev nD) (i : Fin 16) :
    owedA c (16 - i.val) = owedA c (15 - i.val) + tallyAt (dCell (pa c) (raS i)) () N128 := by
  have hi := i.isLt
  have h1 : 16 - i.val = (15 - i.val) + 1 := by omega
  have h2 : rev16 (15 - i.val) = i := Fin.ext (by show 15 - (15 - i.val) % 16 = i.val; omega)
  unfold owedA
  rw [h1, Finset.sum_range_succ, h2, add_assoc]
theorem owedA_zero (c : Dev nD) : owedA c 0 = owedB c 16 := by
  unfold owedA; rw [Finset.range_zero, Finset.sum_empty, add_zero]
theorem owedB_zero (c : Dev nD) : owedB c 0 = 0 := by
  unfold owedB; rw [Finset.range_zero, Finset.sum_empty]

/-! ## Levels: barrier cells at 1, the column arrivals' cells at 2, the row arrivals' at 3, every other cell at 0 -/

def L (g : GSem nD τ sig) : Finset Unit := if g.1.2 = .tc then {()} else ∅
def lv (g : GSem nD τ sig) (_ : Unit) : ℕ :=
  match g.2 with
  | .reg _ => 1
  | .dma s => if 16 ≤ s.val ∧ s.val < 32 then 2 else if 48 ≤ s.val ∧ s.val < 64 then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

abbrev gcell (ck : Dev nD × SemLoc sig) : GSem nD τ sig := ((ck.1 : Thread nD τ), ck.2)

/-- Every cell's invariant, at the names `K`, and that every cell's round 0 is reached: persistent, held by every device. -/
def records (K : Dev nD × SemLoc sig → ℕ) : sProp 𝕄 :=
  iprop((bigSep Finset.univ fun ck : Dev nD × SemLoc sig => cellInv ER (sched m) (K ck) (gcell ck))
    ∗ bigSep Finset.univ fun ck : Dev nD × SemLoc sig => reached ER (gcell ck) 0)

instance records_persistent (K : Dev nD × SemLoc sig → ℕ) : BI.Persistent (records m K) := by unfold records; infer_instance

/-- The tokens of the duties device `c` pays: the partners' barrier duties, the thirty-two arrivals, and its own cells' copies. -/
def payToks (c : Dev nD) : sProp 𝕄 :=
  iprop(dutyTok ER (barCell (pa c)) 0 false ∗ dutyTok ER (barCell (pb c)) 0 true
    ∗ (bigSep Finset.univ fun i : Fin 16 => dutyTok ER (dCell (pa c) (raS i)) 0 false)
    ∗ (bigSep Finset.univ fun i : Fin 16 => dutyTok ER (dCell (pb c) (rbS i)) 0 false)
    ∗ (bigSep Finset.univ fun i : Fin 16 => dutyTok ER (dCell c (saS i)) 0 false)
    ∗ (bigSep Finset.univ fun i : Fin 16 => dutyTok ER (dCell c (sbS i)) 0 false)
    ∗ (bigSep Finset.univ fun j : Fin 8 => dutyTok ER (dCell c (inS j)) 0 false)
    ∗ dutyTok ER (dCell c locS) 0 false)

/-- Its positions: at round 0 of each of its own cells. -/
def positions (c : Dev nD) : sProp 𝕄 :=
  iprop(atPos ER (barCell c) 0 ∅ 0
    ∗ (bigSep Finset.univ fun i : Fin 16 => atPos ER (dCell c (saS i)) 0 ∅ 0)
    ∗ (bigSep Finset.univ fun i : Fin 16 => atPos ER (dCell c (raS i)) 0 ∅ 0)
    ∗ (bigSep Finset.univ fun i : Fin 16 => atPos ER (dCell c (sbS i)) 0 ∅ 0)
    ∗ (bigSep Finset.univ fun i : Fin 16 => atPos ER (dCell c (rbS i)) 0 ∅ 0)
    ∗ (bigSep Finset.univ fun j : Fin 8 => atPos ER (dCell c (inS j)) 0 ∅ 0)
    ∗ atPos ER (dCell c locS) 0 ∅ 0)

def ghost (K : Dev nD × SemLoc sig → ℕ) (c : Dev nD) : sProp 𝕄 := iprop(records m K ∗ positions c ∗ payToks c)

/-- The credit the launch deals device `c` for what the others owe its cells. -/
def launchCreds (c : Dev nD) : sProp 𝕄 :=
  iprop(cred (tallyAt (barCell c) () 2)
    ∗ (bigSep Finset.univ fun i : Fin 16 => cred (tallyAt (dCell c (raS i)) () N128))
    ∗ (bigSep Finset.univ fun i : Fin 16 => cred (tallyAt (dCell c (rbS i)) () N128)))

/-- What device `c`'s body starts from, the scratch buffers apart. -/
def start (c : Dev nD) : sProp 𝕄 :=
  iprop((∃ K, ghost m K c) ∗ launchCreds c ∗ levAts L lv ∗ pts c xM fullShare (X m c) ∗ (∃ f, pts c oM fullShare f))

def Φ₀ (c : Dev nD) : sProp 𝕄 := iprop(start m c ∗ (∃ f, pts c vM fullShare f) ∗ (∃ f, pts c bM fullShare f))
/-- After the body: `x` as it was, the result gathered, the scratch buffers, and every own DMA cell closed at zero. -/
def Φ₁ (c : Dev nD) : sProp 𝕄 :=
  iprop(pts c xM fullShare (X m c) ∗ pts c oM fullShare (OUT m c) ∗ (∃ f, pts c vM fullShare f) ∗ (∃ f, pts c bM fullShare f)
    ∗ (bigSep Finset.univ fun s : DmaSem sig => semVal (dCell c s) 0))

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.Sched.lean ====
/-
# The schedule's tables

The all-gather's schedule has one round per cell. These are its entries, cell by cell: the duties, the amounts, the
units a round expects, the payloads, and the rest of a round of which no duty has been taken; the credits of the views
the copies name; and a big star over sixteen, eight or four indices written out as a chain.
-/
import proofs.«900086_g7700000000000087_dist_ag_v7x_xy2x2_x_m4096_n1024_bf16_1_alg».proof.Proof.Proto

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Duties, amounts and the units a round expects -/

/-- A barrier cell's round 0 has both duties. -/
theorem duties_bar (c : Dev nD) : (sched (F := F) m).duties (barCell c) 0 = Finset.univ := by
  dsimp only [sched]; exact if_pos ⟨rfl, rfl⟩

/-- A DMA cell's round 0 has the one duty of its copy. -/
theorem duties_dma (c : Dev nD) (s : DmaSem sig) : (sched (F := F) m).duties (dCell c s) 0 = {false} := by
  dsimp only [sched]; exact if_pos ⟨rfl, rfl⟩

/-- No cell has a duty after round 0. -/
theorem duties_later (g : GSem nD τ sig) : ∀ r, 1 ≤ r → (sched (F := F) m).duties g r = ∅ :=
  fun r hr => by dsimp only [sched]; exact if_neg fun h => by have := h.1; omega

/-- Each barrier signal is one unit. -/
theorem amount_bar (c : Dev nD) (d : Bool) : (sched (F := F) m).amount (barCell c) 0 d = 1 := rfl

/-- A copy credits its cell the credit of its semaphore's class. -/
theorem amount_dma (c : Dev nD) (s : DmaSem sig) (d : Bool) : (sched (F := F) m).amount (dCell c s) 0 d = dmaAmt s := rfl

theorem dmaAmt_sa (i : Fin 16) : dmaAmt (saS i) = N128 := by
  unfold dmaAmt; exact if_pos (show i.val < 64 by have := i.isLt; omega)
theorem dmaAmt_ra (i : Fin 16) : dmaAmt (raS i) = N128 := by
  unfold dmaAmt; exact if_pos (show 16 + i.val < 64 by have := i.isLt; omega)
theorem dmaAmt_sb (i : Fin 16) : dmaAmt (sbS i) = N128 := by
  unfold dmaAmt; exact if_pos (show 32 + i.val < 64 by have := i.isLt; omega)
theorem dmaAmt_rb (i : Fin 16) : dmaAmt (rbS i) = N128 := by
  unfold dmaAmt; exact if_pos (show 48 + i.val < 64 by have := i.isLt; omega)
theorem dmaAmt_in (j : Fin 8) : dmaAmt (inS j) = N512 := by
  unfold dmaAmt
  rw [if_neg (show ¬ (64 + j.val < 64) by omega)]
  exact if_pos (show 64 + j.val < 72 by have := j.isLt; omega)
theorem dmaAmt_loc : dmaAmt locS = N4096 := by
  unfold dmaAmt
  rw [if_neg (show ¬ ((72 : ℕ) < 64) by omega)]
  exact if_neg (show ¬ ((72 : ℕ) < 72) by omega)

/-- The barrier cell expects its two units. -/
theorem expect_bar (c : Dev nD) : (sched (F := F) m).expect (barCell c) 0 = 2 := by
  unfold Schedule.expect Schedule.amountOf
  rw [duties_bar, Finset.sum_congr rfl fun d _ => amount_bar m c d, Finset.sum_const, Finset.card_univ, Fintype.card_bool, smul_eq_mul]

/-- A DMA cell expects its one copy's credit. -/
theorem expect_dma (c : Dev nD) (s : DmaSem sig) : (sched (F := F) m).expect (dCell c s) 0 = dmaAmt s := by
  unfold Schedule.expect Schedule.amountOf; rw [duties_dma, Finset.sum_singleton, amount_dma]

/-! ## Payloads -/

/-- The column partner's signal hands the barrier's owner the partner's chunks. -/
theorem payload_bar_false (c : Dev nD) : (sched (F := F) m).payload (barCell c) 0 false = payBarA c := by
  dsimp only [sched]; exact if_neg Bool.false_ne_true
/-- The row partner's signal hands it that partner's chunks. -/
theorem payload_bar_true (c : Dev nD) : (sched (F := F) m).payload (barCell c) 0 true = payBarB c := by
  dsimp only [sched]; exact if_pos rfl

/-- A copy's landing hands the DMA cell's owner that semaphore's payload. -/
theorem payload_dma (c : Dev nD) (s : DmaSem sig) (d : Bool) : (sched (F := F) m).payload (dCell c s) 0 d = payDma m c s := rfl

theorem payDma_sa (c : Dev nD) (i : Fin 16) : payDma m c (saS i) = paySa m c i := by
  unfold payDma; exact dif_pos (c := (saS i).val < 16) i.isLt

theorem payDma_ra (c : Dev nD) (i : Fin 16) : payDma m c (raS i) = payRa m c i := by
  have h1 : ¬ (raS i).val < 16 := by show ¬ (16 + i.val < 16); omega
  have h2 : (raS i).val < 32 := by show 16 + i.val < 32; have := i.isLt; omega
  unfold payDma
  rw [dif_neg h1, dif_pos h2]
  congr 1
  exact Fin.ext (show 16 + i.val - 16 = i.val by omega)

theorem payDma_sb (c : Dev nD) (i : Fin 16) : payDma m c (sbS i) = paySb m c i := by
  have h1 : ¬ (sbS i).val < 16 := by show ¬ (32 + i.val < 16); omega
  have h2 : ¬ (sbS i).val < 32 := by show ¬ (32 + i.val < 32); omega
  have h3 : (sbS i).val < 48 := by show 32 + i.val < 48; have := i.isLt; omega
  unfold payDma
  rw [dif_neg h1, dif_neg h2, dif_pos h3]
  congr 1
  exact Fin.ext (show 32 + i.val - 32 = i.val by omega)

theorem payDma_rb (c : Dev nD) (i : Fin 16) : payDma m c (rbS i) = payRb m c i := by
  have h1 : ¬ (rbS i).val < 16 := by show ¬ (48 + i.val < 16); omega
  have h2 : ¬ (rbS i).val < 32 := by show ¬ (48 + i.val < 32); omega
  have h3 : ¬ (rbS i).val < 48 := by show ¬ (48 + i.val < 48); omega
  have h4 : (rbS i).val < 64 := by show 48 + i.val < 64; have := i.isLt; omega
  unfold payDma
  rw [dif_neg h1, dif_neg h2, dif_neg h3, dif_pos h4]
  congr 1
  exact Fin.ext (show 48 + i.val - 48 = i.val by omega)

/-- Input copy `j`'s semaphore carries input copy `j`'s payload. -/
theorem payDma_in (c : Dev nD) (j : Fin 8) : payDma m c (inS j) = payIn m c j := by
  have h1 : ¬ (inS j).val < 16 := by show ¬ (64 + j.val < 16); omega
  have h2 : ¬ (inS j).val < 32 := by show ¬ (64 + j.val < 32); omega
  have h3 : ¬ (inS j).val < 48 := by show ¬ (64 + j.val < 48); omega
  have h4 : ¬ (inS j).val < 64 := by show ¬ (64 + j.val < 64); omega
  have h5 : (inS j).val < 72 := by show 64 + j.val < 72; have := j.isLt; omega
  unfold payDma
  rw [dif_neg h1, dif_neg h2, dif_neg h3, dif_neg h4, dif_pos h5]
  congr 1
  exact Fin.ext (show 64 + j.val - 64 = j.val by omega)

theorem payDma_loc (c : Dev nD) : payDma m c locS = payLoc m c := by
  unfold payDma
  rw [dif_neg (show ¬ (locS : DmaSem sig).val < 16 by show ¬ ((72 : ℕ) < 16); omega),
    dif_neg (show ¬ (locS : DmaSem sig).val < 32 by show ¬ ((72 : ℕ) < 32); omega),
    dif_neg (show ¬ (locS : DmaSem sig).val < 48 by show ¬ ((72 : ℕ) < 48); omega),
    dif_neg (show ¬ (locS : DmaSem sig).val < 64 by show ¬ ((72 : ℕ) < 64); omega),
    dif_neg (show ¬ (locS : DmaSem sig).val < 72 by show ¬ ((72 : ℕ) < 72); omega)]

/-- The payload of a slab of the second half does not depend on how its index is written. -/
theorem payIn2_congr (c : Dev nD) (k k' : Fin 4) (h : k' = k) :
    iprop(pts c (vIn2 c k') fullShare (X m c) ∗ pts c (xIn2 c k') fullShare (X m c))
      = iprop(pts c (vIn2 c k) fullShare (X m c) ∗ pts c (xIn2 c k) fullShare (X m c)) := by
  subst h; rfl

/-- The first four input copies land the slabs of the own half and return their sources. -/
theorem payDma_in1 (c : Dev nD) (k : Fin 4) : payDma m c (inS ⟨k.val, by omega⟩)
    = iprop(pts c (vIn1 c k) fullShare (X m c) ∗ pts c (xIn1 c k) fullShare (X m c)) := by
  rw [payDma_in]
  unfold payIn
  rw [dif_pos (show ((⟨k.val, by omega⟩ : Fin 8)).val < 4 from k.isLt)]

/-- The last four land the slabs of the other half. -/
theorem payDma_in2 (c : Dev nD) (k : Fin 4) : payDma m c (inS ⟨4 + k.val, by omega⟩)
    = iprop(pts c (vIn2 c k) fullShare (X m c) ∗ pts c (xIn2 c k) fullShare (X m c)) := by
  rw [payDma_in]
  unfold payIn
  rw [dif_neg (show ¬ ((⟨4 + k.val, by omega⟩ : Fin 8)).val < 4 by show ¬ (4 + k.val < 4); omega)]
  exact payIn2_congr m c k _ (Fin.ext (show 4 + k.val - 4 = k.val by omega))

/-! ## The rest of a round of which nothing has been taken -/

/-- The barrier's: both partners' payloads. -/
theorem rest_bar (c : Dev nD) : bigSep ((sched (F := F) m).duties (barCell c) 0 \ ∅) (fun d => (sched (F := F) m).payload (barCell c) 0 d)
    = iprop(payBarA c ∗ payBarB c) := by
  rw [Finset.sdiff_empty, duties_bar, bigSep_univ_eq_bigSepL [false, true] (by decide) (by decide), bigSepL_cons_cons, bigSepL_singleton,
    payload_bar_false, payload_bar_true]
  rfl

/-- A DMA cell's: its copy's payload. -/
theorem rest_dma (c : Dev nD) (s : DmaSem sig) : bigSep ((sched (F := F) m).duties (dCell c s) 0 \ ∅) (fun d => (sched (F := F) m).payload (dCell c s) 0 d)
    = payDma m c s := by
  rw [Finset.sdiff_empty, duties_dma, bigSep_singleton, payload_dma]

/-! ## Credits -/

theorem N128_pos : 0 < N128 := View.dmaCredit_pos _ (by decide)
theorem N512_pos : 0 < N512 := View.dmaCredit_pos _ (by decide)
theorem N4096_pos : 0 < N4096 := View.dmaCredit_pos _ (by decide)

/-- A view's credit is a function of its shape and element type on this processor, so every 128-row chunk of the result
    or of the bf16 scratch credits alike, every 512-row slab of the f32 scratch alike. -/
theorem amt_dstA (c : Dev nD) (i : Fin 16) : (oDstA c i).view.dmaCredit = N128 := rfl
theorem amt_recvA (c : Dev nD) (i : Fin 16) : (oRecvA c i).view.dmaCredit = N128 := rfl
theorem amt_srcA (c : Dev nD) (i : Fin 16) : (bSrcA c i).view.dmaCredit = N128 := rfl
theorem amt_vIn1 (c : Dev nD) (k : Fin 4) : (vIn1 c k).view.dmaCredit = N512 := rfl
theorem amt_vIn2 (c : Dev nD) (k : Fin 4) : (vIn2 c k).view.dmaCredit = N512 := rfl
theorem amt_own (c : Dev nD) : (oOwn c).view.dmaCredit = N4096 := rfl

/-! ## A big star over a few indices, written out -/

omit [FloatOps F] in
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- info: 'Cert.KernelIdeal.AG.rest_bar' depends on axioms: [propext, Classical.choice, Quot.sound] -/
#guard_msgs in #print axioms rest_bar

end Cert.KernelIdeal.AG

end
-- ==== Proof.Geom.lean ====
/-
# The all-gather on the 2 × 2 mesh: the sets

Each of a device's four buffers is cut into the pieces the body holds apart: the f32 argument and scratch into eight
slabs of 512 rows, the bf16 scratch into the sixteen chunks of the half that is sent and the four slabs of the other half,
the result into the own block and the thirty-two chunks of the other block. Every piece is a band of whole rows, so a
set identity is an identity of row ranges, read off the closed forms of the printed offsets and decided by linear arithmetic.
-/
import proofs.«900086_g7700000000000087_dist_ag_v7x_xy2x2_x_m4096_n1024_bf16_1_alg».proof.Proof.Proto

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The offsets -/

/-- Chunk `i` of the own half is stored to and sent from the same rows of the bf16 scratch. -/
theorem off3_eq_off5 (c : Dev nD) (i : Fin 16) : k0_off3 c (w128 i) = k0_off5 c (w128 i) :=
  (k0_off3_eq c i).trans (k0_off5_eq c i).symm

/-- The rows the column partner sends its chunk `i` to are the rows this device forwards from. -/
theorem off4_pa (c : Dev nD) (i : Fin 16) : k0_off4 (pa c) (w128 i) = k0_off8 c (w128 i) := by
  rw [k0_off4_eq (pa c) i, k0_off8_eq c i]
  have hc : c.val < 4 := c.isLt
  have hi : i.val < 16 := i.isLt
  have hpa : (pa c).val = ((c.val % 2) + 2) - 2 * (c.val / 2) := rfl
  have h : 4096 * ((pa c).val / 2) + 2048 * ((pa c).val % 2) + 128 * i.val
      = (2048 * (c.val % 2) + 128 * i.val + 4096) - 4096 * (c.val / 2) := by
    rw [hpa]; omega
  rw [h]

theorem oDstA_pa (c : Dev nD) (i : Fin 16) : oDstA (pa c) i = oRecvA c i :=
  Memref.slice_unit_congr oM (off4_pa c i) _ _ _ _

/-- The chunk as stored and as sent: the same elements. -/
theorem set_rCh (c : Dev nD) (i : Fin 16) : (bM.access (rCh c i)).set = (bSrcA c i).view.set := by
  have h : rCh c i = rSrcA c i := Rect.unit_congr (off3_eq_off5 c i) _ _
  show (bM.view.slice (rCh c i)).set = (bM.view.slice (rSrcA c i)).set
  rw [h]

/-! ## Membership in a band of whole rows -/

/-- A unit-stride rectangle of a rank-two shape that spans every column: membership is a range of rows. -/
theorem mem_unit_rows (d off size : Fin 2 → ℕ) (inb : ∀ a, off a + size a ≤ (⟨2, d⟩ : Shape).size a)
    (h1 : off 1 = 0) (h1' : size 1 = d 1) (x : (⟨2, d⟩ : Shape).Idx) :
    x ∈ (Rect.unit (s := ⟨2, d⟩) off size inb).set ↔ off 0 ≤ (x 0).val ∧ (x 0).val < off 0 + size 0 := by
  rw [Rect.mem_set_unit, Fin.forall_fin_two]
  have h2 : (x 1).val < d 1 := (x 1).isLt
  constructor
  · intro h; exact h.1
  · intro h; refine ⟨h, ?_, ?_⟩ <;> omega

theorem mem_rOwn (c : Dev nD) (x : S8192x1024.Idx) :
    x ∈ (rOwn c).set ↔ 4096 * (c.val / 2) ≤ (x 0).val ∧ (x 0).val < 4096 * (c.val / 2) + 4096 := by
  have e := k0_off7_eq c
  have e0 : k0_off7 c 0 = 4096 * (c.val / 2) := by rw [e]; rfl
  have h := mem_unit_rows ![8192, 1024] (k0_off7 c) S4096x1024.size (k0_off7_inb c) (by rw [e]; rfl) rfl x
  rw [e0] at h
  exact h

theorem mem_rRecvA (c : Dev nD) (i : Fin 16) (x : S8192x1024.Idx) :
    x ∈ (rRecvA c i).set ↔ (2048 * (c.val % 2) + 128 * i.val + 4096) - 4096 * (c.val / 2) ≤ (x 0).val
      ∧ (x 0).val < (2048 * (c.val % 2) + 128 * i.val + 4096) - 4096 * (c.val / 2) + 128 := by
  have e := k0_off8_eq c i
  have e0 : k0_off8 c (w128 i) 0 = (2048 * (c.val % 2) + 128 * i.val + 4096) - 4096 * (c.val / 2) := by rw [e]; rfl
  have h := mem_unit_rows ![8192, 1024] (k0_off8 c (w128 i)) S128x1024.size (k0_off8_inb c i) (by rw [e]; rfl) rfl x
  rw [e0] at h
  exact h

/-! ## The result: the own block and the thirty-two chunks of the other block -/

theorem mem_o (c : Dev nD) (x : S8192x1024.Idx) :
    x ∈ (rOwn c).set ∪ ((Finset.univ.biUnion fun i : Fin 16 => (rRecvA c i).set)
      ∪ (Finset.univ.biUnion fun i : Fin 16 => (rRecvA (pb c) i).set)) := by
  simp only [Finset.mem_univ, Finset.mem_union, Finset.mem_biUnion, true_and, mem_rOwn, mem_rRecvA]
  have hc : c.val < 4 := c.isLt
  have hpb : (pb c).val = (2 * (c.val / 2) + 1) - (c.val % 2) := rfl
  have hx : (x 0).val < 8192 := (x 0).isLt
  by_cases h1 : 4096 * (c.val / 2) ≤ (x 0).val ∧ (x 0).val < 4096 * (c.val / 2) + 4096
  · exact Or.inl h1
  · right
    by_cases h2 : ((x 0).val % 4096) / 2048 = c.val % 2
    · left; refine ⟨⟨((x 0).val % 2048) / 128, by omega⟩, ?_⟩; dsimp only; constructor <;> omega
    · right; refine ⟨⟨((x 0).val % 2048) / 128, by omega⟩, ?_⟩; rw [hpb]; dsimp only; constructor <;> omega

theorem disj_o1 (c : Dev nD) :
    Disjoint (rOwn c).set ((Finset.univ.biUnion fun i : Fin 16 => (rRecvA c i).set)
      ∪ (Finset.univ.biUnion fun i : Fin 16 => (rRecvA (pb c) i).set)) := by
  rw [Finset.disjoint_left]
  intro x hx hx'
  rw [mem_rOwn] at hx
  simp only [Finset.mem_union, Finset.mem_biUnion, Finset.mem_univ, true_and, mem_rRecvA] at hx'
  have hc : c.val < 4 := c.isLt
  have hpb : (pb c).val = (2 * (c.val / 2) + 1) - (c.val % 2) := rfl
  rcases hx' with ⟨i, h⟩ | ⟨i, h⟩
  · have hi := i.isLt; omega
  · have hi := i.isLt; rw [hpb] at h; omega

theorem disj_o2 (c : Dev nD) :
    Disjoint (Finset.univ.biUnion fun i : Fin 16 => (rRecvA c i).set)
      (Finset.univ.biUnion fun i : Fin 16 => (rRecvA (pb c) i).set) := by
  rw [Finset.disjoint_left]
  intro x hx hx'
  simp only [Finset.mem_biUnion, Finset.mem_univ, true_and, mem_rRecvA] at hx hx'
  have hc : c.val < 4 := c.isLt
  have hpb : (pb c).val = (2 * (c.val / 2) + 1) - (c.val % 2) := rfl
  obtain ⟨i, h⟩ := hx
  obtain ⟨j, h'⟩ := hx'
  have hi := i.isLt; have hj := j.isLt
  rw [hpb] at h'; omega

theorem disj_o3 (c : Dev nD) : ∀ t ∈ (Finset.univ : Finset (Fin 16)), ∀ t' ∈ (Finset.univ : Finset (Fin 16)), t ≠ t' →
    Disjoint (rRecvA c t).set (rRecvA c t').set := by
  intro t _ t' _ hne
  rw [Finset.disjoint_left]
  intro x hx hx'
  rw [mem_rRecvA] at hx hx'
  have hc : c.val < 4 := c.isLt
  have hi := t.isLt; have hj := t'.isLt
  have : t.val ≠ t'.val := fun e => hne (Fin.ext e)
  omega

theorem split_o (c : Dev nD) (q : PosShare TreeShare) (f : Buf (Elt F) (oM.view.loc (c : Thread nD τ))) :
    (pts (F := F) c oM q f) ⊣⊢ iprop(pts c (oOwn c) q f ∗ (bigSep Finset.univ fun i : Fin 16 => pts c (oRecvA c i) q f)
      ∗ (bigSep Finset.univ fun i : Fin 16 => pts c (oRecvA (pb c) i) q f)) := by
  have hu1 : (oM.view.loc (c : Thread nD τ) ↦[(rOwn c).set ∪ ((Finset.univ.biUnion fun i : Fin 16 => (rRecvA c i).set)
      ∪ (Finset.univ.biUnion fun i : Fin 16 => (rRecvA (pb c) i).set))]{q} f : sProp 𝕄) ⊣⊢ _ := pointsTo_union (disj_o1 c)
  have hu2 : (oM.view.loc (c : Thread nD τ) ↦[(Finset.univ.biUnion fun i : Fin 16 => (rRecvA c i).set)
      ∪ (Finset.univ.biUnion fun i : Fin 16 => (rRecvA (pb c) i).set)]{q} f : sProp 𝕄) ⊣⊢ _ := pointsTo_union (disj_o2 c)
  rw [pointsTo_biUnion _ _ (disj_o3 c), pointsTo_biUnion _ _ (disj_o3 (pb c))] at hu2
  have hs : oM.view.set = (rOwn c).set ∪ ((Finset.univ.biUnion fun i : Fin 16 => (rRecvA c i).set)
      ∪ (Finset.univ.biUnion fun i : Fin 16 => (rRecvA (pb c) i).set)) := by
    have e1 : oM.view.set = Finset.univ := View.set_whole main_v1
    ext x
    exact ⟨fun _ => mem_o c x, fun _ => by rw [e1]; exact Finset.mem_univ x⟩
  have e1 : ∀ (d : Dev nD) (i : Fin 16), (oRecvA d i).view.set = (rRecvA d i).set := fun d i => View.set_slice_whole _ _
  have e3 : (oOwn c).view.set = (rOwn c).set := View.set_slice_whole _ _
  show (oM.view.loc (c : Thread nD τ) ↦[oM.view.set]{q} f : sProp 𝕄) ⊣⊢ iprop((oM.view.loc (c : Thread nD τ) ↦[(oOwn c).view.set]{q} f)
      ∗ (bigSep Finset.univ fun i : Fin 16 => oM.view.loc (c : Thread nD τ) ↦[(oRecvA c i).view.set]{q} f)
      ∗ (bigSep Finset.univ fun i : Fin 16 => oM.view.loc (c : Thread nD τ) ↦[(oRecvA (pb c) i).view.set]{q} f))
  rw [e3, hs]
  simp only [e1]
  exact hu1.trans (sep_congr_right hu2)

/-! ## A set cut into two families of pieces -/

/-- A points-to over a set that two families of pairwise disjoint pieces cover is the pieces' points-tos. -/
theorem pointsTo_two_families {ℓ : Loc nD τ sig} {T₁ T₂ : Type} [Fintype T₁] [Fintype T₂]
    (S : Finset (Idx ℓ)) (K₁ : T₁ → Finset (Idx ℓ)) (K₂ : T₂ → Finset (Idx ℓ))
    (hS : ∀ x, x ∈ S) (hcov : ∀ x, (∃ t, x ∈ K₁ t) ∨ (∃ t, x ∈ K₂ t))
    (h₁ : ∀ t t', t ≠ t' → Disjoint (K₁ t) (K₁ t')) (h₂ : ∀ t t', t ≠ t' → Disjoint (K₂ t) (K₂ t'))
    (h₁₂ : ∀ t t', Disjoint (K₁ t) (K₂ t')) (q : PosShare TreeShare) (f : Buf (Elt F) ℓ) :
    (ℓ ↦[S]{q} f : sProp 𝕄) ⊣⊢ iprop((bigSep Finset.univ fun t => ℓ ↦[K₁ t]{q} f) ∗ (bigSep Finset.univ fun t => ℓ ↦[K₂ t]{q} f)) := by
  classical
  have hs : S = (Finset.univ.biUnion K₁) ∪ (Finset.univ.biUnion K₂) := by
    ext x
    simp only [Finset.mem_union, Finset.mem_biUnion, Finset.mem_univ, true_and]
    exact ⟨fun _ => hcov x, fun _ => hS x⟩
  have hd : Disjoint (Finset.univ.biUnion K₁) (Finset.univ.biUnion K₂) := by
    rw [Finset.disjoint_biUnion_left]
    intro t _
    rw [Finset.disjoint_biUnion_right]
    intro t' _
    exact h₁₂ t t'
  have hu : (ℓ ↦[(Finset.univ.biUnion K₁) ∪ (Finset.univ.biUnion K₂)]{q} f : sProp 𝕄) ⊣⊢ _ := pointsTo_union hd
  rw [pointsTo_biUnion _ _ (fun t _ t' _ hne => h₁ t t' hne), pointsTo_biUnion _ _ (fun t _ t' _ hne => h₂ t t' hne)] at hu
  rw [hs]
  exact hu

/-! ## The three buffers of 4096 rows -/

theorem mem_rIn1 (c : Dev nD) (j : Fin 4) (x : S4096x1024.Idx) :
    x ∈ (rIn1 c j).set ↔ 2048 * (c.val % 2) + 512 * j.val ≤ (x 0).val ∧ (x 0).val < 2048 * (c.val % 2) + 512 * j.val + 512 := by
  have e := k0_off1_eq c j
  have e0 : k0_off1 c (w512 j) 0 = 2048 * (c.val % 2) + 512 * j.val := by rw [e]; rfl
  have h := mem_unit_rows ![4096, 1024] (k0_off1 c (w512 j)) S512x1024.size (k0_off1_inb c j) (by rw [e]; rfl) rfl x
  rw [e0] at h
  exact h

theorem mem_rIn2 (c : Dev nD) (j : Fin 4) (x : S4096x1024.Idx) :
    x ∈ (rIn2 c j).set ↔ (512 * j.val + 2048) - 2048 * (c.val % 2) ≤ (x 0).val
      ∧ (x 0).val < (512 * j.val + 2048) - 2048 * (c.val % 2) + 512 := by
  have e := k0_off2_eq c j
  have e0 : k0_off2 c (w512 j) 0 = (512 * j.val + 2048) - 2048 * (c.val % 2) := by rw [e]; rfl
  have h := mem_unit_rows ![4096, 1024] (k0_off2 c (w512 j)) S512x1024.size (k0_off2_inb c j) (by rw [e]; rfl) rfl x
  rw [e0] at h
  exact h

theorem mem_rCh (c : Dev nD) (i : Fin 16) (x : S4096x1024.Idx) :
    x ∈ (rCh c i).set ↔ 2048 * (c.val % 2) + 128 * i.val ≤ (x 0).val ∧ (x 0).val < 2048 * (c.val % 2) + 128 * i.val + 128 := by
  have e := k0_off3_eq c i
  have e0 : k0_off3 c (w128 i) 0 = 2048 * (c.val % 2) + 128 * i.val := by rw [e]; rfl
  have h := mem_unit_rows ![4096, 1024] (k0_off3 c (w128 i)) S128x1024.size (k0_off3_inb c i) (by rw [e]; rfl) rfl x
  rw [e0] at h
  exact h

theorem mem_rSrcA (c : Dev nD) (i : Fin 16) (x : S4096x1024.Idx) :
    x ∈ (rSrcA c i).set ↔ 2048 * (c.val % 2) + 128 * i.val ≤ (x 0).val ∧ (x 0).val < 2048 * (c.val % 2) + 128 * i.val + 128 := by
  have e := k0_off5_eq c i
  have e0 : k0_off5 c (w128 i) 0 = 2048 * (c.val % 2) + 128 * i.val := by rw [e]; rfl
  have h := mem_unit_rows ![4096, 1024] (k0_off5 c (w128 i)) S128x1024.size (k0_off5_inb c i) (by rw [e]; rfl) rfl x
  rw [e0] at h
  exact h

theorem mem_rCh2 (c : Dev nD) (j : Fin 4) (x : S4096x1024.Idx) :
    x ∈ (rCh2 c j).set ↔ (512 * j.val + 2048) - 2048 * (c.val % 2) ≤ (x 0).val
      ∧ (x 0).val < (512 * j.val + 2048) - 2048 * (c.val % 2) + 512 := by
  have e := k0_off6_eq c j
  have e0 : k0_off6 c (w512 j) 0 = (512 * j.val + 2048) - 2048 * (c.val % 2) := by rw [e]; rfl
  have h := mem_unit_rows ![4096, 1024] (k0_off6 c (w512 j)) S512x1024.size (k0_off6_inb c j) (by rw [e]; rfl) rfl x
  rw [e0] at h
  exact h

/-- The eight slabs of 512 rows cover the 4096 rows. -/
theorem cov_in (c : Dev nD) (x : S4096x1024.Idx) : (∃ j, x ∈ (rIn1 c j).set) ∨ (∃ j, x ∈ (rIn2 c j).set) := by
  simp only [mem_rIn1, mem_rIn2]
  have hc : c.val < 4 := c.isLt
  have hx : (x 0).val < 4096 := (x 0).isLt
  by_cases h : (x 0).val / 2048 = c.val % 2
  · left; refine ⟨⟨((x 0).val % 2048) / 512, by omega⟩, ?_⟩; dsimp only; constructor <;> omega
  · right; refine ⟨⟨((x 0).val % 2048) / 512, by omega⟩, ?_⟩; dsimp only; constructor <;> omega

theorem disj_in1 (c : Dev nD) (j j' : Fin 4) (hne : j ≠ j') : Disjoint (rIn1 c j).set (rIn1 c j').set := by
  rw [Finset.disjoint_left]
  intro x hx hx'
  rw [mem_rIn1] at hx hx'
  have : j.val ≠ j'.val := fun e => hne (Fin.ext e)
  omega

theorem disj_in2 (c : Dev nD) (j j' : Fin 4) (hne : j ≠ j') : Disjoint (rIn2 c j).set (rIn2 c j').set := by
  rw [Finset.disjoint_left]
  intro x hx hx'
  rw [mem_rIn2] at hx hx'
  have : j.val ≠ j'.val := fun e => hne (Fin.ext e)
  omega

theorem disj_in12 (c : Dev nD) (j j' : Fin 4) : Disjoint (rIn1 c j).set (rIn2 c j').set := by
  rw [Finset.disjoint_left]
  intro x hx hx'
  rw [mem_rIn1] at hx
  rw [mem_rIn2] at hx'
  have := j.isLt; have := j'.isLt
  omega

/-- The sixteen chunks of the half that is sent and the four slabs of the other half cover the 4096 rows. -/
theorem cov_b (c : Dev nD) (x : S4096x1024.Idx) : (∃ i, x ∈ (rSrcA c i).set) ∨ (∃ k, x ∈ (rCh2 c k).set) := by
  simp only [mem_rSrcA, mem_rCh2]
  have hc : c.val < 4 := c.isLt
  have hx : (x 0).val < 4096 := (x 0).isLt
  by_cases h : (x 0).val / 2048 = c.val % 2
  · left; refine ⟨⟨((x 0).val % 2048) / 128, by omega⟩, ?_⟩; dsimp only; constructor <;> omega
  · right; refine ⟨⟨((x 0).val % 2048) / 512, by omega⟩, ?_⟩; dsimp only; constructor <;> omega

theorem disj_b1 (c : Dev nD) (i i' : Fin 16) (hne : i ≠ i') : Disjoint (rSrcA c i).set (rSrcA c i').set := by
  rw [Finset.disjoint_left]
  intro x hx hx'
  rw [mem_rSrcA] at hx hx'
  have : i.val ≠ i'.val := fun e => hne (Fin.ext e)
  omega

theorem disj_b2 (c : Dev nD) (j j' : Fin 4) (hne : j ≠ j') : Disjoint (rCh2 c j).set (rCh2 c j').set := by
  rw [Finset.disjoint_left]
  intro x hx hx'
  rw [mem_rCh2] at hx hx'
  have : j.val ≠ j'.val := fun e => hne (Fin.ext e)
  omega

theorem disj_b12 (c : Dev nD) (i : Fin 16) (j : Fin 4) : Disjoint (rSrcA c i).set (rCh2 c j).set := by
  rw [Finset.disjoint_left]
  intro x hx hx'
  rw [mem_rSrcA] at hx
  rw [mem_rCh2] at hx'
  have := i.isLt; have := j.isLt
  omega

theorem split_b (c : Dev nD) (q : PosShare TreeShare) (f : Buf (Elt F) (bM.view.loc (c : Thread nD τ))) :
    (pts (F := F) c bM q f) ⊣⊢ iprop((bigSep Finset.univ fun i : Fin 16 => pts c (bSrcA c i) q f)
      ∗ (bigSep Finset.univ fun k : Fin 4 => (bM.view.loc (c : Thread nD τ) ↦[(bM.access (rCh2 c k)).set]{q} f))) := by
  have e0 : bM.view.set = Finset.univ := View.set_whole cc0_scratch1
  have e1 : ∀ i : Fin 16, (bSrcA c i).view.set = (rSrcA c i).set := fun i => View.set_slice_whole _ _
  have e2 : ∀ k : Fin 4, (bM.access (rCh2 c k)).set = (rCh2 c k).set := fun k => View.set_slice_whole _ _
  show (bM.view.loc (c : Thread nD τ) ↦[bM.view.set]{q} f : sProp 𝕄) ⊣⊢ iprop(
      (bigSep Finset.univ fun i : Fin 16 => bM.view.loc (c : Thread nD τ) ↦[(bSrcA c i).view.set]{q} f)
      ∗ (bigSep Finset.univ fun k : Fin 4 => bM.view.loc (c : Thread nD τ) ↦[(bM.access (rCh2 c k)).set]{q} f))
  simp only [e1, e2]
  exact pointsTo_two_families (F := F) (ℓ := bM.view.loc (c : Thread nD τ)) _ (fun i : Fin 16 => (rSrcA c i).set) (fun k : Fin 4 => (rCh2 c k).set)
    (fun x => by rw [e0]; exact Finset.mem_univ x) (cov_b c) (disj_b1 c) (disj_b2 c) (disj_b12 c) q f

theorem split_x (c : Dev nD) (q : PosShare TreeShare) (f : Buf (Elt F) (xM.view.loc (c : Thread nD τ))) :
    (pts (F := F) c xM q f) ⊣⊢ iprop((bigSep Finset.univ fun k : Fin 4 => pts c (xIn1 c k) q f)
      ∗ (bigSep Finset.univ fun k : Fin 4 => pts c (xIn2 c k) q f)) := by
  have e0 : xM.view.set = Finset.univ := View.set_whole main_arg0
  have e1 : ∀ k : Fin 4, (xIn1 c k).view.set = (rIn1 c k).set := fun k => View.set_slice_whole _ _
  have e2 : ∀ k : Fin 4, (xIn2 c k).view.set = (rIn2 c k).set := fun k => View.set_slice_whole _ _
  show (xM.view.loc (c : Thread nD τ) ↦[xM.view.set]{q} f : sProp 𝕄) ⊣⊢ iprop(
      (bigSep Finset.univ fun k : Fin 4 => xM.view.loc (c : Thread nD τ) ↦[(xIn1 c k).view.set]{q} f)
      ∗ (bigSep Finset.univ fun k : Fin 4 => xM.view.loc (c : Thread nD τ) ↦[(xIn2 c k).view.set]{q} f))
  simp only [e1, e2]
  exact pointsTo_two_families (F := F) (ℓ := xM.view.loc (c : Thread nD τ)) _ (fun k : Fin 4 => (rIn1 c k).set) (fun k : Fin 4 => (rIn2 c k).set)
    (fun x => by rw [e0]; exact Finset.mem_univ x) (cov_in c) (disj_in1 c) (disj_in2 c) (disj_in12 c) q f

theorem split_v (c : Dev nD) (q : PosShare TreeShare) (f : Buf (Elt F) (vM.view.loc (c : Thread nD τ))) :
    (pts (F := F) c vM q f) ⊣⊢ iprop((bigSep Finset.univ fun k : Fin 4 => pts c (vIn1 c k) q f)
      ∗ (bigSep Finset.univ fun k : Fin 4 => pts c (vIn2 c k) q f)) := by
  have e0 : vM.view.set = Finset.univ := View.set_whole cc0_scratch0
  have e1 : ∀ k : Fin 4, (vIn1 c k).view.set = (rIn1 c k).set := fun k => View.set_slice_whole _ _
  have e2 : ∀ k : Fin 4, (vIn2 c k).view.set = (rIn2 c k).set := fun k => View.set_slice_whole _ _
  show (vM.view.loc (c : Thread nD τ) ↦[vM.view.set]{q} f : sProp 𝕄) ⊣⊢ iprop(
      (bigSep Finset.univ fun k : Fin 4 => vM.view.loc (c : Thread nD τ) ↦[(vIn1 c k).view.set]{q} f)
      ∗ (bigSep Finset.univ fun k : Fin 4 => vM.view.loc (c : Thread nD τ) ↦[(vIn2 c k).view.set]{q} f))
  simp only [e1, e2]
  exact pointsTo_two_families (F := F) (ℓ := vM.view.loc (c : Thread nD τ)) _ (fun k : Fin 4 => (rIn1 c k).set) (fun k : Fin 4 => (rIn2 c k).set)
    (fun x => by rw [e0]; exact Finset.mem_univ x) (cov_in c) (disj_in1 c) (disj_in2 c) (disj_in12 c) q f

/-! ## What a load through a whole buffer asks for -/

/-- The elements a load reads through a whole buffer at a rectangle lie under the slice at any rectangle that contains it. -/
theorem setOn_whole_sub {κ : Kind} (b : Ref sig κ) (r r' : Rect b.ty.shape) (h : ∀ x, x ∈ r.set → x ∈ r'.set) :
    (Memref.whole b).view.setOn r.toLoadRect.set ⊆ ((View.whole b).slice r').set := by
  rw [View.set_slice_whole]
  intro y hy
  obtain ⟨x, hx, rfl⟩ := Finset.mem_map.mp hy
  exact h x hx

/-- The slab of 512 rows that holds the chunk `i` of 128 rows. -/
abbrev slab (i : Fin 16) : Fin 4 := ⟨i.val / 4, Nat.div_lt_of_lt_mul (show i.val < 4 * 4 from i.isLt)⟩

/-- Chunk `i` of the f32 scratch lies in the slab `i / 4` of the own half. -/
theorem load_ch_sub (c : Dev nD) (i : Fin 16) :
    vM.view.setOn (rCh c i).toLoadRect.set ⊆ (vIn1 c (slab i)).view.set :=
  setOn_whole_sub cc0_scratch0 (rCh c i) (rIn1 c (slab i)) fun x hx => by
    have h := (mem_rCh c i x).mp hx
    refine (mem_rIn1 c _ x).mpr ?_
    dsimp only
    constructor <;> omega

theorem load_ch2_sub (c : Dev nD) (k : Fin 4) : vM.view.setOn (rCh2 c k).toLoadRect.set ⊆ (vIn2 c k).view.set :=
  setOn_whole_sub cc0_scratch0 (rCh2 c k) (rIn2 c k) fun x hx => by
    have h := (mem_rCh2 c k x).mp hx
    exact (mem_rIn2 c k x).mpr h

theorem loadb_ch_sub (c : Dev nD) (i : Fin 16) : bM.view.setOn (rCh c i).toLoadRect.set ⊆ (bSrcA c i).view.set :=
  setOn_whole_sub cc0_scratch1 (rCh c i) (rSrcA c i) fun x hx => by
    have h := (mem_rCh c i x).mp hx
    exact (mem_rSrcA c i x).mpr h

theorem loadb_ch2_sub (c : Dev nD) (k : Fin 4) :
    bM.view.setOn (rCh2 c k).toLoadRect.set ⊆ (bM.access (rCh2 c k)).set :=
  setOn_whole_sub cc0_scratch1 (rCh2 c k) (rCh2 c k) fun x hx => hx

/-- info: 'Cert.KernelIdeal.AG.split_o' depends on axioms: [propext, Classical.choice, Quot.sound] -/
#guard_msgs in #print axioms split_o
/-- info: 'Cert.KernelIdeal.AG.split_b' depends on axioms: [propext, Classical.choice, Quot.sound] -/
#guard_msgs in #print axioms split_b
/-- info: 'Cert.KernelIdeal.AG.split_x' depends on axioms: [propext, Classical.choice, Quot.sound] -/
#guard_msgs in #print axioms split_x
/-- info: 'Cert.KernelIdeal.AG.split_v' depends on axioms: [propext, Classical.choice, Quot.sound] -/
#guard_msgs in #print axioms split_v
/-- info: 'Cert.KernelIdeal.AG.load_ch_sub' depends on axioms: [propext, Classical.choice, Quot.sound] -/
#guard_msgs in #print axioms load_ch_sub
/-- info: 'Cert.KernelIdeal.AG.oDstA_pa' depends on axioms: [propext, Classical.choice, Quot.sound] -/
#guard_msgs in #print axioms oDstA_pa
/-- info: 'Cert.KernelIdeal.AG.set_rCh' depends on axioms: [propext, Classical.choice, Quot.sound] -/
#guard_msgs in #print axioms set_rCh

end Cert.KernelIdeal.AG

end
-- ==== Proof.Vals.lean ====
/-
# The values: what each landing leaves is the restriction of one whole-buffer function

Every copy, load and store of the all-gather moves a rectangle of rows at unit stride. An element of the
destination's set is the image of a coordinate `y` of the rectangle; the write leaves the payload at `y`
there, the payload is the source read at `y`, and the source's element under `y` is the same row of the
block (shifted by whole blocks in the result). So the contents written agree, on the destination's set, with the
one function the buffer is described by.
-/
import proofs.«900086_g7700000000000087_dist_ag_v7x_xy2x2_x_m4096_n1024_bf16_1_alg».proof.Proof.Proto
import Idealize.ShloMosaic.Lib.Pipeline.Value

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The partners' coordinates -/

theorem pa_div (c : Dev nD) : (pa c).val / 2 = 1 - c.val / 2 := by revert c; decide
theorem pa_mod (c : Dev nD) : (pa c).val % 2 = c.val % 2 := by revert c; decide
theorem pb_div (c : Dev nD) : (pb c).val / 2 = c.val / 2 := by revert c; decide
theorem pb_mod (c : Dev nD) : (pb c).val % 2 = 1 - c.val % 2 := by revert c; decide

/-- In a row of the own block the result holds the own block. -/
theorem srcOf_own (c : Dev nD) (r : ℕ) (h : r / 4096 = c.val / 2) : srcOf c r = c := by
  unfold srcOf; rw [if_pos h]
/-- In a row of the other block, in the half the column partner shares, it holds the partner's. -/
theorem srcOf_half (c : Dev nD) (r : ℕ) (h : r / 4096 ≠ c.val / 2) (h' : (r % 4096) / 2048 = c.val % 2) :
    srcOf c r = pa c := by
  unfold srcOf; rw [if_neg h, if_pos h']
/-- In a row of the other block, in the other half, it holds the diagonal device's. -/
theorem srcOf_diag (c : Dev nD) (r : ℕ) (h : r / 4096 ≠ c.val / 2) (h' : (r % 4096) / 2048 ≠ c.val % 2) :
    srcOf c r = pa (pb c) := by
  unfold srcOf; rw [if_neg h, if_neg h']

/-- Chunk `i` of the own half lands in the column partner's result on the rows of the own block and half: there the
    partner's result holds the own block. -/
theorem val_sendA (c : Dev nD) (i : Fin 16) (fd : (oDstA c i).view.ty.Contents (Elt F)) :
    ∀ x ∈ (oDstA c i).view.set,
      (oDstA c i).view.write (Elt F) fd ((bSrcA c i).view.read (Elt F) (BUF m c)) Finset.univ x = OUT m (pa c) x := by
  intro x hx
  obtain ⟨y, rfl⟩ := View.exists_emb_of_mem_set _ hx
  rw [View.write_emb_of_mem _ _ (Finset.mem_univ y), View.read_apply, cast_cast, cast_eq]
  have e0 : (((oDstA c i).view.emb y) 0 : ℕ) = 4096 * (c.val / 2) + 2048 * (c.val % 2) + 128 * i.val + (y 0 : ℕ) := by
    show k0_off4 c (w128 i) 0 + 1 * (y 0 : ℕ) = _
    rw [k0_off4_eq]; simp only [Matrix.cons_val_zero, Nat.one_mul]
  have e1 : (((oDstA c i).view.emb y) 1 : ℕ) = (y 1 : ℕ) := by
    show k0_off4 c (w128 i) 1 + 1 * (y 1 : ℕ) = _
    rw [k0_off4_eq]; simp only [Matrix.cons_val_one, Matrix.head_cons, Matrix.cons_val_zero, Nat.one_mul, Nat.zero_add]
  have s0 : (((bSrcA c i).view.emb y) 0 : ℕ) = 2048 * (c.val % 2) + 128 * i.val + (y 0 : ℕ) := by
    show k0_off5 c (w128 i) 0 + 1 * (y 0 : ℕ) = _
    rw [k0_off5_eq]; simp only [Matrix.cons_val_zero, Nat.one_mul]
  have s1 : (((bSrcA c i).view.emb y) 1 : ℕ) = (y 1 : ℕ) := by
    show k0_off5 c (w128 i) 1 + 1 * (y 1 : ℕ) = _
    rw [k0_off5_eq]; simp only [Matrix.cons_val_one, Matrix.head_cons, Matrix.cons_val_zero, Nat.one_mul, Nat.zero_add]
  have hy0 : (y 0 : ℕ) < 128 := (y 0).isLt
  have hc : c.val < 4 := c.isLt
  have hi : i.val < 16 := i.isLt
  have hsrc : srcOf (pa c) (((oDstA c i).view.emb y) 0 : ℕ) = c := by
    rw [srcOf_half _ _ (by rw [pa_div, e0]; omega) (by rw [pa_mod, e0]; omega), pa_pa]
  show BUF m c _ = BUF m (srcOf (pa c) _) _
  rw [hsrc]
  congr 1
  funext a
  revert a
  refine Fin.forall_fin_two.mpr ⟨Fin.ext ?_, Fin.ext ?_⟩
  · show (((bSrcA c i).view.emb y) 0 : ℕ) = (((oDstA c i).view.emb y) 0 : ℕ) % 4096
    rw [s0, e0]; omega
  · show (((bSrcA c i).view.emb y) 1 : ℕ) = (((oDstA c i).view.emb y) 1 : ℕ)
    rw [s1, e1]

/-- The chunk received from the column partner is forwarded to the row partner on the same rows: rows of the other
    block, in the own half, where the own result and the row partner's both hold the column partner's block. -/
theorem val_sendB (c : Dev nD) (i : Fin 16) (fd : (oRecvA c i).view.ty.Contents (Elt F)) :
    ∀ x ∈ (oRecvA c i).view.set,
      (oRecvA c i).view.write (Elt F) fd ((oRecvA c i).view.read (Elt F) (OUT m c)) Finset.univ x = OUT m (pb c) x := by
  intro x hx
  obtain ⟨y, rfl⟩ := View.exists_emb_of_mem_set _ hx
  rw [View.write_emb_of_mem _ _ (Finset.mem_univ y), View.read_apply, cast_cast, cast_eq]
  have e0 : (((oRecvA c i).view.emb y) 0 : ℕ) = (2048 * (c.val % 2) + 128 * i.val + 4096) - 4096 * (c.val / 2) + (y 0 : ℕ) := by
    show k0_off8 c (w128 i) 0 + 1 * (y 0 : ℕ) = _
    rw [k0_off8_eq]; simp only [Matrix.cons_val_zero, Nat.one_mul]
  have hy0 : (y 0 : ℕ) < 128 := (y 0).isLt
  have hc : c.val < 4 := c.isLt
  have hi : i.val < 16 := i.isLt
  have h1 : srcOf c (((oRecvA c i).view.emb y) 0 : ℕ) = pa c :=
    srcOf_half _ _ (by rw [e0]; omega) (by rw [e0]; omega)
  have h2 : srcOf (pb c) (((oRecvA c i).view.emb y) 0 : ℕ) = pa c := by
    rw [srcOf_diag _ _ (by rw [pb_div, e0]; omega) (by rw [pb_mod, e0]; omega), pb_pb]
  show BUF m (srcOf c _) _ = BUF m (srcOf (pb c) _) _
  rw [h1, h2]

/-- The own block, cast, lands in its rows of the own result. -/
theorem val_local (c : Dev nD) (fd : (oOwn c).view.ty.Contents (Elt F)) :
    ∀ x ∈ (oOwn c).view.set,
      (oOwn c).view.write (Elt F) fd (bM.view.read (Elt F) (BUF m c)) Finset.univ x = OUT m c x := by
  intro x hx
  obtain ⟨y, rfl⟩ := View.exists_emb_of_mem_set _ hx
  rw [View.write_emb_of_mem _ _ (Finset.mem_univ y), View.read_apply, cast_cast, cast_eq]
  have e0 : (((oOwn c).view.emb y) 0 : ℕ) = 4096 * (c.val / 2) + (y 0 : ℕ) := by
    show k0_off7 c 0 + 1 * (y 0 : ℕ) = _
    rw [k0_off7_eq]; simp only [Matrix.cons_val_zero, Nat.one_mul]
  have e1 : (((oOwn c).view.emb y) 1 : ℕ) = (y 1 : ℕ) := by
    show k0_off7 c 1 + 1 * (y 1 : ℕ) = _
    rw [k0_off7_eq]; simp only [Matrix.cons_val_one, Matrix.head_cons, Matrix.cons_val_zero, Nat.one_mul, Nat.zero_add]
  have hy0 : (y 0 : ℕ) < 4096 := (y 0).isLt
  have hc : c.val < 4 := c.isLt
  have hsrc : srcOf c (((oOwn c).view.emb y) 0 : ℕ) = c := srcOf_own _ _ (by rw [e0]; omega)
  show BUF m c _ = BUF m (srcOf c _) _
  rw [hsrc]
  congr 1
  funext a
  revert a
  refine Fin.forall_fin_two.mpr ⟨Fin.ext ?_, Fin.ext ?_⟩
  · show (y 0 : ℕ) = (((oOwn c).view.emb y) 0 : ℕ) % 4096
    rw [e0]; omega
  · show (y 1 : ℕ) = (((oOwn c).view.emb y) 1 : ℕ)
    rw [e1]

/-- An input copy moves a slab of the block between the same rectangle of two buffers. -/
theorem val_in1 (c : Dev nD) (k : Fin 4) (fd : (vIn1 c k).view.ty.Contents (Elt F)) :
    ∀ x ∈ (vIn1 c k).view.set,
      (vIn1 c k).view.write (Elt F) fd ((xIn1 c k).view.read (Elt F) (X m c)) Finset.univ x = X m c x := by
  intro x hx
  obtain ⟨y, rfl⟩ := View.exists_emb_of_mem_set _ hx
  rw [View.write_emb_of_mem _ _ (Finset.mem_univ y), View.read_apply, cast_cast, cast_eq]
  rfl

theorem val_in2 (c : Dev nD) (k : Fin 4) (fd : (vIn2 c k).view.ty.Contents (Elt F)) :
    ∀ x ∈ (vIn2 c k).view.set,
      (vIn2 c k).view.write (Elt F) fd ((xIn2 c k).view.read (Elt F) (X m c)) Finset.univ x = X m c x := by
  intro x hx
  obtain ⟨y, rfl⟩ := View.exists_emb_of_mem_set _ hx
  rw [View.write_emb_of_mem _ _ (Finset.mem_univ y), View.read_apply, cast_cast, cast_eq]
  rfl

/-- A chunk loaded from the f32 scratch, cast elementwise and stored at the same rectangle of the bf16 scratch is the
    cast block there. -/
theorem val_store (c : Dev nD) (i : Fin 16) (fb : (bM.access (rCh c i)).ty.Contents (Elt F)) :
    ∀ x ∈ (bM.access (rCh c i)).set,
      (bM.access (rCh c i)).write (Elt F) fb
        (truncf .bf16 (vM.view.readAt (Elt F) (rCh c i).toLoadRect (X m c)) bitsLt_bf16_f32) Finset.univ x = BUF m c x := by
  intro x hx
  obtain ⟨y, rfl⟩ := View.exists_emb_of_mem_set _ hx
  rw [View.write_emb_of_mem _ _ (Finset.mem_univ y), cast_eq]
  rfl

theorem val_store2 (c : Dev nD) (k : Fin 4) (fb : (bM.access (rCh2 c k)).ty.Contents (Elt F)) :
    ∀ x ∈ (bM.access (rCh2 c k)).set,
      (bM.access (rCh2 c k)).write (Elt F) fb
        (truncf .bf16 (vM.view.readAt (Elt F) (rCh2 c k).toLoadRect (X m c)) bitsLt_bf16_f32) Finset.univ x = BUF m c x := by
  intro x hx
  obtain ⟨y, rfl⟩ := View.exists_emb_of_mem_set _ hx
  rw [View.write_emb_of_mem _ _ (Finset.mem_univ y), cast_eq]
  rfl

/-! ## The payloads: each is the cast of what was loaded (a shape cast to the same shape changes nothing) -/
theorem pay1_eq (v : Vec F S128x1024 .f32) : k0_pay1 v = truncf .bf16 v bitsLt_bf16_f32 := shapeCast_self _ _
theorem pay2_eq (v : Vec F S128x1024 .f32) : k0_pay2 v = truncf .bf16 v bitsLt_bf16_f32 := shapeCast_self _ _
theorem pay3_eq (v : Vec F S128x1024 .f32) : k0_pay3 v = truncf .bf16 v bitsLt_bf16_f32 := shapeCast_self _ _
theorem pay4_eq (v : Vec F S128x1024 .f32) : k0_pay4 v = truncf .bf16 v bitsLt_bf16_f32 := shapeCast_self _ _
theorem pay5_eq (v : Vec F S128x1024 .f32) : k0_pay5 v = truncf .bf16 v bitsLt_bf16_f32 := rfl
theorem pay6_eq (v : FVec F S128x1024 .bf16) : k0_pay6 v = v := shapeCast_self _ _
theorem pay7_eq (v : Vec F S128x1024 .f32) : k0_pay7 v = truncf .bf16 v bitsLt_bf16_f32 := shapeCast_self _ _
theorem pay8_eq (v : Vec F S128x1024 .f32) : k0_pay8 v = truncf .bf16 v bitsLt_bf16_f32 := shapeCast_self _ _
theorem pay9_eq (v : Vec F S128x1024 .f32) : k0_pay9 v = truncf .bf16 v bitsLt_bf16_f32 := shapeCast_self _ _
theorem pay10_eq (v : Vec F S128x1024 .f32) : k0_pay10 v = truncf .bf16 v bitsLt_bf16_f32 := shapeCast_self _ _
theorem pay11_eq (v : Vec F S128x1024 .f32) : k0_pay11 v = truncf .bf16 v bitsLt_bf16_f32 := rfl
theorem pay12_eq (v : FVec F S128x1024 .bf16) : k0_pay12 v = v := shapeCast_self _ _
theorem pay13_eq (v : Vec F S128x1024 .f32) : k0_pay13 v = truncf .bf16 v bitsLt_bf16_f32 := shapeCast_self _ _
theorem pay14_eq (v : Vec F S128x1024 .f32) : k0_pay14 v = truncf .bf16 v bitsLt_bf16_f32 := shapeCast_self _ _
theorem pay15_eq (v : Vec F S128x1024 .f32) : k0_pay15 v = truncf .bf16 v bitsLt_bf16_f32 := shapeCast_self _ _
theorem pay16_eq (v : Vec F S128x1024 .f32) : k0_pay16 v = truncf .bf16 v bitsLt_bf16_f32 := shapeCast_self _ _
theorem pay17_eq (v : Vec F S128x1024 .f32) : k0_pay17 v = truncf .bf16 v bitsLt_bf16_f32 := shapeCast_self _ _
theorem pay18_eq (v : Vec F S128x1024 .f32) : k0_pay18 v = truncf .bf16 v bitsLt_bf16_f32 := shapeCast_self _ _
theorem pay19_eq (v : Vec F S512x1024 .f32) : k0_pay19 v = truncf .bf16 v bitsLt_bf16_f32 := shapeCast_self _ _
theorem pay20_eq (v : Vec F S512x1024 .f32) : k0_pay20 v = truncf .bf16 v bitsLt_bf16_f32 := shapeCast_self _ _
theorem pay21_eq (v : Vec F S512x1024 .f32) : k0_pay21 v = truncf .bf16 v bitsLt_bf16_f32 := shapeCast_self _ _
theorem pay22_eq (v : Vec F S512x1024 .f32) : k0_pay22 v = truncf .bf16 v bitsLt_bf16_f32 := shapeCast_self _ _

/-- info: 'Cert.KernelIdeal.AG.val_sendA' depends on axioms: [propext, Classical.choice, Quot.sound] -/
#guard_msgs in #print axioms val_sendA
/-- info: 'Cert.KernelIdeal.AG.val_sendB' depends on axioms: [propext, Classical.choice, Quot.sound] -/
#guard_msgs in #print axioms val_sendB
/-- info: 'Cert.KernelIdeal.AG.val_local' depends on axioms: [propext, Classical.choice, Quot.sound] -/
#guard_msgs in #print axioms val_local
/-- info: 'Cert.KernelIdeal.AG.val_in1' depends on axioms: [propext, Classical.choice, Quot.sound] -/
#guard_msgs in #print axioms val_in1
/-- info: 'Cert.KernelIdeal.AG.val_in2' depends on axioms: [propext, Classical.choice, Quot.sound] -/
#guard_msgs in #print axioms val_in2
/-- info: 'Cert.KernelIdeal.AG.val_store' depends on axioms: [propext, Classical.choice, Quot.sound] -/
#guard_msgs in #print axioms val_store
/-- info: 'Cert.KernelIdeal.AG.val_store2' depends on axioms: [propext, Classical.choice, Quot.sound] -/
#guard_msgs in #print axioms val_store2
/-- info: 'Cert.KernelIdeal.AG.pay1_eq' depends on axioms: [propext, Classical.choice, Quot.sound] -/
#guard_msgs in #print axioms pay1_eq
/-- info: 'Cert.KernelIdeal.AG.pay22_eq' depends on axioms: [propext, Classical.choice, Quot.sound] -/
#guard_msgs in #print axioms pay22_eq

end Cert.KernelIdeal.AG

end
-- ==== Proof.Steps.lean ====
import proofs.«900086_g7700000000000087_dist_ag_v7x_xy2x2_x_m4096_n1024_bf16_1_alg».proof.Proof.Ghost
import proofs.«900086_g7700000000000087_dist_ag_v7x_xy2x2_x_m4096_n1024_bf16_1_alg».proof.Proof.Sched
import proofs.«900086_g7700000000000087_dist_ag_v7x_xy2x2_x_m4096_n1024_bf16_1_alg».proof.Proof.Geom
import proofs.«900086_g7700000000000087_dist_ag_v7x_xy2x2_x_m4096_n1024_bf16_1_alg».proof.Proof.Vals

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's copies, one rule each, at a symbolic device and chunk -/

variable (K : Dev nD × SemLoc sig → ℕ)

/-- The column partner, as the kernel's device chains name it. -/
theorem devA_eq (c : Dev nD) : (⟨k0_dev3 c, k0_dev3_lt c⟩ : Dev nD) = pa c := Fin.ext (k0_dev3_eq c)
/-- The row partner. -/
theorem devB_eq (c : Dev nD) : (⟨k0_dev19 c, k0_dev19_lt c⟩ : Dev nD) = pb c := Fin.ext (k0_dev19_eq c)
theorem devSigA_eq (c : Dev nD) : (⟨k0_dev1 c, k0_dev1_lt c⟩ : Dev nD) = pa c := Fin.ext (k0_dev1_eq c)
theorem devSigB_eq (c : Dev nD) : (⟨k0_dev2 c, k0_dev2_lt c⟩ : Dev nD) = pb c := Fin.ext (k0_dev2_eq c)

/-- Input copy `k` of the own half: HBM rows to the same rows of the f32 scratch, on cell `inS k`. -/
theorem wp_in1 (c : Dev nD) (k : Fin 4)
    {hsrc : (xIn1 c k).view.WordExact} {hdst : (vIn1 c k).view.WordExact}
    {hsem : DmaTarget.Typed (nD := nD) (τ := τ) (p := .tc) .hbm (.dma (inS ⟨k.val, by omega⟩)) (.here (vIn1 c k))}
    {α : Type} {Q : α → sProp 𝕄} {kont : PUnit → Prog (TpuEff nD τ sig (Elt F) Λ₀ .tc) α}
    (fd : Buf (Elt F) ((vIn1 c k).view.loc (c : Thread nD τ))) :
    iprop(cellInv ER (sched m) (K (c, .dma (inS ⟨k.val, by omega⟩))) (dCell c (inS ⟨k.val, by omega⟩))
        ∗ pts c (xIn1 c k) fullShare (X m c) ∗ pts c (vIn1 c k) fullShare fd
        ∗ dutyTok ER (dCell c (inS ⟨k.val, by omega⟩)) 0 false ∗ reached ER (dCell c (inS ⟨k.val, by omega⟩)) 0)
      ⊢ iprop((cred (tallyAt (dCell c (inS ⟨k.val, by omega⟩)) () N512) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xIn1 c k) (.here (vIn1 c k)) (.dma (inS ⟨k.val, by omega⟩)) hsrc hdst hsem) kont) Q) := by
  exact Rounds.wp_copy_pointsTo 𝒱₀ ER (sched m) (c : Thread nD τ) none
    (src := xIn1 c k) (dst := vIn1 c k) (q := fullShare) (fs := X m c)
    (κ := K (c, .dma (inS ⟨k.val, by omega⟩))) (r := 0) (d := false) (fd := fd)
    (by rw [duties_dma]; exact Finset.mem_singleton_self _)
    () N512 rfl ((amount_dma m c (inS ⟨k.val, by omega⟩) false).trans (dmaAmt_in _))
    (by
      rw [payload_dma, payDma_in1, pointsTo_congr (val_in1 m c k fd)])

/-- Input copy `k` of the other half, on cell `inS (4 + k)`. -/
theorem wp_in2 (c : Dev nD) (k : Fin 4)
    {hsrc : (xIn2 c k).view.WordExact} {hdst : (vIn2 c k).view.WordExact}
    {hsem : DmaTarget.Typed (nD := nD) (τ := τ) (p := .tc) .hbm (.dma (inS ⟨4 + k.val, by omega⟩)) (.here (vIn2 c k))}
    {α : Type} {Q : α → sProp 𝕄} {kont : PUnit → Prog (TpuEff nD τ sig (Elt F) Λ₀ .tc) α}
    (fd : Buf (Elt F) ((vIn2 c k).view.loc (c : Thread nD τ))) :
    iprop(cellInv ER (sched m) (K (c, .dma (inS ⟨4 + k.val, by omega⟩))) (dCell c (inS ⟨4 + k.val, by omega⟩))
        ∗ pts c (xIn2 c k) fullShare (X m c) ∗ pts c (vIn2 c k) fullShare fd
        ∗ dutyTok ER (dCell c (inS ⟨4 + k.val, by omega⟩)) 0 false ∗ reached ER (dCell c (inS ⟨4 + k.val, by omega⟩)) 0)
      ⊢ iprop((cred (tallyAt (dCell c (inS ⟨4 + k.val, by omega⟩)) () N512) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xIn2 c k) (.here (vIn2 c k)) (.dma (inS ⟨4 + k.val, by omega⟩)) hsrc hdst hsem) kont) Q) := by
  exact Rounds.wp_copy_pointsTo 𝒱₀ ER (sched m) (c : Thread nD τ) none
    (src := xIn2 c k) (dst := vIn2 c k) (q := fullShare) (fs := X m c)
    (κ := K (c, .dma (inS ⟨4 + k.val, by omega⟩))) (r := 0) (d := false) (fd := fd)
    (by rw [duties_dma]; exact Finset.mem_singleton_self _)
    () N512 rfl ((amount_dma m c (inS ⟨4 + k.val, by omega⟩) false).trans (dmaAmt_in _))
    (by
      rw [payload_dma, payDma_in2, pointsTo_congr (val_in2 m c k fd)])

/-- Remote copy `a i`, addressed to a device `n` known to be the column partner. -/
theorem wp_sendA_at (c n : Dev nD) (hn : n = pa c) (i : Fin 16)
    {hsc : (oDstA c i : Memref sig (Dev.tc n : Thread nD τ).2.kind .hbm S128x1024 .bf16).view.ref.isScScratch = false}
    {hsrc : (bSrcA c i).view.WordExact} {hdst : (oDstA c i).view.WordExact}
    {hsem : DmaTarget.Typed .vmem (.dma (raS i)) (.remote (Dev.tc n : Thread nD τ) (oDstA c i) (.dma (saS i)) hsc)}
    {α : Type} {Q : α → sProp 𝕄} {kont : PUnit → Prog (TpuEff nD τ sig (Elt F) Λ₀ .tc) α}
    (fd : Buf (Elt F) ((oDstA c i).view.loc (pa c : Thread nD τ))) (W : Waits sig Unit) :
    iprop(cellInv ER (sched m) (K (c, .dma (saS i))) (dCell c (saS i)) ∗ cellInv ER (sched m) (K (pa c, .dma (raS i))) (dCell (pa c) (raS i))
        ∗ pts c (bSrcA c i) fullShare.left (BUF m c) ∗ pts (pa c) (oDstA c i) fullShare fd
        ∗ owes (c : Thread nD τ) (owedA c (16 - i.val)) W
        ∗ dutyTok ER (dCell c (saS i)) 0 false ∗ reached ER (dCell c (saS i)) 0
        ∗ dutyTok ER (dCell (pa c) (raS i)) 0 false ∗ reached ER (dCell (pa c) (raS i)) 0)
      ⊢ iprop(((cred (tallyAt (dCell c (saS i)) () N128) ∗ owes (c : Thread nD τ) (owedA c (15 - i.val)) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (bSrcA c i) (.remote (Dev.tc n : Thread nD τ) (oDstA c i) (.dma (saS i)) hsc) (.dma (raS i)) hsrc hdst hsem) kont) Q) := by
  subst hn
  exact Rounds.wp_send_pointsTo 𝒱₀ ER (sched m) (c : Thread nD τ) none (c' := (pa c : Thread nD τ))
    (src := bSrcA c i) (dst := oDstA c i) (q := fullShare.left) (fs := BUF m c)
    (κ₁ := K (c, .dma (saS i))) (κ₂ := K (pa c, .dma (raS i)))
    (r₁ := 0) (r₂ := 0) (d₁ := false) (d₂ := false) (fd := fd)
    (by rw [duties_dma]; exact Finset.mem_singleton_self _) (by rw [duties_dma]; exact Finset.mem_singleton_self _)
    () () N128 rfl ((amount_dma m c (saS i) false).trans (dmaAmt_sa i)) ((amount_dma m (pa c) (raS i) false).trans (dmaAmt_ra i))
    (owedA c (15 - i.val)) (owedA_peel c i) (W := W)
    (by rw [payload_dma, payDma_sa]; exact BI.Entails.refl _)
    (by
      rw [payload_dma, payDma_ra]
      unfold payRa
      rw [pa_pa]
      exact Entails.of_eq (pointsTo_congr (val_sendA m c i fd)))

/-- Remote copy `a i`: chunk `i` of the bf16 scratch (a half share of it) to the column partner's result, paying the arrival
    off what the device owes. -/
theorem wp_sendA (c : Dev nD) (i : Fin 16)
    {hsc : (oDstA c i : Memref sig (Dev.tc (⟨k0_dev3 c, k0_dev3_lt c⟩ : Dev nD) : Thread nD τ).2.kind .hbm S128x1024 .bf16).view.ref.isScScratch = false}
    {hsrc : (bSrcA c i).view.WordExact} {hdst : (oDstA c i).view.WordExact}
    {hsem : DmaTarget.Typed .vmem (.dma (raS i)) (.remote (Dev.tc (⟨k0_dev3 c, k0_dev3_lt c⟩ : Dev nD) : Thread nD τ) (oDstA c i) (.dma (saS i)) hsc)}
    {α : Type} {Q : α → sProp 𝕄} {kont : PUnit → Prog (TpuEff nD τ sig (Elt F) Λ₀ .tc) α}
    (fd : Buf (Elt F) ((oDstA c i).view.loc (pa c : Thread nD τ))) (W : Waits sig Unit) :
    iprop(cellInv ER (sched m) (K (c, .dma (saS i))) (dCell c (saS i)) ∗ cellInv ER (sched m) (K (pa c, .dma (raS i))) (dCell (pa c) (raS i))
        ∗ pts c (bSrcA c i) fullShare.left (BUF m c) ∗ pts (pa c) (oDstA c i) fullShare fd
        ∗ owes (c : Thread nD τ) (owedA c (16 - i.val)) W
        ∗ dutyTok ER (dCell c (saS i)) 0 false ∗ reached ER (dCell c (saS i)) 0
        ∗ dutyTok ER (dCell (pa c) (raS i)) 0 false ∗ reached ER (dCell (pa c) (raS i)) 0)
      ⊢ iprop(((cred (tallyAt (dCell c (saS i)) () N128) ∗ owes (c : Thread nD τ) (owedA c (15 - i.val)) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (bSrcA c i) (.remote (Dev.tc (⟨k0_dev3 c, k0_dev3_lt c⟩ : Dev nD) : Thread nD τ) (oDstA c i) (.dma (saS i)) hsc) (.dma (raS i)) hsrc hdst hsem) kont) Q) :=
  wp_sendA_at m K c _ (devA_eq c) i fd W

/-- Remote copy `b i`, addressed to a device `n` known to be the row partner. -/
theorem wp_sendB_at (c n : Dev nD) (hn : n = pb c) (i : Fin 16)
    {hsc : (oRecvA c i : Memref sig (Dev.tc n : Thread nD τ).2.kind .hbm S128x1024 .bf16).view.ref.isScScratch = false}
    {hsrc : (oRecvA c i).view.WordExact} {hdst : (oRecvA c i).view.WordExact}
    {hsem : DmaTarget.Typed .hbm (.dma (rbS i)) (.remote (Dev.tc n : Thread nD τ) (oRecvA c i) (.dma (sbS i)) hsc)}
    {α : Type} {Q : α → sProp 𝕄} {kont : PUnit → Prog (TpuEff nD τ sig (Elt F) Λ₀ .tc) α}
    (fd : Buf (Elt F) ((oRecvA c i).view.loc (pb c : Thread nD τ))) (W : Waits sig Unit) :
    iprop(cellInv ER (sched m) (K (c, .dma (sbS i))) (dCell c (sbS i)) ∗ cellInv ER (sched m) (K (pb c, .dma (rbS i))) (dCell (pb c) (rbS i))
        ∗ pts c (oRecvA c i) fullShare (OUT m c) ∗ pts (pb c) (oRecvA c i) fullShare fd
        ∗ owes (c : Thread nD τ) (owedB c (16 - i.val)) W
        ∗ dutyTok ER (dCell c (sbS i)) 0 false ∗ reached ER (dCell c (sbS i)) 0
        ∗ dutyTok ER (dCell (pb c) (rbS i)) 0 false ∗ reached ER (dCell (pb c) (rbS i)) 0)
      ⊢ iprop(((cred (tallyAt (dCell c (sbS i)) () N128) ∗ owes (c : Thread nD τ) (owedB c (15 - i.val)) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (oRecvA c i) (.remote (Dev.tc n : Thread nD τ) (oRecvA c i) (.dma (sbS i)) hsc) (.dma (rbS i)) hsrc hdst hsem) kont) Q) := by
  subst hn
  exact Rounds.wp_send_pointsTo 𝒱₀ ER (sched m) (c : Thread nD τ) none (c' := (pb c : Thread nD τ))
    (src := oRecvA c i) (dst := oRecvA c i) (q := fullShare) (fs := OUT m c)
    (κ₁ := K (c, .dma (sbS i))) (κ₂ := K (pb c, .dma (rbS i)))
    (r₁ := 0) (r₂ := 0) (d₁ := false) (d₂ := false) (fd := fd)
    (by rw [duties_dma]; exact Finset.mem_singleton_self _) (by rw [duties_dma]; exact Finset.mem_singleton_self _)
    () () N128 rfl ((amount_dma m c (sbS i) false).trans (dmaAmt_sb i)) ((amount_dma m (pb c) (rbS i) false).trans (dmaAmt_rb i))
    (owedB c (15 - i.val)) (owedB_peel c i) (W := W)
    (by rw [payload_dma, payDma_sb]; exact BI.Entails.refl _)
    (by
      rw [payload_dma, payDma_rb]
      unfold payRb
      rw [pb_pb]
      exact Entails.of_eq (pointsTo_congr (val_sendB m c i fd)))

/-- Remote copy `b i`: the chunk received from the column partner, forwarded to the same rows of the row partner's result. -/
theorem wp_sendB (c : Dev nD) (i : Fin 16)
    {hsc : (oRecvA c i : Memref sig (Dev.tc (⟨k0_dev19 c, k0_dev19_lt c⟩ : Dev nD) : Thread nD τ).2.kind .hbm S128x1024 .bf16).view.ref.isScScratch = false}
    {hsrc : (oRecvA c i).view.WordExact} {hdst : (oRecvA c i).view.WordExact}
    {hsem : DmaTarget.Typed .hbm (.dma (rbS i)) (.remote (Dev.tc (⟨k0_dev19 c, k0_dev19_lt c⟩ : Dev nD) : Thread nD τ) (oRecvA c i) (.dma (sbS i)) hsc)}
    {α : Type} {Q : α → sProp 𝕄} {kont : PUnit → Prog (TpuEff nD τ sig (Elt F) Λ₀ .tc) α}
    (fd : Buf (Elt F) ((oRecvA c i).view.loc (pb c : Thread nD τ))) (W : Waits sig Unit) :
    iprop(cellInv ER (sched m) (K (c, .dma (sbS i))) (dCell c (sbS i)) ∗ cellInv ER (sched m) (K (pb c, .dma (rbS i))) (dCell (pb c) (rbS i))
        ∗ pts c (oRecvA c i) fullShare (OUT m c) ∗ pts (pb c) (oRecvA c i) fullShare fd
        ∗ owes (c : Thread nD τ) (owedB c (16 - i.val)) W
        ∗ dutyTok ER (dCell c (sbS i)) 0 false ∗ reached ER (dCell c (sbS i)) 0
        ∗ dutyTok ER (dCell (pb c) (rbS i)) 0 false ∗ reached ER (dCell (pb c) (rbS i)) 0)
      ⊢ iprop(((cred (tallyAt (dCell c (sbS i)) () N128) ∗ owes (c : Thread nD τ) (owedB c (15 - i.val)) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (oRecvA c i) (.remote (Dev.tc (⟨k0_dev19 c, k0_dev19_lt c⟩ : Dev nD) : Thread nD τ) (oRecvA c i) (.dma (sbS i)) hsc) (.dma (rbS i)) hsrc hdst hsem) kont) Q) :=
  wp_sendB_at m K c _ (devB_eq c) i fd W

/-- The local copy: the whole bf16 scratch (the other half share of it) to the own block's rows of the own result. -/
theorem wp_local (c : Dev nD)
    {hsrc : (bM : Memref sig .tc .vmem S4096x1024 .bf16).view.WordExact} {hdst : (oOwn c).view.WordExact}
    {hsem : DmaTarget.Typed (nD := nD) (τ := τ) (p := .tc) .vmem (.dma locS) (.here (oOwn c))}
    {α : Type} {Q : α → sProp 𝕄} {kont : PUnit → Prog (TpuEff nD τ sig (Elt F) Λ₀ .tc) α}
    (fd : Buf (Elt F) ((oOwn c).view.loc (c : Thread nD τ))) :
    iprop(cellInv ER (sched m) (K (c, .dma locS)) (dCell c locS)
        ∗ pts c bM fullShare.right (BUF m c) ∗ pts c (oOwn c) fullShare fd
        ∗ dutyTok ER (dCell c locS) 0 false ∗ reached ER (dCell c locS) 0)
      ⊢ iprop((cred (tallyAt (dCell c locS) () N4096) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma bM (.here (oOwn c)) (.dma locS) hsrc hdst hsem) kont) Q) := by
  exact Rounds.wp_copy_pointsTo 𝒱₀ ER (sched m) (c : Thread nD τ) none
    (src := bM) (dst := oOwn c) (q := fullShare.right) (fs := BUF m c)
    (κ := K (c, .dma locS)) (r := 0) (d := false) (fd := fd)
    (by rw [duties_dma]; exact Finset.mem_singleton_self _)
    () N4096 rfl ((amount_dma m c locS false).trans dmaAmt_loc)
    (by
      rw [payload_dma, payDma_loc, pointsTo_congr (val_local m c fd)]
      exact BI.Entails.refl _)

/-- A wait on one of the device's own DMA cells for its one round: the round's payload comes with it. -/
theorem wp_waitCell (c : Dev nD) (s : DmaSem sig) {sp sp' : Space} {sh sh' : Shape} {e e' : EltTy}
    {src : Memref sig .tc sp' sh' e'} {κ' : Kind} {dst : Memref sig κ' sp sh e} {hsrc : src.view.WordExact} {hdst : dst.view.WordExact}
    (hamt : dst.view.dmaCredit = dmaAmt s)
    {α : Type} {Q : α → sProp 𝕄} {kont : PUnit → Prog (TpuEff nD τ sig (Elt F) Λ₀ .tc) α}
    (O : CellTallies nD τ sig Unit) (W : Waits sig Unit) :
    iprop(cellInv ER (sched m) (K (c, .dma s)) (dCell c s) ∗ cred (tallyAt (dCell c s) () (dmaAmt s)) ∗ owes (c : Thread nD τ) O W
        ∗ MayWait (c : Thread nD τ) (.dma s) () O ∗ atPos ER (dCell c s) 0 ∅ 0)
      ⊢ iprop(((owes (c : Thread nD τ) O (insert (SemLoc.dma s, ()) W) ∗ atPos ER (dCell c s) (0 + 1) ∅ 0 ∗ payDma m c s)
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 s src dst hsrc hdst) kont) Q) := by
  have hk : 0 + dst.view.dmaCredit = (sched m).expect ((c : Thread nD τ), SemLoc.dma s) 0 := by
    rw [Nat.zero_add, hamt]; exact (expect_dma m c s).symm
  have h := Rounds.wp_wait_rest_token 𝒱₀ ER (sched m) (c : Thread nD τ) none (κ := K (c, .dma s))
    (wpE_waitDma2_eq (defs := defs₀ (F := F)) 𝒱₀ (c : Thread nD τ) none Set.univ (sem := s) (src := src) (dst := dst) (hsrc := hsrc) (hdst := hdst))
    (Set.mem_univ _) () (O := O) (W := W) (R := 0) (m := 0) (T := ∅) hk (k := kont) (Q := Q)
  rw [rest_dma, hamt] at h
  iintro Hpre Hk
  iapply h $$ Hpre
  iintro ⟨HL, Hat, Hr, Hpay⟩
  iapply Hk
  isplitl [HL]; · iexact HL
  isplitl [Hat]; · iexact Hat
  iexact Hpay

end Cert.KernelIdeal.AG

end
-- ==== Proof.Cred.lean ====
import proofs.«900086_g7700000000000087_dist_ag_v7x_xy2x2_x_m4096_n1024_bf16_1_alg».proof.Proof.Ghost

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the owed tallies are positive, and the levels of the cells -/

/-- Row arrivals are owed to the row partner's `rb` cells only. -/
theorem owedB_pos {c : Dev nD} {n : ℕ} {g : GSem nD τ sig} {u : Unit} (h : 0 < owedB c n g u) :
    ∃ i : Fin 16, g = dCell (pb c) (rbS i) := by
  unfold owedB at h
  obtain ⟨k, -, hk⟩ := Pipeline.sum_pos_exists h
  exact ⟨rev16 k, (Pipeline.tallyAt_pos hk).1⟩

/-- With the column arrivals: to those, or to the column partner's `ra` cells. -/
theorem owedA_pos {c : Dev nD} {n : ℕ} {g : GSem nD τ sig} {u : Unit} (h : 0 < owedA c n g u) :
    (∃ i : Fin 16, g = dCell (pb c) (rbS i)) ∨ (∃ i : Fin 16, g = dCell (pa c) (raS i)) := by
  unfold owedA at h
  rcases Pipeline.add_pos_cases h with h | h
  · exact Or.inl (owedB_pos h)
  · obtain ⟨k, -, hk⟩ := Pipeline.sum_pos_exists h
    exact Or.inr ⟨rev16 k, (Pipeline.tallyAt_pos hk).1⟩

theorem lv_bar (d : Dev nD) (u : Unit) : lv (barCell d) u = 1 := rfl
theorem lv_in (d : Dev nD) (j : Fin 8) (u : Unit) : lv (dCell d (inS j)) u = 0 := by
  have hj := j.isLt
  dsimp only [lv]
  rw [if_neg (by omega), if_neg (by omega)]
theorem lv_ra (d : Dev nD) (i : Fin 16) (u : Unit) : lv (dCell d (raS i)) u = 2 := by
  have hi := i.isLt
  dsimp only [lv]
  rw [if_pos ⟨by omega, by omega⟩]
theorem lv_rb (d : Dev nD) (i : Fin 16) (u : Unit) : lv (dCell d (rbS i)) u = 3 := by
  have hi := i.isLt
  dsimp only [lv]
  rw [if_neg (by omega), if_pos ⟨by omega, by omega⟩]

theorem mem_L (d : Dev nD) (sm : SemLoc sig) (u : Unit) : u ∈ L ((d : Thread nD τ), sm) := by
  rw [L_tc]; exact Finset.mem_singleton_self _

/-- Reading the sixteen chunks from the last to the first is reading them all. -/
theorem bigSep_rev16 (Ψ : Fin 16 → sProp 𝕄) :
    bigSep (Finset.range 16) (fun k => Ψ (rev16 k)) = bigSep (Finset.univ : Finset (Fin 16)) Ψ := by
  have hinj : Set.InjOn rev16 (Finset.range 16 : Finset ℕ) := fun a ha b hb h => by
    have ha' := Finset.mem_range.mp (Finset.mem_coe.mp ha)
    have hb' := Finset.mem_range.mp (Finset.mem_coe.mp hb)
    have hv : 15 - a % 16 = 15 - b % 16 := congrArg Fin.val h
    omega
  rw [← bigSep_image_of_injOn hinj Ψ, show (Finset.range 16).image rev16 = (Finset.univ : Finset (Fin 16)) from by decide]

/-- Every device owes its two partners' barrier cells one unit each, its column partner's `ra` cells and its row partner's
    `rb` cells a chunk's credit each; both partner maps are involutions, so device `c` is dealt two units on its own barrier
    cell and a chunk's credit on each of its own `ra` and `rb` cells. -/
theorem creds (c : Dev nD) : (Pipeline.launchCred O₀ c : sProp 𝕄) ⊢ launchCreds c := by
  have e1 : (Pipeline.launchCred O₀ c : sProp 𝕄)
      = iprop(Pipeline.launchCred O₁ c ∗ Pipeline.launchCred (fun d => tallyAt (barCell (pa d)) () 1) c) :=
    Pipeline.launchCred_add O₁ (fun d => tallyAt (barCell (pa d)) () 1) c
  have e2 : (Pipeline.launchCred O₁ c : sProp 𝕄)
      = iprop(Pipeline.launchCred (fun d => owedA d 16) c ∗ Pipeline.launchCred (fun d => tallyAt (barCell (pb d)) () 1) c) :=
    Pipeline.launchCred_add (fun d => owedA d 16) (fun d => tallyAt (barCell (pb d)) () 1) c
  have e3 : (Pipeline.launchCred (fun d => owedA d 16) c : sProp 𝕄)
      = iprop(Pipeline.launchCred (fun d => owedB d 16) c
          ∗ Pipeline.launchCred (fun d => ∑ k ∈ Finset.range 16, tallyAt (dCell (pa d) (raS (rev16 k))) () N128) c) :=
    Pipeline.launchCred_add (fun d => owedB d 16) (fun d => ∑ k ∈ Finset.range 16, tallyAt (dCell (pa d) (raS (rev16 k))) () N128) c
  have e4 : (Pipeline.launchCred (fun d => ∑ k ∈ Finset.range 16, tallyAt (dCell (pa d) (raS (rev16 k))) () N128) c : sProp 𝕄)
      = bigSep (Finset.range 16) fun k => Pipeline.launchCred (fun d => tallyAt (dCell (pa d) (raS (rev16 k))) () N128) c :=
    Pipeline.launchCred_sum (Finset.range 16) (fun k d => tallyAt (dCell (pa d) (raS (rev16 k))) () N128) c
  have e5 : (Pipeline.launchCred (fun d => owedB d 16) c : sProp 𝕄)
      = bigSep (Finset.range 16) fun k => Pipeline.launchCred (fun d => tallyAt (dCell (pb d) (rbS (rev16 k))) () N128) c :=
    Pipeline.launchCred_sum (Finset.range 16) (fun k d => tallyAt (dCell (pb d) (rbS (rev16 k))) () N128) c
  have hbarA : (Pipeline.launchCred (fun d => tallyAt (barCell (pa d)) () 1) c : sProp 𝕄) ⊢ cred (tallyAt (barCell c) () 1) :=
    Pipeline.launchCred_tallyAt (.reg barS) pa pa pa_pa pa_pa () 1 c
  have hbarB : (Pipeline.launchCred (fun d => tallyAt (barCell (pb d)) () 1) c : sProp 𝕄) ⊢ cred (tallyAt (barCell c) () 1) :=
    Pipeline.launchCred_tallyAt (.reg barS) pb pb pb_pb pb_pb () 1 c
  have hbar : (iprop(cred (tallyAt (barCell c) () 1) ∗ cred (tallyAt (barCell c) () 1)) : sProp 𝕄) ⊢ cred (tallyAt (barCell c) () 2) := by
    have h : (iprop(cred (tallyAt (barCell c) () 1) ∗ cred (tallyAt (barCell c) () 1)) : sProp 𝕄)
        ⊢ cred (tallyAt (barCell c) () 1 + tallyAt (barCell c) () 1) := (cred_add _ _).2
    rw [tallyAt_add] at h
    exact h
  have hA : (bigSep (Finset.range 16) fun k => (Pipeline.launchCred (fun d => tallyAt (dCell (pa d) (raS (rev16 k))) () N128) c : sProp 𝕄))
      ⊢ bigSep Finset.univ fun i : Fin 16 => cred (tallyAt (dCell c (raS i)) () N128) := by
    rw [← bigSep_rev16 fun i : Fin 16 => (cred (tallyAt (dCell c (raS i)) () N128) : sProp 𝕄)]
    exact bigSep_mono fun k _ => Pipeline.launchCred_tallyAt (.dma (raS (rev16 k))) pa pa pa_pa pa_pa () N128 c
  have hB : (bigSep (Finset.range 16) fun k => (Pipeline.launchCred (fun d => tallyAt (dCell (pb d) (rbS (rev16 k))) () N128) c : sProp 𝕄))
      ⊢ bigSep Finset.univ fun i : Fin 16 => cred (tallyAt (dCell c (rbS i)) () N128) := by
    rw [← bigSep_rev16 fun i : Fin 16 => (cred (tallyAt (dCell c (rbS i)) () N128) : sProp 𝕄)]
    exact bigSep_mono fun k _ => Pipeline.launchCred_tallyAt (.dma (rbS (rev16 k))) pb pb pb_pb pb_pb () N128 c
  rw [e1, e2, e3, e4, e5]
  unfold launchCreds
  iintro ⟨⟨⟨HB, HA⟩, Hb⟩, Ha⟩
  isplitl [Ha Hb]
  · iapply hbar
    isplitl [Ha]
    · iapply hbarA; iexact Ha
    · iapply hbarB; iexact Hb
  isplitl [HA]
  · iapply hA; iexact HA
  · iapply hB; iexact HB

/-! ## The launch credit, and that every wait sits below what the waiter still owes -/

/-- A wait on an input copy's cell (level 0), whatever arrivals are still owed. -/
theorem mayWait_in (c : Dev nD) (j : Fin 8) (n : ℕ) :
    (levAts L lv : sProp 𝕄) ⊢ MayWait (c : Thread nD τ) (.dma (inS j)) () (owedA c n) :=
  Pipeline.mayWait_of_levAts (mem_L c _ _) fun g u hg => by
    rcases owedA_pos hg with ⟨i, rfl⟩ | ⟨i, rfl⟩
    · exact ⟨mem_L _ _ _, by rw [lv_in, lv_rb]; decide⟩
    · exact ⟨mem_L _ _ _, by rw [lv_in, lv_ra]; decide⟩
/-- The same when only row arrivals are still owed. -/
theorem mayWait_in' (c : Dev nD) (j : Fin 8) (n : ℕ) :
    (levAts L lv : sProp 𝕄) ⊢ MayWait (c : Thread nD τ) (.dma (inS j)) () (owedB c n) :=
  Pipeline.mayWait_of_levAts (mem_L c _ _) fun g u hg => by
    obtain ⟨i, rfl⟩ := owedB_pos hg
    exact ⟨mem_L _ _ _, by rw [lv_in, lv_rb]; decide⟩
/-- The barrier wait (level 1), owing all thirty-two arrivals. -/
theorem mayWait_bar (c : Dev nD) :
    (levAts L lv : sProp 𝕄) ⊢ MayWait (c : Thread nD τ) (.reg barS) () (owedA c 16) :=
  Pipeline.mayWait_of_levAts (mem_L c _ _) fun g u hg => by
    rcases owedA_pos hg with ⟨i, rfl⟩ | ⟨i, rfl⟩
    · exact ⟨mem_L _ _ _, by rw [lv_bar, lv_rb]; decide⟩
    · exact ⟨mem_L _ _ _, by rw [lv_bar, lv_ra]; decide⟩
/-- A wait for a column arrival (level 2), owing row arrivals (level 3) only. -/
theorem mayWait_ra (c : Dev nD) (i : Fin 16) (n : ℕ) :
    (levAts L lv : sProp 𝕄) ⊢ MayWait (c : Thread nD τ) (.dma (raS i)) () (owedB c n) :=
  Pipeline.mayWait_of_levAts (mem_L c _ _) fun g u hg => by
    obtain ⟨i', rfl⟩ := owedB_pos hg
    exact ⟨mem_L _ _ _, by rw [lv_ra, lv_rb]; decide⟩

/-- The pipeline has no window: there is no staging cell to wait on. -/
theorem waits (c : Dev nD) : (levAts L lv : sProp 𝕄) ⊢ Pipeline.cellsWaits cfgs (dats m) () 0 c :=
  Pipeline.cellsWaits_intro cfgs (dats m) () 0 c fun w => w.elim0

/-- info: 'Cert.KernelIdeal.AG.creds' depends on axioms: [propext, Classical.choice, Quot.sound] -/
#guard_msgs in #print axioms creds
/-- info: 'Cert.KernelIdeal.AG.waits' depends on axioms: [propext, Classical.choice, Quot.sound] -/
#guard_msgs in #print axioms waits

end Cert.KernelIdeal.AG

end
-- ==== Proof.Close.lean ====
/-
# Reading the records, closing the cells, and what the barrier hands over

Every device holds, persistently, every cell's invariant and the fact that every cell's round 0 is reached. From them: a
DMA cell whose only round has been consumed, and which has no duty in any later round, closes with its counter at zero,
and so do all of a device's DMA cells at once; and the chunks of its own result that a device lets a partner write,
renamed as that partner names them, together with the reached facts of the cells those writes credit, are the payload of
the signal the device sends to that partner's barrier cell.
-/
import proofs.«900086_g7700000000000087_dist_ag_v7x_xy2x2_x_m4096_n1024_bf16_1_alg».proof.Proof.Ghost
import proofs.«900086_g7700000000000087_dist_ag_v7x_xy2x2_x_m4096_n1024_bf16_1_alg».proof.Proof.Sched
import proofs.«900086_g7700000000000087_dist_ag_v7x_xy2x2_x_m4096_n1024_bf16_1_alg».proof.Proof.Geom

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reading the records -/

/-- A cell's invariant, out of the records. -/
theorem inv_at (K : Dev nD × SemLoc sig → ℕ) (ck : Dev nD × SemLoc sig) :
    records m K ⊢ cellInv ER (sched m) (K ck) (gcell ck) := by
  have h : (bigSep Finset.univ fun ck : Dev nD × SemLoc sig => cellInv ER (sched m) (K ck) (gcell ck))
      ⊢ cellInv ER (sched m) (K ck) (gcell ck) := bigSep_elim (Finset.mem_univ ck)
  unfold records
  iintro ⟨H, -⟩
  iapply h
  iexact H

/-- That a cell's round 0 is reached, out of the records. -/
theorem reached_at (K : Dev nD × SemLoc sig → ℕ) (ck : Dev nD × SemLoc sig) :
    records m K ⊢ reached ER (gcell ck) 0 := by
  have h : (bigSep Finset.univ (fun ck : Dev nD × SemLoc sig => reached ER (gcell ck) 0) : sProp 𝕄)
      ⊢ reached ER (gcell ck) 0 := bigSep_elim (Finset.mem_univ ck)
  unfold records
  iintro ⟨-, H⟩
  iapply h
  iexact H

/-! ## Closing the DMA cells -/

/-- A DMA cell whose one round is consumed closes with its counter at zero. -/
theorem close_cell (K : Dev nD × SemLoc sig → ℕ) (c : Dev nD) (s : DmaSem sig) :
    iprop(records m K ∗ atPos ER (dCell c s) (0 + 1) ∅ 0) ⊢ |={Set.univ}=> semVal (dCell c s) 0 :=
  (sep_mono_left (inv_at m K (c, .dma s))).trans
    (Rounds.cell_close ER (sched m) (Set.mem_univ _) (fun h => h) (R := 0 + 1) (duties_later m (dCell c s)))

/-- All seventy-three of a device's DMA cells close. -/
theorem close_cells (K : Dev nD × SemLoc sig → ℕ) (c : Dev nD) :
    iprop(records m K ∗ (bigSep Finset.univ fun s : DmaSem sig => atPos ER (dCell c s) (0 + 1) ∅ 0))
      ⊢ |={Set.univ}=> bigSep Finset.univ fun s : DmaSem sig => semVal (dCell c s) 0 :=
  (bigSep_with_persistent (fun s _ => close_cell m K c s)).trans (bigSep_fupd _ _)

/-! ## The barrier payloads -/

/-- What a device hands its column partner at the barrier: the sixteen chunks of its own result the partner writes,
    named as the partner names them, and that its receive cells of the first movement are at round 0. -/
theorem barA_pay (K : Dev nD × SemLoc sig → ℕ) (c : Dev nD) :
    iprop(records m K ∗ bigSep Finset.univ fun i : Fin 16 => iprop(∃ f, pts c (oRecvA c i) fullShare f)) ⊢ payBarA (pa c) := by
  unfold payBarA
  refine bigSep_with_persistent (fun i _ => ?_)
  rw [pa_pa, oDstA_pa]
  iintro ⟨#R, H⟩
  isplitl [H]
  · iexact H
  · iapply (reached_at m K (c, .dma (raS i)))
    iexact R

/-- What it hands its row partner: the sixteen chunks of its own result the partner forwards into, and that its
    receive cells of the second movement are at round 0. -/
theorem barB_pay (K : Dev nD × SemLoc sig → ℕ) (c : Dev nD) :
    iprop(records m K ∗ bigSep Finset.univ fun i : Fin 16 => iprop(∃ f, pts c (oRecvA (pb c) i) fullShare f)) ⊢ payBarB (pb c) := by
  unfold payBarB
  refine bigSep_with_persistent (fun i _ => ?_)
  rw [pb_pb]
  iintro ⟨#R, H⟩
  isplitl [H]
  · iexact H
  · iapply (reached_at m K (c, .dma (rbS i)))
    iexact R

/-- The same at fixed contents: the chunks held at one `f`. -/
theorem barA_pay_at (K : Dev nD × SemLoc sig → ℕ) (c : Dev nD) (f : Buf (Elt F) (oM.view.loc (c : Thread nD τ))) :
    iprop(records m K ∗ bigSep Finset.univ fun i : Fin 16 => pts c (oRecvA c i) fullShare f) ⊢ payBarA (pa c) := by
  have hi : ∀ i : Fin 16, (pts c (oRecvA c i) fullShare f : sProp 𝕄) ⊢ iprop(∃ f, pts c (oRecvA c i) fullShare f) :=
    fun i => by iintro H; iexists f; iexact H
  have h : (bigSep Finset.univ (fun i : Fin 16 => pts c (oRecvA c i) fullShare f) : sProp 𝕄)
      ⊢ bigSep Finset.univ fun i : Fin 16 => iprop(∃ f, pts c (oRecvA c i) fullShare f) :=
    bigSep_mono fun i _ => hi i
  exact (sep_mono_right h).trans (barA_pay m K c)

theorem barB_pay_at (K : Dev nD × SemLoc sig → ℕ) (c : Dev nD) (f : Buf (Elt F) (oM.view.loc (c : Thread nD τ))) :
    iprop(records m K ∗ bigSep Finset.univ fun i : Fin 16 => pts c (oRecvA (pb c) i) fullShare f) ⊢ payBarB (pb c) := by
  have hi : ∀ i : Fin 16, (pts c (oRecvA (pb c) i) fullShare f : sProp 𝕄) ⊢ iprop(∃ f, pts c (oRecvA (pb c) i) fullShare f) :=
    fun i => by iintro H; iexists f; iexact H
  have h : (bigSep Finset.univ (fun i : Fin 16 => pts c (oRecvA (pb c) i) fullShare f) : sProp 𝕄)
      ⊢ bigSep Finset.univ fun i : Fin 16 => iprop(∃ f, pts c (oRecvA (pb c) i) fullShare f) :=
    bigSep_mono fun i _ => hi i
  exact (sep_mono_right h).trans (barB_pay m K c)

/-- info: 'Cert.KernelIdeal.AG.close_cells' depends on axioms: [propext, Classical.choice, Quot.sound] -/
#guard_msgs in #print axioms close_cells
/-- info: 'Cert.KernelIdeal.AG.barA_pay' depends on axioms: [propext, Classical.choice, Quot.sound] -/
#guard_msgs in #print axioms barA_pay
/-- info: 'Cert.KernelIdeal.AG.barB_pay' depends on axioms: [propext, Classical.choice, Quot.sound] -/
#guard_msgs in #print axioms barB_pay
/-- info: 'Cert.KernelIdeal.AG.barA_pay_at' depends on axioms: [propext, Classical.choice, Quot.sound] -/
#guard_msgs in #print axioms barA_pay_at
/-- info: 'Cert.KernelIdeal.AG.barB_pay_at' depends on axioms: [propext, Classical.choice, Quot.sound] -/
#guard_msgs in #print axioms barB_pay_at

end Cert.KernelIdeal.AG

end
-- ==== Proof.Rejoin.lean ====
/-
# The four buffers cut apart and whole again

At the start of the body each buffer's points-to is cut into the pieces the copies, loads and stores hold apart; at
its end every piece has come back, at the one function the buffer is described by, and the pieces join into the whole
buffer again. The bf16 scratch comes back in two halves of its share: the left half in pieces (the sent chunks and the
slabs of the other half), the right half whole; the pieces join first, then the two halves.
-/
import proofs.«900086_g7700000000000087_dist_ag_v7x_xy2x2_x_m4096_n1024_bf16_1_alg».proof.Proof.Geom
import proofs.«900086_g7700000000000087_dist_ag_v7x_xy2x2_x_m4096_n1024_bf16_1_alg».proof.Proof.Ghost

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cutting a whole buffer into its pieces -/

theorem unjoin_x (c : Dev nD) (f : Buf (Elt F) (xM.view.loc (c : Thread nD τ))) :
    pts (F := F) c xM fullShare f ⊢ iprop((bigSep Finset.univ fun k : Fin 4 => pts c (xIn1 c k) fullShare f)
      ∗ (bigSep Finset.univ fun k : Fin 4 => pts c (xIn2 c k) fullShare f)) :=
  (split_x c _ f).1

theorem unjoin_v (c : Dev nD) (f : Buf (Elt F) (vM.view.loc (c : Thread nD τ))) :
    pts (F := F) c vM fullShare f ⊢ iprop((bigSep Finset.univ fun k : Fin 4 => pts c (vIn1 c k) fullShare f)
      ∗ (bigSep Finset.univ fun k : Fin 4 => pts c (vIn2 c k) fullShare f)) :=
  (split_v c _ f).1

theorem unjoin_b (c : Dev nD) (f : Buf (Elt F) (bM.view.loc (c : Thread nD τ))) :
    pts (F := F) c bM fullShare f ⊢ iprop((bigSep Finset.univ fun i : Fin 16 => pts c (bSrcA c i) fullShare f)
      ∗ (bigSep Finset.univ fun k : Fin 4 => (bM.view.loc (c : Thread nD τ) ↦[(bM.access (rCh2 c k)).set]{fullShare} f))) :=
  (split_b c _ f).1

theorem unjoin_o (c : Dev nD) (f : Buf (Elt F) (oM.view.loc (c : Thread nD τ))) :
    pts (F := F) c oM fullShare f ⊢ iprop(pts c (oOwn c) fullShare f
      ∗ (bigSep Finset.univ fun i : Fin 16 => pts c (oRecvA c i) fullShare f)
      ∗ (bigSep Finset.univ fun i : Fin 16 => pts c (oRecvA (pb c) i) fullShare f)) :=
  (split_o c _ f).1

/-! ## The two halves of a share -/

/-- A points-to at the full share is its left and right halves. -/
theorem halve (c : Dev nD) {sp : Space} {s : Shape} {e : EltTy} (M : Memref sig .tc sp s e)
    (f : Buf (Elt F) (M.view.loc (c : Thread nD τ))) :
    pts (F := F) c M fullShare f ⊣⊢ iprop(pts c M fullShare.left f ∗ pts c M fullShare.right f) :=
  pointsTo_share (PosShare.mem_left_op_right fullShare)

/-- The right half of the bf16 scratch, back in pieces, is whole again. -/
theorem join_b_right (c : Dev nD) :
    iprop((bigSep Finset.univ fun i : Fin 16 => pts c (bSrcA c i) fullShare.right (BUF m c))
      ∗ (bigSep Finset.univ fun k : Fin 4 =>
          (bM.view.loc (c : Thread nD τ) ↦[(bM.access (rCh2 c k)).set]{fullShare.right} (BUF m c))))
      ⊢ pts (F := F) c bM fullShare.right (BUF m c) :=
  (split_b c _ _).2

/-! ## The end of the body: every piece back, the four buffers whole -/

theorem rejoin (c : Dev nD) :
    iprop((bigSep Finset.univ fun k : Fin 4 => pts c (xIn1 c k) fullShare (X m c))
      ∗ (bigSep Finset.univ fun k : Fin 4 => pts c (xIn2 c k) fullShare (X m c))
      ∗ (bigSep Finset.univ fun k : Fin 4 => pts c (vIn1 c k) fullShare (X m c))
      ∗ (bigSep Finset.univ fun k : Fin 4 => pts c (vIn2 c k) fullShare (X m c))
      ∗ (bigSep Finset.univ fun i : Fin 16 => pts c (bSrcA c i) fullShare.left (BUF m c))
      ∗ (bigSep Finset.univ fun k : Fin 4 =>
          (bM.view.loc (c : Thread nD τ) ↦[(bM.access (rCh2 c k)).set]{fullShare.left} (BUF m c)))
      ∗ pts c bM fullShare.right (BUF m c)
      ∗ pts c (oOwn c) fullShare (OUT m c)
      ∗ (bigSep Finset.univ fun i : Fin 16 => pts c (oRecvA c i) fullShare (OUT m c))
      ∗ (bigSep Finset.univ fun i : Fin 16 => pts c (oRecvA (pb c) i) fullShare (OUT m c)))
      ⊢ iprop(pts (F := F) c xM fullShare (X m c) ∗ pts c oM fullShare (OUT m c)
          ∗ (∃ f, pts c vM fullShare f) ∗ (∃ f, pts c bM fullShare f)) := by
  iintro ⟨X1, X2, V1, V2, BL1, BL2, BR, OO, OR1, OR2⟩
  ihave HX := (split_x (F := F) c fullShare (X m c)).2 $$ [X1 X2]
  · isplitl [X1] <;> iassumption
  ihave HV := (split_v (F := F) c fullShare (X m c)).2 $$ [V1 V2]
  · isplitl [V1] <;> iassumption
  ihave HBL := (split_b (F := F) c fullShare.left (BUF m c)).2 $$ [BL1 BL2]
  · isplitl [BL1] <;> iassumption
  ihave HB := (halve (F := F) c bM (BUF m c)).2 $$ [HBL BR]
  · isplitl [HBL] <;> iassumption
  ihave HO := (split_o (F := F) c fullShare (OUT m c)).2 $$ [OO OR1 OR2]
  · isplitl [OO]; · iassumption
    isplitl [OR1] <;> iassumption
  isplitl [HX]; · iexact HX
  isplitl [HO]; · iexact HO
  isplitl [HV]
  · iexists (X m c); iexact HV
  · iexists (BUF m c); iexact HB

/-- info: 'Cert.KernelIdeal.AG.rejoin' depends on axioms: [propext, Classical.choice, Quot.sound] -/
#guard_msgs in #print axioms rejoin
/-- info: 'Cert.KernelIdeal.AG.unjoin_b' depends on axioms: [propext, Classical.choice, Quot.sound] -/
#guard_msgs in #print axioms unjoin_b
/-- info: 'Cert.KernelIdeal.AG.join_b_right' depends on axioms: [propext, Classical.choice, Quot.sound] -/
#guard_msgs in #print axioms join_b_right

end Cert.KernelIdeal.AG

end
-- ==== Proof.DSem.lean ====
/-
# A big star over a device's semaphores, group by group

The DMA semaphores are numbered `0 … 72` in six groups; a big star over all of them is the star of the big stars over the
groups, and a big star over all of a device's cells is the barrier cell's term and the big star over the DMA semaphores.
-/
import proofs.«900086_g7700000000000087_dist_ag_v7x_xy2x2_x_m4096_n1024_bf16_1_alg».proof.Proof.Proto

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The seventy-three DMA semaphores by group

Numbers `0 … 15` are the send cells of the first movement, `16 … 31` its receive cells, `32 … 47` and `48 … 63` those of
the second, `64 … 71` the eight input copies' and `72` the local copy's. -/

/-- The group and the place in it of a DMA semaphore. -/
def dsemSplit (s : DmaSem sig) : Fin 16 ⊕ Fin 16 ⊕ Fin 16 ⊕ Fin 16 ⊕ Fin 8 ⊕ Unit :=
  if h : s.val < 16 then .inl ⟨s.val, h⟩
  else if h : s.val < 32 then .inr (.inl ⟨s.val - 16, by omega⟩)
  else if h : s.val < 48 then .inr (.inr (.inl ⟨s.val - 32, by omega⟩))
  else if h : s.val < 64 then .inr (.inr (.inr (.inl ⟨s.val - 48, by omega⟩)))
  else if h : s.val < 72 then .inr (.inr (.inr (.inr (.inl ⟨s.val - 64, by omega⟩))))
  else .inr (.inr (.inr (.inr (.inr ()))))

/-- The semaphore at a place of a group. -/
def dsemJoin : Fin 16 ⊕ Fin 16 ⊕ Fin 16 ⊕ Fin 16 ⊕ Fin 8 ⊕ Unit → DmaSem sig :=
  Sum.elim saS (Sum.elim raS (Sum.elim sbS (Sum.elim rbS (Sum.elim inS fun _ => locS))))

theorem dsemSplit_join : ∀ x, dsemSplit (dsemJoin x) = x := by decide
theorem dsemJoin_split : ∀ s : DmaSem sig, dsemJoin (dsemSplit s) = s := by decide

def dsemEquiv : (Fin 16 ⊕ Fin 16 ⊕ Fin 16 ⊕ Fin 16 ⊕ Fin 8 ⊕ Unit) ≃ DmaSem sig :=
  ⟨dsemJoin, dsemSplit, dsemSplit_join, dsemJoin_split⟩

omit [FloatOps F] in
/-- A big star over the DMA semaphores, group by group. -/
theorem bigSep_dsem (Φ : DmaSem sig → sProp 𝕄) : bigSep Finset.univ Φ
    = iprop((bigSep Finset.univ fun i : Fin 16 => Φ (saS i)) ∗ (bigSep Finset.univ fun i : Fin 16 => Φ (raS i))
      ∗ (bigSep Finset.univ fun i : Fin 16 => Φ (sbS i)) ∗ (bigSep Finset.univ fun i : Fin 16 => Φ (rbS i))
      ∗ (bigSep Finset.univ fun j : Fin 8 => Φ (inS j)) ∗ Φ locS) := by
  rw [bigSep_univ_equiv dsemEquiv Φ, bigSep_univ_sum, bigSep_univ_sum, bigSep_univ_sum, bigSep_univ_sum, bigSep_univ_sum,
    bigSep_univ_of_subsingleton ()]
  rfl

omit [FloatOps F] in
/-- A big star over a device's cells: the barrier's, then the DMA semaphores'. -/
theorem bigSep_semloc (Φ : SemLoc sig → sProp 𝕄) : bigSep Finset.univ Φ
    = iprop(Φ (.reg barS) ∗ bigSep Finset.univ fun s : DmaSem sig => Φ (.dma s)) := by
  rw [bigSep_univ_equiv (SemLoc.equivSum sig).symm Φ, bigSep_univ_sum, bigSep_univ_of_subsingleton (0 : Sem sig)]
  rfl

/-- info: 'Cert.KernelIdeal.AG.bigSep_dsem' depends on axioms: [propext, Classical.choice, Quot.sound] -/
#guard_msgs in #print axioms bigSep_dsem
/-- info: 'Cert.KernelIdeal.AG.bigSep_semloc' depends on axioms: [propext, Classical.choice, Quot.sound] -/
#guard_msgs in #print axioms bigSep_semloc

end Cert.KernelIdeal.AG

end
-- ==== Proof.Loop.lean ====
import Lean
/-!
A small tactic combinator: `for_fin n i => tacs` runs `tacs` once for each `i = 0, …, n - 1`, with the identifier `i`
replaced by the numeral and every identifier whose name ends in `ₓ` renamed by replacing that suffix with the numeral
(so `Hₓ` is `H0`, `H1`, …): one text for the steps of an unrolled loop. The identifier `iq` (the loop variable followed by
`q`) stands for the quotient `i / 4`, and the suffix `ᵩ` for that quotient in a name.
-/
open Lean Elab Tactic

namespace Cert.Loop

partial def substIdx (x : Name) (i : Nat) : Syntax → Syntax
  | .ident info rawVal val pre =>
    if val == x then Syntax.mkNumLit (toString i) info
    else if val == x.appendAfter "q" then Syntax.mkNumLit (toString (i / 4)) info
    else
      let s := val.toString
      if s.endsWith "ₓ" || s.endsWith "ᵩ" then
        let s' := (s.dropRight 1) ++ toString (if s.endsWith "ₓ" then i else i / 4)
        let n := s'.splitOn "." |>.foldl (fun acc p => Name.str acc p) Name.anonymous
        .ident info s'.toSubstring n pre
      else .ident info rawVal val pre
  | .node info kind args => .node info kind (args.map (substIdx x i))
  | stx => stx

syntax (name := forFin) "for_fin " num ident " => " tacticSeq : tactic

@[tactic forFin] def evalForFin : Tactic := fun stx => do
  let n := stx[1].isNatLit?.getD 0
  let x := stx[2].getId
  let body := stx[4]
  for i in [0:n] do
    let body' := substIdx x i body
    evalTactic body'

end Cert.Loop
-- ==== Proof.BodyLemmas.lean ====
import proofs.«900086_g7700000000000087_dist_ag_v7x_xy2x2_x_m4096_n1024_bf16_1_alg».proof.Proof.Steps
import proofs.«900086_g7700000000000087_dist_ag_v7x_xy2x2_x_m4096_n1024_bf16_1_alg».proof.Proof.Cred
import proofs.«900086_g7700000000000087_dist_ag_v7x_xy2x2_x_m4096_n1024_bf16_1_alg».proof.Proof.Close
import proofs.«900086_g7700000000000087_dist_ag_v7x_xy2x2_x_m4096_n1024_bf16_1_alg».proof.Proof.Rejoin
import proofs.«900086_g7700000000000087_dist_ag_v7x_xy2x2_x_m4096_n1024_bf16_1_alg».proof.Proof.DSem
import proofs.«900086_g7700000000000087_dist_ag_v7x_xy2x2_x_m4096_n1024_bf16_1_alg».proof.Proof.Loop

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Loop

set_option maxRecDepth 65536
set_option maxHeartbeats 4000000

/-- A big star over sixteen (eight, four) indices as a chain ending in `emp`: each step of an unrolled loop takes the head. -/
abbrev ch16 (Φ : Fin 16 → sProp 𝕄) : sProp 𝕄 := iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ emp)
abbrev ch8 (Φ : Fin 8 → sProp 𝕄) : sProp 𝕄 := iprop(Φ 0 ∗ Φ 1 ∗ Φ 2 ∗ Φ 3 ∗ Φ 4 ∗ Φ 5 ∗ Φ 6 ∗ Φ 7 ∗ emp)
abbrev ch4 (Φ : Fin 4 → sProp 𝕄) : sProp 𝕄 := iprop(Φ 0 ∗ Φ 1 ∗ Φ 2 ∗ Φ 3 ∗ emp)
omit [FloatOps F] in
theorem chain16 (Φ : Fin 16 → sProp 𝕄) : bigSep Finset.univ Φ = ch16 Φ := by
  have h : (Φ 15 : sProp 𝕄) = iprop(Φ 15 ∗ emp) := BI.equiv_iff.mp (BI.sep_emp (P := Φ 15)).symm
  rw [bigSep_fin16]; conv_lhs => rw [h]
omit [FloatOps F] in
theorem chain8 (Φ : Fin 8 → sProp 𝕄) : bigSep Finset.univ Φ = ch8 Φ := by
  have h : (Φ 7 : sProp 𝕄) = iprop(Φ 7 ∗ emp) := BI.equiv_iff.mp (BI.sep_emp (P := Φ 7)).symm
  rw [bigSep_fin8]; conv_lhs => rw [h]
omit [FloatOps F] in
theorem chain4 (Φ : Fin 4 → sProp 𝕄) : bigSep Finset.univ Φ = ch4 Φ := by
  have h : (Φ 3 : sProp 𝕄) = iprop(Φ 3 ∗ emp) := BI.equiv_iff.mp (BI.sep_emp (P := Φ 3)).symm
  rw [bigSep_fin4]; conv_lhs => rw [h]

/-- Chunk `i` of the bf16 scratch after its store: the cast of the block's rows. -/
theorem store_val (c : Dev nD) (i : Fin 16) (fb : Buf (Elt F) (bM.view.loc (c : Thread nD τ))) :
    ((bM.access (rCh c i)).loc (c : Thread nD τ) ↦[(bSrcA c i).view.set]{fullShare}
        ((bM.access (rCh c i)).write (Elt F) fb (truncf .bf16 (vM.view.readAt (Elt F) (rCh c i).toLoadRect (X m c)) bitsLt_bf16_f32) Finset.univ) : sProp 𝕄)
      ⊢ pts c (bSrcA c i) fullShare (BUF m c) :=
  Entails.of_eq (pointsTo_congr fun x hx => val_store m c i fb x (by rw [set_rCh]; exact hx))
/-- A 512-row slab of the other half after its store. -/
theorem store2_val (c : Dev nD) (k : Fin 4) (fb : Buf (Elt F) (bM.view.loc (c : Thread nD τ))) :
    ((bM.access (rCh2 c k)).loc (c : Thread nD τ) ↦[(bM.access (rCh2 c k)).set]{fullShare}
        ((bM.access (rCh2 c k)).write (Elt F) fb (truncf .bf16 (vM.view.readAt (Elt F) (rCh2 c k).toLoadRect (X m c)) bitsLt_bf16_f32) Finset.univ) : sProp 𝕄)
      ⊢ (bM.view.loc (c : Thread nD τ) ↦[(bM.access (rCh2 c k)).set]{fullShare} (BUF m c) : sProp 𝕄) :=
  Entails.of_eq (pointsTo_congr fun x hx => val_store2 m c k fb x hx)
/-- Both halves of a share of a slab. -/
theorem halve2 (c : Dev nD) (k : Fin 4) (f : Buf (Elt F) (bM.view.loc (c : Thread nD τ))) :
    (bM.view.loc (c : Thread nD τ) ↦[(bM.access (rCh2 c k)).set]{fullShare} f : sProp 𝕄)
      ⊢ iprop((bM.view.loc (c : Thread nD τ) ↦[(bM.access (rCh2 c k)).set]{fullShare.left} f) ∗ (bM.view.loc (c : Thread nD τ) ↦[(bM.access (rCh2 c k)).set]{fullShare.right} f)) :=
  (pointsTo_share (PosShare.mem_left_op_right fullShare)).1

theorem owes_A0 (c : Dev nD) (W : Waits sig Unit) : (owes (c : Thread nD τ) (owedA c 0) W : sProp 𝕄) ⊢ owes (c : Thread nD τ) (owedB c 16) W :=
  Entails.of_eq (by rw [owedA_zero])
theorem owes_B0 (c : Dev nD) (W : Waits sig Unit) : (owes (c : Thread nD τ) (owedB c (15 - (15 : Fin 16).val)) W : sProp 𝕄) ⊢ owes (c : Thread nD τ) 0 W :=
  Entails.of_eq (by rw [show 15 - (15 : Fin 16).val = 0 from rfl, owedB_zero])

/-- The pieces, as chains. -/
theorem open_x (c : Dev nD) : pts (F := F) c xM fullShare (X m c) ⊢ iprop(ch4 (fun k => pts c (xIn1 c k) fullShare (X m c)) ∗ ch4 (fun k => pts c (xIn2 c k) fullShare (X m c))) := by
  rw [← chain4, ← chain4]; exact unjoin_x c _
theorem open_v (c : Dev nD) (f : Buf (Elt F) (vM.view.loc (c : Thread nD τ))) : pts (F := F) c vM fullShare f ⊢ iprop(ch4 (fun k => pts c (vIn1 c k) fullShare f) ∗ ch4 (fun k => pts c (vIn2 c k) fullShare f)) := by
  rw [← chain4, ← chain4]; exact unjoin_v c f
theorem open_b (c : Dev nD) (f : Buf (Elt F) (bM.view.loc (c : Thread nD τ))) : pts (F := F) c bM fullShare f
    ⊢ iprop(ch16 (fun i => pts c (bSrcA c i) fullShare f) ∗ ch4 (fun k => (bM.view.loc (c : Thread nD τ) ↦[(bM.access (rCh2 c k)).set]{fullShare} f))) := by
  rw [← chain16, ← chain4]; exact unjoin_b c f
theorem close_b_right (c : Dev nD) : iprop(ch16 (fun i => pts c (bSrcA c i) fullShare.right (BUF m c)) ∗ ch4 (fun k => (bM.view.loc (c : Thread nD τ) ↦[(bM.access (rCh2 c k)).set]{fullShare.right} (BUF m c))))
    ⊢ pts c bM fullShare.right (BUF m c) := by
  rw [← chain16, ← chain4]; exact join_b_right m c
theorem rejoin_ch (c : Dev nD) :
    iprop(ch4 (fun k => pts c (xIn1 c k) fullShare (X m c)) ∗ ch4 (fun k => pts c (xIn2 c k) fullShare (X m c))
      ∗ ch4 (fun k => pts c (vIn1 c k) fullShare (X m c)) ∗ ch4 (fun k => pts c (vIn2 c k) fullShare (X m c))
      ∗ ch16 (fun i => pts c (bSrcA c i) fullShare.left (BUF m c))
      ∗ ch4 (fun k => (bM.view.loc (c : Thread nD τ) ↦[(bM.access (rCh2 c k)).set]{fullShare.left} (BUF m c)))
      ∗ pts c bM fullShare.right (BUF m c) ∗ pts c (oOwn c) fullShare (OUT m c)
      ∗ ch16 (fun i => pts c (oRecvA c i) fullShare (OUT m c)) ∗ ch16 (fun i => pts c (oRecvA (pb c) i) fullShare (OUT m c)))
      ⊢ iprop(pts c xM fullShare (X m c) ∗ pts c oM fullShare (OUT m c) ∗ (∃ f, pts c vM fullShare f) ∗ (∃ f, pts c bM fullShare f)) := by
  rw [← chain4, ← chain4, ← chain4, ← chain4, ← chain16, ← chain4, ← chain16, ← chain16]; exact rejoin m c
/-- All seventy-three own cells closed, family by family. -/
theorem closed_ch (c : Dev nD) :
    iprop(ch16 (fun i => semVal (dCell c (saS i)) 0) ∗ ch16 (fun i => semVal (dCell c (raS i)) 0) ∗ ch16 (fun i => semVal (dCell c (sbS i)) 0)
      ∗ ch16 (fun i => semVal (dCell c (rbS i)) 0) ∗ ch8 (fun j => semVal (dCell c (inS j)) 0) ∗ semVal (dCell c locS) 0)
      ⊢ (bigSep Finset.univ fun s : DmaSem sig => semVal (dCell c s) 0 : sProp 𝕄) := by
  rw [← chain16, ← chain16, ← chain16, ← chain16, ← chain8]
  exact Entails.of_eq (bigSep_dsem (fun s => (semVal (dCell c s) 0 : sProp 𝕄))).symm

/-- A cell's invariant and its round 0 reached, out of the records, by device and semaphore. -/
theorem inv_cell (K : Dev nD × SemLoc sig → ℕ) (c : Dev nD) (sm : SemLoc sig) :
    records m K ⊢ cellInv ER (sched m) (K (c, sm)) ((c : Thread nD τ), sm) := inv_at m K (c, sm)
theorem reached_cell (K : Dev nD × SemLoc sig → ℕ) (c : Dev nD) (sm : SemLoc sig) :
    records m K ⊢ reached ER ((c : Thread nD τ), sm) 0 := reached_at m K (c, sm)

/-- A memref renamed. -/
theorem pts_memref_congr {sp : Space} {s : Shape} {e : EltTy} {M M' : Memref sig .tc sp s e} (h : M = M') (c : Dev nD) (q : PosShare TreeShare)
    (f : Buf (Elt F) (M.view.loc (c : Thread nD τ))) (f' : Buf (Elt F) (M'.view.loc (c : Thread nD τ))) (hf : HEq f f') :
    (pts c M q f : sProp 𝕄) = pts c M' q f' := by
  subst h; cases hf; rfl
/-- The chunk landed from the column partner, in the device's own spelling of its rows. -/
theorem payRa_eq (c : Dev nD) (i : Fin 16) : payRa m c i = pts c (oRecvA c i) fullShare (OUT m c) :=
  pts_memref_congr (oDstA_pa c i) c _ _ _ HEq.rfl

end Cert.KernelIdeal.AG

end
-- ==== Proof.Body.lean ====
import proofs.«900086_g7700000000000087_dist_ag_v7x_xy2x2_x_m4096_n1024_bf16_1_alg».proof.Proof.Steps
import proofs.«900086_g7700000000000087_dist_ag_v7x_xy2x2_x_m4096_n1024_bf16_1_alg».proof.Proof.Cred
import proofs.«900086_g7700000000000087_dist_ag_v7x_xy2x2_x_m4096_n1024_bf16_1_alg».proof.Proof.Close
import proofs.«900086_g7700000000000087_dist_ag_v7x_xy2x2_x_m4096_n1024_bf16_1_alg».proof.Proof.Rejoin
import proofs.«900086_g7700000000000087_dist_ag_v7x_xy2x2_x_m4096_n1024_bf16_1_alg».proof.Proof.DSem
import proofs.«900086_g7700000000000087_dist_ag_v7x_xy2x2_x_m4096_n1024_bf16_1_alg».proof.Proof.BodyLemmas

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Loop

set_option maxRecDepth 65536
set_option maxHeartbeats 4000000

/-- One device's body, at a symbolic device: from `Φ₀` — the four buffers, the device's cells at round 0, the tokens of the duties it
    pays, the credit for what its partners owe it — to `Φ₁`, paying off everything it owes. In program order: the eight input copies
    are enqueued; each partner's barrier cell is signalled, the signal handing that partner the rows of this device's result it will
    write; the wait for both partners brings the rows of their results this device writes; the own half is cast chunk by chunk and
    each chunk sent to the column partner (a half share of it: the other half stays for the local copy); the other half is cast; the
    whole bf16 scratch is copied into the own block's rows; each chunk received from the column partner is forwarded to the row
    partner; then every landing and every departure is waited for, each wait returning its round's payload with the contents it
    landed; at the end every piece is back, the four buffers are whole again and every own cell has had its one round. -/
theorem body_obligation (c : Dev nD) : BodyObligation (dats (F := F) m 0 c) (defs₀ (F := F)) 𝒱₀ () Set.univ := fun t => by
  rw [fin_N0 t]
  show iprop(Φ₀ m c ∗ (dats m 0 c).owesAt () (t0_0).castSucc ∗ bigSep (Finset.univ : Finset (Fin 0)) _)
    ⊢ wp frame (wpE (defs₀ (F := F)) 𝒱₀ c none) Set.univ (bodyAt0 t0_0) _
  unfold bodyAt0
  simp only [cc0_body_eq_skeleton]; unfold cc0_body_skel
  simp only [k0_part33_eq_skeleton]; unfold k0_part33_skel
  simp only [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton, k0_part31_eq_skeleton, k0_part32_eq_skeleton]
  unfold k0_part1_skel k0_part2_skel k0_part3_skel k0_part4_skel k0_part5_skel k0_part6_skel k0_part7_skel k0_part8_skel k0_part9_skel k0_part10_skel k0_part11_skel k0_part12_skel
    k0_part13_skel k0_part14_skel k0_part15_skel k0_part16_skel k0_part17_skel k0_part18_skel k0_part19_skel k0_part20_skel k0_part21_skel k0_part22_skel k0_part23_skel k0_part24_skel
    k0_part25_skel k0_part26_skel k0_part27_skel k0_part28_skel k0_part29_skel k0_part30_skel k0_part31_skel k0_part32_skel
  simp only [semSignalWord, semWaitWord, Prog.lift, Prog.bind_op, Prog.bind_ret, Prog.pure_eq_ret, wp_deviceId]
  simp only [pay1_eq, pay2_eq, pay3_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, devSigA_eq c, devSigB_eq c]
  unfold Φ₀ start ghost positions payToks launchCreds Dat.owesAt Pipeline.owesWithin
  simp only [chain16, chain8]
  iintro ⟨⟨⟨⟨%K, #HR, ⟨HpBar, HpSa, HpRa, HpSb, HpRb, HpIn, HpLoc⟩, ⟨HtBarA, HtBarB, HtRa, HtRb, HtSa, HtSb, HtIn, HtLoc⟩⟩, ⟨HcBar, HcRa, HcRb⟩, #Hlev, Hx, ⟨%fo, Ho⟩⟩, ⟨%fv, Hv⟩, ⟨%fb, Hb⟩⟩, ⟨%W, %hW, HO⟩, -⟩
  -- the four buffers cut into the pieces the copies move
  ihave Hxs := (open_x m c) $$ Hx
  icases Hxs with ⟨HxA, HxB⟩
  ihave Hvs := (open_v c fv) $$ Hv
  icases Hvs with ⟨HvA, HvB⟩
  ihave Hbs := (open_b c fb) $$ Hb
  icases Hbs with ⟨HbA, HbB⟩
  ihave Hos := (unjoin_o c fo) $$ Ho
  icases Hos with ⟨HoOwn, HoA, HoB⟩
  -- the eight input copies
  for_fin 4 k =>
    icases HxA with ⟨HxAₓ, HxA⟩
    icases HvA with ⟨HvAₓ, HvA⟩
    icases HtIn with ⟨HtInAₓ, HtIn⟩
    iapply (wp_in1 m K c k fv) $$ [HxAₓ HvAₓ HtInAₓ]
    · isplitr; · iapply (inv_at m K _); iexact HR
      isplitl [HxAₓ]; · iexact HxAₓ
      isplitl [HvAₓ]; · iexact HvAₓ
      isplitl [HtInAₓ]; · iexact HtInAₓ
      iapply (reached_cell m K _ _); iexact HR
    iintro HcInAₓ
  for_fin 4 k =>
    icases HxB with ⟨HxBₓ, HxB⟩
    icases HvB with ⟨HvBₓ, HvB⟩
    icases HtIn with ⟨HtInBₓ, HtIn⟩
    iapply (wp_in2 m K c k fv) $$ [HxBₓ HvBₓ HtInBₓ]
    · isplitr; · iapply (inv_at m K _); iexact HR
      isplitl [HxBₓ]; · iexact HxBₓ
      isplitl [HvBₓ]; · iexact HvBₓ
      isplitl [HtInBₓ]; · iexact HtInBₓ
      iapply (reached_cell m K _ _); iexact HR
    iintro HcInBₓ
  -- the two barrier signals: each hands the partner the chunks of this device's result the partner writes
  iapply (Rounds.wp_signal 𝒱₀ ER (sched m) (c : Thread nD τ) none (dst := (pa c : Thread nD τ)) (κ := K (pa c, .reg barS))
      (d := false) (by rw [duties_bar]; exact Finset.mem_univ _) ((amount_bar m (pa c) false).trans (by decide)) () (O₁ c) rfl)
    $$ [HO HtBarA HoA]
  · isplitr; · iapply (inv_at m K _); iexact HR
    isplitl [HO]; · iexact HO
    isplitl [HtBarA]; · iexact HtBarA
    isplitl [HoA]
    · rw [payload_bar_false]; iapply (barA_pay_at m K c fo); isplitr; · iexact HR
      iexact HoA
    · iapply (reached_cell m K _ _); iexact HR
  iintro HO
  iapply (Rounds.wp_signal 𝒱₀ ER (sched m) (c : Thread nD τ) none (dst := (pb c : Thread nD τ)) (κ := K (pb c, .reg barS))
      (d := true) (by rw [duties_bar]; exact Finset.mem_univ _) ((amount_bar m (pb c) true).trans (by decide)) () (owedA c 16) rfl)
    $$ [HO HtBarB HoB]
  · isplitr; · iapply (inv_at m K _); iexact HR
    isplitl [HO]; · iexact HO
    isplitl [HtBarB]; · iexact HtBarB
    isplitl [HoB]
    · rw [payload_bar_true]; iapply (barB_pay_at m K c fo); isplitr; · iexact HR
      iexact HoB
    · iapply (reached_cell m K _ _); iexact HR
  iintro HO
  -- the wait for both partners: their chunks come with it
  iapply (Rounds.wp_wait_rest_token 𝒱₀ ER (sched m) (c : Thread nD τ) none (κ := K (c, .reg barS))
      (wpE_semWait_eq 𝒱₀ (c : Thread nD τ) none Set.univ) (Set.mem_univ _) () (O := owedA c 16) (W := W) (R := 0) (m := 0) (T := ∅)
      (by rw [expect_bar]; decide)) $$ [HcBar HO HpBar]
  · isplitr; · iapply (inv_at m K _); iexact HR
    isplitl [HcBar]; · iexact HcBar
    isplitl [HO]; · iexact HO
    isplitr; · iapply (mayWait_bar c); iexact Hlev
    iexact HpBar
  iintro ⟨HO, HpBar, -, Hpay⟩
  ihave Hp := (Entails.of_eq (rest_bar m c)) $$ Hpay
  icases Hp with ⟨HdA, HdB⟩
  ihave HdA := (Entails.of_eq (show payBarA (F := F) c = _ from chain16 _)) $$ HdA
  ihave HdB := (Entails.of_eq (show payBarB (F := F) c = _ from chain16 _)) $$ HdB
  -- the own half, chunk by chunk: (wait for its slab,) load, cast, store, send to the column partner
  for_fin 16 i =>
    first
      | (icases HcInAᵩ with HcW
         icases HpIn with ⟨HpW, HpIn'⟩
         iapply (wp_waitCell m K c (inS ⟨iq, by decide⟩) (dst := vIn1 c iq) rfl (owedA c (16 - i)) _) $$ [HcW HO HpW]
         · isplitr; · iapply (inv_at m K _); iexact HR
           isplitl [HcW]; · iexact HcW
           isplitl [HO]; · iexact HO
           isplitr; · iapply (mayWait_in c _ (16 - i)); iexact Hlev
           iexact HpW
         iintro ⟨HO, HqInAᵩ, Hpay⟩
         ihave Hp := (Entails.of_eq (payDma_in1 m c iq)) $$ Hpay
         icases Hp with ⟨HvLᵩ, HxLᵩ⟩
         irename HpIn' => HpIn)
      | skip
    iapply (wp_load 𝒱₀ (c : Thread nD τ) none Set.univ (m := vM) (load_ch_sub c i)) $$ HvLᵩ
    iintro HvLᵩ
    icases HbA with ⟨HbAₓ, HbA⟩
    iapply (wp_load 𝒱₀ (c : Thread nD τ) none Set.univ (m := bM) (loadb_ch_sub c i)) $$ HbAₓ
    iintro HbAₓ
    iapply (wp_store 𝒱₀ (c : Thread nD τ) none Set.univ (m := bM) (r := rCh c i) (Mk := Finset.univ) (set_rCh c i).subset) $$ HbAₓ
    iintro HbAₓ
    ihave HbAₓ := (store_val m c i fb) $$ HbAₓ
    ihave HbAₓ := (halve c (bSrcA c i) (BUF m c)).1 $$ HbAₓ
    icases HbAₓ with ⟨HbLₓ, HbRₓ⟩
    icases HdA with ⟨⟨⟨%faₓ, HdAₓ⟩, -⟩, HdA⟩
    icases HtSa with ⟨HtSaₓ, HtSa⟩
    icases HtRa with ⟨HtRaₓ, HtRa⟩
    iapply (wp_sendA m K c i faₓ _) $$ [HbLₓ HdAₓ HO HtSaₓ HtRaₓ]
    · isplitr; · iapply (inv_at m K _); iexact HR
      isplitr; · iapply (inv_at m K _); iexact HR
      isplitl [HbLₓ]; · iexact HbLₓ
      isplitl [HdAₓ]; · iexact HdAₓ
      isplitl [HO]; · iexact HO
      isplitl [HtSaₓ]; · iexact HtSaₓ
      isplitr; · iapply (reached_cell m K _ _); iexact HR
      isplitl [HtRaₓ]; · iexact HtRaₓ
      iapply (reached_cell m K _ _); iexact HR
    iintro ⟨HcSaₓ, HO⟩
  -- the other half, slab by slab: wait for it, load, cast, store
  for_fin 4 k =>
    icases HpIn with ⟨HpW, HpIn'⟩
    iapply (wp_waitCell m K c (inS ⟨4 + k, by decide⟩) (dst := vIn2 c k) rfl (owedA c 0) _) $$ [HcInBₓ HO HpW]
    · isplitr; · iapply (inv_cell m K _ _); iexact HR
      isplitl [HcInBₓ]; · iexact HcInBₓ
      isplitl [HO]; · iexact HO
      isplitr; · iapply (mayWait_in c _ 0); iexact Hlev
      iexact HpW
    iintro ⟨HO, HqInBₓ, Hpay⟩
    ihave Hp := (Entails.of_eq (payDma_in2 m c k)) $$ Hpay
    icases Hp with ⟨HvMₓ, HxMₓ⟩
    irename HpIn' => HpIn
    iapply (wp_load 𝒱₀ (c : Thread nD τ) none Set.univ (m := vM) (load_ch2_sub c k)) $$ HvMₓ
    iintro HvMₓ
    icases HbB with ⟨HbBₓ, HbB⟩
    iapply (wp_load 𝒱₀ (c : Thread nD τ) none Set.univ (m := bM) (loadb_ch2_sub c k)) $$ HbBₓ
    iintro HbBₓ
    iapply (wp_store 𝒱₀ (c : Thread nD τ) none Set.univ (m := bM) (r := rCh2 c k) (Mk := Finset.univ) (show (bM.access (rCh2 c k)).setOn Finset.univ ⊆ (bM.access (rCh2 c k)).set from Finset.Subset.refl _)) $$ HbBₓ
    iintro HbBₓ
    ihave HbBₓ := (store2_val m c k fb) $$ HbBₓ
    ihave HbBₓ := (halve2 c k (BUF m c)) $$ HbBₓ
    icases HbBₓ with ⟨HbBLₓ, HbBRₓ⟩
  -- the local copy: the whole bf16 scratch (the halves not lent) into the own block's rows
  have hcb := close_b_right m c
  dsimp only [ch16, ch4] at hcb
  ihave Hbr := hcb $$ [$]
  iapply (wp_local m K c fo) $$ [Hbr HoOwn HtLoc]
  · isplitr; · iapply (inv_cell m K _ _); iexact HR
    isplitl [Hbr]; · iexact Hbr
    isplitl [HoOwn]; · iexact HoOwn
    isplitl [HtLoc]; · iexact HtLoc
    iapply (reached_cell m K _ _); iexact HR
  iintro HcLoc
  -- each chunk from the column partner: wait for it, forward it to the row partner
  ihave HO := (owes_A0 c _) $$ HO
  for_fin 16 i =>
    icases HcRa with ⟨HcRaₓ, HcRa⟩
    icases HpRa with ⟨HpRaₓ, HpRa⟩
    iapply (wp_waitCell m K c (raS i) (dst := oDstA c i) rfl (owedB c (16 - i)) _) $$ [HcRaₓ HO HpRaₓ]
    · isplitr; · iapply (inv_cell m K _ _); iexact HR
      isplitl [HcRaₓ]; · iexact HcRaₓ
      isplitl [HO]; · iexact HO
      isplitr; · iapply (mayWait_ra c i (16 - i)); iexact Hlev
      iexact HpRaₓ
    iintro ⟨HO, HqRaₓ, Hpay⟩
    ihave HoAₓ := (Entails.of_eq ((payDma_ra m c i).trans (payRa_eq m c i))) $$ Hpay
    icases HdB with ⟨⟨⟨%fbbₓ, HdBₓ⟩, -⟩, HdB⟩
    icases HtSb with ⟨HtSbₓ, HtSb⟩
    icases HtRb with ⟨HtRbₓ, HtRb⟩
    iapply (wp_sendB m K c i fbbₓ _) $$ [HoAₓ HdBₓ HO HtSbₓ HtRbₓ]
    · isplitr; · iapply (inv_cell m K _ _); iexact HR
      isplitr; · iapply (inv_cell m K _ _); iexact HR
      isplitl [HoAₓ]; · iexact HoAₓ
      isplitl [HdBₓ]; · iexact HdBₓ
      isplitl [HO]; · iexact HO
      isplitl [HtSbₓ]; · iexact HtSbₓ
      isplitr; · iapply (reached_cell m K _ _); iexact HR
      isplitl [HtRbₓ]; · iexact HtRbₓ
      iapply (reached_cell m K _ _); iexact HR
    iintro ⟨HcSbₓ, HO⟩
  -- the chunks from the row partner
  ihave HO := (owes_B0 c _) $$ HO
  for_fin 16 i =>
    icases HcRb with ⟨HcRbₓ, HcRb⟩
    icases HpRb with ⟨HpRbₓ, HpRb⟩
    iapply (wp_waitCell m K c (rbS i) (dst := oRecvA c i) rfl 0 _) $$ [HcRbₓ HO HpRbₓ]
    · isplitr; · iapply (inv_cell m K _ _); iexact HR
      isplitl [HcRbₓ]; · iexact HcRbₓ
      isplitl [HO]; · iexact HO
      isplitr; · rw [MayWait_zero]; iempintro
      iexact HpRbₓ
    iintro ⟨HO, HqRbₓ, Hpay⟩
    ihave HoBₓ := (Entails.of_eq ((payDma_rb m c i).trans (show payRb m c i = pts c (oRecvA (pb c) i) fullShare (OUT m c) from rfl))) $$ Hpay
  -- the sends read out: the lent chunks come back
  for_fin 16 i =>
    icases HpSa with ⟨HpSaₓ, HpSa⟩
    iapply (wp_waitCell m K c (saS i) (dst := bSrcA c i) rfl 0 _) $$ [HcSaₓ HO HpSaₓ]
    · isplitr; · iapply (inv_cell m K _ _); iexact HR
      isplitl [HcSaₓ]; · iexact HcSaₓ
      isplitl [HO]; · iexact HO
      isplitr; · rw [MayWait_zero]; iempintro
      iexact HpSaₓ
    iintro ⟨HO, HqSaₓ, Hpay⟩
    ihave HbLₓ := (Entails.of_eq ((payDma_sa m c i).trans (show paySa m c i = pts c (bSrcA c i) fullShare.left (BUF m c) from rfl))) $$ Hpay
    icases HpSb with ⟨HpSbₓ, HpSb⟩
    iapply (wp_waitCell m K c (sbS i) (dst := oRecvA c i) rfl 0 _) $$ [HcSbₓ HO HpSbₓ]
    · isplitr; · iapply (inv_cell m K _ _); iexact HR
      isplitl [HcSbₓ]; · iexact HcSbₓ
      isplitl [HO]; · iexact HO
      isplitr; · rw [MayWait_zero]; iempintro
      iexact HpSbₓ
    iintro ⟨HO, HqSbₓ, Hpay⟩
    ihave HoAₓ := (Entails.of_eq ((payDma_sb m c i).trans (show paySb m c i = pts c (oRecvA c i) fullShare (OUT m c) from rfl))) $$ Hpay
  -- the local copy landed
  iapply (wp_waitCell m K c locS (dst := oOwn c) rfl 0 _) $$ [HcLoc HO HpLoc]
  · isplitr; · iapply (inv_cell m K _ _); iexact HR
    isplitl [HcLoc]; · iexact HcLoc
    isplitl [HO]; · iexact HO
    isplitr; · rw [MayWait_zero]; iempintro
    iexact HpLoc
  iintro ⟨HO, HqLoc, Hpay⟩
  ihave Hp := (Entails.of_eq ((payDma_loc m c).trans (show payLoc m c = iprop(pts c (oOwn c) fullShare (OUT m c) ∗ pts c bM fullShare.right (BUF m c)) from rfl))) $$ Hpay
  icases Hp with ⟨HoOwn, Hbr⟩
  rw [wp_ret]
  -- every own cell has had its one round: close them
  for_fin 16 i =>
    imod (close_cell m K c (saS i)) $$ [HqSaₓ] with HzSaₓ
    · isplitr; · iexact HR
      iexact HqSaₓ
    imod (close_cell m K c (raS i)) $$ [HqRaₓ] with HzRaₓ
    · isplitr; · iexact HR
      iexact HqRaₓ
    imod (close_cell m K c (sbS i)) $$ [HqSbₓ] with HzSbₓ
    · isplitr; · iexact HR
      iexact HqSbₓ
    imod (close_cell m K c (rbS i)) $$ [HqRbₓ] with HzRbₓ
    · isplitr; · iexact HR
      iexact HqRbₓ
  for_fin 4 k =>
    imod (close_cell m K c (inS ⟨k, by decide⟩)) $$ [HqInAₓ] with HzInAₓ
    · isplitr; · iexact HR
      iexact HqInAₓ
    imod (close_cell m K c (inS ⟨4 + k, by decide⟩)) $$ [HqInBₓ] with HzInBₓ
    · isplitr; · iexact HR
      iexact HqInBₓ
  imod (close_cell m K c locS) $$ [HqLoc] with HzLoc
  · isplitr; · iexact HR
    iexact HqLoc
  imodintro
  -- the four buffers whole again
  have hrj := rejoin_ch m c
  dsimp only [ch16, ch8, ch4] at hrj
  ihave Hmem := hrj $$ [$]
  have hcl := closed_ch (F := F) c
  dsimp only [ch16, ch8, ch4] at hcl
  ihave Hcl := hcl $$ [$]
  icases Hmem with ⟨H1, H2, H3, H4⟩
  isplitl [H1 H2 H3 H4 Hcl]
  · rw [show (dats m 0 c).Φ t0_0.succ = Φ₁ m c from rfl]
    unfold Φ₁
    isplitl [H1]; · iexact H1
    isplitl [H2]; · iexact H2
    isplitl [H3]; · iexact H3
    isplitl [H4]; · iexact H4
    iexact Hcl
  isplitl [HO]
  · iexists _
    isplitr
    rotate_left
    · rw [show (dats m 0 c).owed t0_0.succ = 0 from rfl]
      iexact HO
    · ipureintro; exact fun _ _ => Or.inl trivial
  rw [Finset.univ_eq_empty, bigSep_empty]; iempintro

end Cert.KernelIdeal.AG

end
-- ==== Proof.Bits.Proto.lean ====
/-
# The all-gather on the 2 × 2 mesh: names, geometry, contents and the schedule

Device `c` sits at mesh coordinates `(c / 2, c % 2)`. It holds block `c / 2` of `x` (4096 rows). The kernel
gathers the two blocks into every device's result (8192 rows) in three movements:
* its own block goes, through VMEM (cast on the way), into rows `4096 (c / 2) …` of its own result (one local copy);
* the half `c % 2` of its block (2048 rows, sixteen chunks of 128) goes to its column partner `pa c = (1 - c / 2, c % 2)`,
  into the same rows of that device's result (sixteen remote copies, cells `sa i` / `ra i`);
* each chunk it receives that way it forwards to its row partner `pb c = (c / 2, 1 - c % 2)`, same rows
  (sixteen remote copies, cells `sb i` / `rb i`).
-/
import proofs.«900086_g7700000000000087_dist_ag_v7x_xy2x2_x_m4096_n1024_bf16_1_alg».proof.Proof.Gen.Kernel
import proofs.«900086_g7700000000000087_dist_ag_v7x_xy2x2_x_m4096_n1024_bf16_1_alg».proof.Proof.Gen.Kernel.Skeleton
import proofs.«900086_g7700000000000087_dist_ag_v7x_xy2x2_x_m4096_n1024_bf16_1_alg».proof.Proof.Gen.Kernel.Launch
import proofs.«900086_g7700000000000087_dist_ag_v7x_xy2x2_x_m4096_n1024_bf16_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The two partners -/

/-- The column partner: the device with the other block of `x` and the same half. -/
def pa (c : Dev nD) : Dev nD := ⟨((c.val % 2) + 2) - 2 * (c.val / 2), by have h : c.val < 4 := c.isLt; show _ < 4; omega⟩
/-- The row partner: the device with the same block and the other half. -/
def pb (c : Dev nD) : Dev nD := ⟨(2 * (c.val / 2) + 1) - (c.val % 2), by have h : c.val < 4 := c.isLt; show _ < 4; omega⟩

theorem pa_pa (c : Dev nD) : pa (pa c) = c := by revert c; decide
theorem pb_pb (c : Dev nD) : pb (pb c) = c := by revert c; decide
theorem pa_pb (c : Dev nD) : pa (pb c) = pb (pa c) := by revert c; decide
theorem pa_ne (c : Dev nD) : pa c ≠ c := by revert c; decide
theorem pb_ne (c : Dev nD) : pb c ≠ c := by revert c; decide
theorem pa_ne_pb (c : Dev nD) : pa c ≠ pb c := by revert c; decide

def swapA : Dev nD ≃ Dev nD := ⟨pa, pa, pa_pa, pa_pa⟩
def swapB : Dev nD ≃ Dev nD := ⟨pb, pb, pb_pb, pb_pb⟩

/-! ## Memrefs -/

abbrev xM : Memref sig .tc .hbm S4096x1024 .f32 := Memref.whole main_arg0
abbrev oM : Memref sig .tc .hbm S8192x1024 .bf16 := Memref.whole main_v1
abbrev vM : Memref sig .tc .vmem S4096x1024 .f32 := Memref.whole cc0_scratch0
abbrev bM : Memref sig .tc .vmem S4096x1024 .bf16 := Memref.whole cc0_scratch1

abbrev w128 (i : Fin 16) : BitVec 32 := BitVec.ofNat 32 (128 * i.val)
abbrev w512 (j : Fin 4) : BitVec 32 := BitVec.ofNat 32 (512 * j.val)

/-- Rows of the block's own half, 512 at a time: source (HBM) and destination (VMEM) of the first four input copies. -/
abbrev rIn1 (c : Dev nD) (j : Fin 4) : Rect S4096x1024 := Rect.unit (s := S4096x1024) (k0_off1 c (w512 j)) S512x1024.size (k0_off1_inb c j)
/-- Rows of the other half, 512 at a time: the last four input copies. -/
abbrev rIn2 (c : Dev nD) (j : Fin 4) : Rect S4096x1024 := Rect.unit (s := S4096x1024) (k0_off2 c (w512 j)) S512x1024.size (k0_off2_inb c j)
/-- Chunk `i` of the own half, as loaded from the f32 scratch and stored to the bf16 scratch. -/
abbrev rCh (c : Dev nD) (i : Fin 16) : Rect S4096x1024 := Rect.unit (s := S4096x1024) (k0_off3 c (w128 i)) S128x1024.size (k0_off3_inb c i)
/-- The same chunk as the source of remote copy `a i`. -/
abbrev rSrcA (c : Dev nD) (i : Fin 16) : Rect S4096x1024 := Rect.unit (s := S4096x1024) (k0_off5 c (w128 i)) S128x1024.size (k0_off5_inb c i)
/-- Its destination rows in the column partner's result. -/
abbrev rDstA (c : Dev nD) (i : Fin 16) : Rect S8192x1024 := Rect.unit (s := S8192x1024) (k0_off4 c (w128 i)) S128x1024.size (k0_off4_inb c i)
/-- The rows of the own result chunk `i` of the column partner lands in: source and destination rows of remote copy `b i`. -/
abbrev rRecvA (c : Dev nD) (i : Fin 16) : Rect S8192x1024 := Rect.unit (s := S8192x1024) (k0_off8 c (w128 i)) S128x1024.size (k0_off8_inb c i)
/-- The other half, 512 rows at a time, as loaded and stored. -/
abbrev rCh2 (c : Dev nD) (j : Fin 4) : Rect S4096x1024 := Rect.unit (s := S4096x1024) (k0_off6 c (w512 j)) S512x1024.size (k0_off6_inb c j)
/-- The own block's rows in the own result. -/
abbrev rOwn (c : Dev nD) : Rect S8192x1024 := Rect.unit (s := S8192x1024) (k0_off7 c) S4096x1024.size (k0_off7_inb c)

abbrev xIn1 (c : Dev nD) (j : Fin 4) : Memref sig .tc .hbm S512x1024 .f32 := xM.slice (rIn1 c j) (fun _ => rfl)
abbrev vIn1 (c : Dev nD) (j : Fin 4) : Memref sig .tc .vmem S512x1024 .f32 := vM.slice (rIn1 c j) (fun _ => rfl)
abbrev xIn2 (c : Dev nD) (j : Fin 4) : Memref sig .tc .hbm S512x1024 .f32 := xM.slice (rIn2 c j) (fun _ => rfl)
abbrev vIn2 (c : Dev nD) (j : Fin 4) : Memref sig .tc .vmem S512x1024 .f32 := vM.slice (rIn2 c j) (fun _ => rfl)
abbrev bSrcA (c : Dev nD) (i : Fin 16) : Memref sig .tc .vmem S128x1024 .bf16 := bM.slice (rSrcA c i) (fun _ => rfl)
abbrev oDstA (c : Dev nD) (i : Fin 16) : Memref sig .tc .hbm S128x1024 .bf16 := oM.slice (rDstA c i) (fun _ => rfl)
abbrev oRecvA (c : Dev nD) (i : Fin 16) : Memref sig .tc .hbm S128x1024 .bf16 := oM.slice (rRecvA c i) (fun _ => rfl)
abbrev oOwn (c : Dev nD) : Memref sig .tc .hbm S4096x1024 .bf16 := oM.slice (rOwn c) (fun _ => rfl)

/-! ## Semaphores and cells -/

abbrev barS : Sem sig := (SemArray.scalar (sig.barrier 0 rfl) : Sems sig S_).sem
/-- The DMA semaphores by number: `sa i = i`, `ra i = 16 + i`, `sb i = 32 + i`, `rb i = 48 + i`, input copy `j` at `64 + j`,
    the local copy's at 72. -/
abbrev dsem (n : ℕ) (h : n < 73) : DmaSem sig := ⟨n, h⟩
abbrev saS (i : Fin 16) : DmaSem sig := dsem i.val (by have := i.isLt; omega)
abbrev raS (i : Fin 16) : DmaSem sig := dsem (16 + i.val) (by have := i.isLt; omega)
abbrev sbS (i : Fin 16) : DmaSem sig := dsem (32 + i.val) (by have := i.isLt; omega)
abbrev rbS (i : Fin 16) : DmaSem sig := dsem (48 + i.val) (by have := i.isLt; omega)
abbrev inS (j : Fin 8) : DmaSem sig := dsem (64 + j.val) (by have := j.isLt; omega)
abbrev locS : DmaSem sig := dsem 72 (by omega)

abbrev barCell (c : Dev nD) : GSem nD τ sig := ((c : Thread nD τ), .reg barS)
abbrev dCell (c : Dev nD) (s : DmaSem sig) : GSem nD τ sig := ((c : Thread nD τ), .dma s)

/-! ## Contents -/

/-- Device `c`'s block of `x`. -/
def X (c : Dev nD) : Vec F S4096x1024 .f32 := m ((c : Thread nD τ).loc main_arg0)
/-- The block in the result's format: what the bf16 scratch ends up holding. -/
def BUF (c : Dev nD) : Vec F S4096x1024 .bf16 := truncf .bf16 (X m c) bitsLt_bf16_f32
/-- Whose block's row `r % 4096` device `c`'s result holds in row `r`: its own in its own block's rows; in the other block's
    rows, the column partner's in the half the two share, the diagonal device's in the other half. -/
def srcOf (c : Dev nD) (r : ℕ) : Dev nD :=
  if r / 4096 = c.val / 2 then c else if (r % 4096) / 2048 = c.val % 2 then pa c else pa (pb c)
/-- What device `c`'s result ends up holding. -/
def OUT (c : Dev nD) : Vec F S8192x1024 .bf16 := fun i =>
  BUF m (srcOf c (i 0).val) (ValueIdx.ix2 (⟨(i 0).val % 4096, Nat.mod_lt _ (by decide)⟩ : Fin 4096) (⟨(i 1).val, (i 1).isLt⟩ : Fin 1024))

/-- Device `c` holds the elements under the memref `M` at share `q`, with contents `f`. -/
abbrev pts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-! ## The schedule: one round per cell -/

/-- The credit of a 128-row chunk of the result, of a 512-row slab of the f32 scratch, of the own block in the result. -/
abbrev N128 : ℕ := (oRecvA 0 0).view.dmaCredit
abbrev N512 : ℕ := (vIn1 0 0).view.dmaCredit
abbrev N4096 : ℕ := (oOwn 0).view.dmaCredit

/-- What the column partner's barrier signal hands device `d`: the sixteen chunks of the partner's result that `d` writes,
    as `d` names them, and that the partner is at round 0 of the cells those copies credit. -/
def payBarA (d : Dev nD) : sProp 𝕄 :=
  bigSep Finset.univ fun i : Fin 16 => iprop((∃ f, pts (pa d) (oDstA d i) fullShare f) ∗ reached ER (dCell (pa d) (raS i)) 0)
/-- What the row partner's hands it: the sixteen chunks of that partner's result that `d` forwards into. -/
def payBarB (d : Dev nD) : sProp 𝕄 :=
  bigSep Finset.univ fun i : Fin 16 => iprop((∃ f, pts (pb d) (oRecvA d i) fullShare f) ∗ reached ER (dCell (pb d) (rbS i)) 0)
/-- Send cell `a i`: the source chunk's lent half back. -/
def paySa (d : Dev nD) (i : Fin 16) : sProp 𝕄 := pts d (bSrcA d i) fullShare.left (BUF m d)
/-- Receive cell `a i`: the chunk landed from the column partner (spelt as the partner's copy names the rows). -/
def payRa (d : Dev nD) (i : Fin 16) : sProp 𝕄 := pts d (oDstA (pa d) i) fullShare (OUT m d)
/-- Send cell `b i`: the forwarded chunk back. -/
def paySb (d : Dev nD) (i : Fin 16) : sProp 𝕄 := pts d (oRecvA d i) fullShare (OUT m d)
/-- Receive cell `b i`: the chunk landed from the row partner. -/
def payRb (d : Dev nD) (i : Fin 16) : sProp 𝕄 := pts d (oRecvA (pb d) i) fullShare (OUT m d)
/-- Input copy `j`: the slab landed in the f32 scratch, and its source back. -/
def payIn (d : Dev nD) (j : Fin 8) : sProp 𝕄 :=
  if h : j.val < 4 then iprop(pts d (vIn1 d ⟨j.val, h⟩) fullShare (X m d) ∗ pts d (xIn1 d ⟨j.val, h⟩) fullShare (X m d))
  else iprop(pts d (vIn2 d ⟨j.val - 4, by have := j.isLt; omega⟩) fullShare (X m d) ∗ pts d (xIn2 d ⟨j.val - 4, by have := j.isLt; omega⟩) fullShare (X m d))
/-- The local copy: the own block landed in the result, and the bf16 scratch's lent half back. -/
def payLoc (d : Dev nD) : sProp 𝕄 := iprop(pts d (oOwn d) fullShare (OUT m d) ∗ pts d bM fullShare.right (BUF m d))

def payDma (d : Dev nD) (s : DmaSem sig) : sProp 𝕄 :=
  if h : s.val < 16 then paySa m d ⟨s.val, h⟩
  else if h : s.val < 32 then payRa m d ⟨s.val - 16, by omega⟩
  else if h : s.val < 48 then paySb m d ⟨s.val - 32, by omega⟩
  else if h : s.val < 64 then payRb m d ⟨s.val - 48, by omega⟩
  else if h : s.val < 72 then payIn m d ⟨s.val - 64, by omega⟩
  else payLoc m d

def dmaAmt (s : DmaSem sig) : ℕ := if s.val < 64 then N128 else if s.val < 72 then N512 else N4096

/-- Round 0 only. A barrier cell has the two duties `false` (the column partner's signal) and `true` (the row partner's),
    one unit each; every DMA cell the one duty `false` of its copy's credit. -/
def sched : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma s => dmaAmt s
  payload g _ d := match g.2 with
    | .reg _ => if d then payBarB g.1.1 else payBarA g.1.1
    | .dma s => payDma m g.1.1 s
  amount_pos g _ _ _ := by
    rcases g with ⟨th, sm⟩
    cases sm with
    | reg s => exact Nat.one_pos
    | dma s =>
      show 0 < dmaAmt s
      unfold dmaAmt
      split
      · exact View.dmaCredit_pos _ (by decide)
      · split
        · exact View.dmaCredit_pos _ (by decide)
        · exact View.dmaCredit_pos _ (by decide)

instance sched_payload_storable (g : GSem nD τ sig) (r : ℕ) (d : Bool) :
    BI.Storable (upEmb : UEmb _ 𝕄) ((sched (F := F) m).payload g r d) := by
  rcases g with ⟨th, sm⟩
  cases sm with
  | reg s =>
    show BI.Storable upEmb (if d then payBarB th.1 else payBarA th.1)
    unfold payBarA payBarB
    split <;> infer_instance
  | dma s =>
    show BI.Storable upEmb (payDma m th.1 s)
    unfold payDma paySa payRa paySb payRb payIn payLoc
    (repeat' split) <;> infer_instance

end Cert.Kernel.AG

end
-- ==== Proof.Bits.Ghost.lean ====
import proofs.«900086_g7700000000000087_dist_ag_v7x_xy2x2_x_m4096_n1024_bf16_1_alg».proof.Proof.Bits.Proto

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch

In the order the body pays: the signal to the column partner's barrier, the signal to the row partner's, the sixteen
arrivals at the column partner, the sixteen at the row partner. The terms are sums whose LAST summand is the next payment,
so that each payment peels one summand. -/

/-- Chunk `15 - k`: the `k`-th from the end. -/
def rev16 (k : ℕ) : Fin 16 := ⟨15 - k % 16, by omega⟩

/-- The last `n` arrivals at the row partner (chunks `16 - n … 15`). -/
def owedB (c : Dev nD) (n : ℕ) : CellTallies nD τ sig Unit :=
  ∑ k ∈ Finset.range n, tallyAt (dCell (pb c) (rbS (rev16 k))) () N128
/-- All sixteen of those and the last `n` arrivals at the column partner. -/
def owedA (c : Dev nD) (n : ℕ) : CellTallies nD τ sig Unit :=
  owedB c 16 + ∑ k ∈ Finset.range n, tallyAt (dCell (pa c) (raS (rev16 k))) () N128
def O₁ (c : Dev nD) : CellTallies nD τ sig Unit := owedA c 16 + tallyAt (barCell (pb c)) () 1
def O₀ (c : Dev nD) : CellTallies nD τ sig Unit := O₁ c + tallyAt (barCell (pa c)) () 1

theorem owedB_peel (c : Dev nD) (i : Fin 16) :
    owedB c (16 - i.val) = owedB c (15 - i.val) + tallyAt (dCell (pb c) (rbS i)) () N128 := by
  have hi := i.isLt
  have h1 : 16 - i.val = (15 - i.val) + 1 := by omega
  have h2 : rev16 (15 - i.val) = i := Fin.ext (by show 15 - (15 - i.val) % 16 = i.val; omega)
  unfold owedB
  rw [h1, Finset.sum_range_succ, h2]
theorem owedA_peel (c : Dev nD) (i : Fin 16) :
    owedA c (16 - i.val) = owedA c (15 - i.val) + tallyAt (dCell (pa c) (raS i)) () N128 := by
  have hi := i.isLt
  have h1 : 16 - i.val = (15 - i.val) + 1 := by omega
  have h2 : rev16 (15 - i.val) = i := Fin.ext (by show 15 - (15 - i.val) % 16 = i.val; omega)
  unfold owedA
  rw [h1, Finset.sum_range_succ, h2, add_assoc]
theorem owedA_zero (c : Dev nD) : owedA c 0 = owedB c 16 := by
  unfold owedA; rw [Finset.range_zero, Finset.sum_empty, add_zero]
theorem owedB_zero (c : Dev nD) : owedB c 0 = 0 := by
  unfold owedB; rw [Finset.range_zero, Finset.sum_empty]

/-! ## Levels: barrier cells at 1, the column arrivals' cells at 2, the row arrivals' at 3, every other cell at 0 -/

def L (g : GSem nD τ sig) : Finset Unit := if g.1.2 = .tc then {()} else ∅
def lv (g : GSem nD τ sig) (_ : Unit) : ℕ :=
  match g.2 with
  | .reg _ => 1
  | .dma s => if 16 ≤ s.val ∧ s.val < 32 then 2 else if 48 ≤ s.val ∧ s.val < 64 then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state -/

abbrev gcell (ck : Dev nD × SemLoc sig) : GSem nD τ sig := ((ck.1 : Thread nD τ), ck.2)

/-- Every cell's invariant, at the names `K`, and that every cell's round 0 is reached: persistent, held by every device. -/
def records (K : Dev nD × SemLoc sig → ℕ) : sProp 𝕄 :=
  iprop((bigSep Finset.univ fun ck : Dev nD × SemLoc sig => cellInv ER (sched m) (K ck) (gcell ck))
    ∗ bigSep Finset.univ fun ck : Dev nD × SemLoc sig => reached ER (gcell ck) 0)

instance records_persistent (K : Dev nD × SemLoc sig → ℕ) : BI.Persistent (records m K) := by unfold records; infer_instance

/-- The tokens of the duties device `c` pays: the partners' barrier duties, the thirty-two arrivals, and its own cells' copies. -/
def payToks (c : Dev nD) : sProp 𝕄 :=
  iprop(dutyTok ER (barCell (pa c)) 0 false ∗ dutyTok ER (barCell (pb c)) 0 true
    ∗ (bigSep Finset.univ fun i : Fin 16 => dutyTok ER (dCell (pa c) (raS i)) 0 false)
    ∗ (bigSep Finset.univ fun i : Fin 16 => dutyTok ER (dCell (pb c) (rbS i)) 0 false)
    ∗ (bigSep Finset.univ fun i : Fin 16 => dutyTok ER (dCell c (saS i)) 0 false)
    ∗ (bigSep Finset.univ fun i : Fin 16 => dutyTok ER (dCell c (sbS i)) 0 false)
    ∗ (bigSep Finset.univ fun j : Fin 8 => dutyTok ER (dCell c (inS j)) 0 false)
    ∗ dutyTok ER (dCell c locS) 0 false)

/-- Its positions: at round 0 of each of its own cells. -/
def positions (c : Dev nD) : sProp 𝕄 :=
  iprop(atPos ER (barCell c) 0 ∅ 0
    ∗ (bigSep Finset.univ fun i : Fin 16 => atPos ER (dCell c (saS i)) 0 ∅ 0)
    ∗ (bigSep Finset.univ fun i : Fin 16 => atPos ER (dCell c (raS i)) 0 ∅ 0)
    ∗ (bigSep Finset.univ fun i : Fin 16 => atPos ER (dCell c (sbS i)) 0 ∅ 0)
    ∗ (bigSep Finset.univ fun i : Fin 16 => atPos ER (dCell c (rbS i)) 0 ∅ 0)
    ∗ (bigSep Finset.univ fun j : Fin 8 => atPos ER (dCell c (inS j)) 0 ∅ 0)
    ∗ atPos ER (dCell c locS) 0 ∅ 0)

def ghost (K : Dev nD × SemLoc sig → ℕ) (c : Dev nD) : sProp 𝕄 := iprop(records m K ∗ positions c ∗ payToks c)

/-- The credit the launch deals device `c` for what the others owe its cells. -/
def launchCreds (c : Dev nD) : sProp 𝕄 :=
  iprop(cred (tallyAt (barCell c) () 2)
    ∗ (bigSep Finset.univ fun i : Fin 16 => cred (tallyAt (dCell c (raS i)) () N128))
    ∗ (bigSep Finset.univ fun i : Fin 16 => cred (tallyAt (dCell c (rbS i)) () N128)))

/-- What device `c`'s body starts from, the scratch buffers apart. -/
def start (c : Dev nD) : sProp 𝕄 :=
  iprop((∃ K, ghost m K c) ∗ launchCreds c ∗ levAts L lv ∗ pts c xM fullShare (X m c) ∗ (∃ f, pts c oM fullShare f))

def Φ₀ (c : Dev nD) : sProp 𝕄 := iprop(start m c ∗ (∃ f, pts c vM fullShare f) ∗ (∃ f, pts c bM fullShare f))
/-- After the body: `x` as it was, the result gathered, the scratch buffers, and every own DMA cell closed at zero. -/
def Φ₁ (c : Dev nD) : sProp 𝕄 :=
  iprop(pts c xM fullShare (X m c) ∗ pts c oM fullShare (OUT m c) ∗ (∃ f, pts c vM fullShare f) ∗ (∃ f, pts c bM fullShare f)
    ∗ (bigSep Finset.univ fun s : DmaSem sig => semVal (dCell c s) 0))

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.Bits.Sched.lean ====
/-
# The schedule's tables

The all-gather's schedule has one round per cell. These are its entries, cell by cell: the duties, the amounts, the
units a round expects, the payloads, and the rest of a round of which no duty has been taken; the credits of the views
the copies name; and a big star over sixteen, eight or four indices written out as a chain.
-/
import proofs.«900086_g7700000000000087_dist_ag_v7x_xy2x2_x_m4096_n1024_bf16_1_alg».proof.Proof.Bits.Proto

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Duties, amounts and the units a round expects -/

/-- A barrier cell's round 0 has both duties. -/
theorem duties_bar (c : Dev nD) : (sched (F := F) m).duties (barCell c) 0 = Finset.univ := by
  dsimp only [sched]; exact if_pos ⟨rfl, rfl⟩

/-- A DMA cell's round 0 has the one duty of its copy. -/
theorem duties_dma (c : Dev nD) (s : DmaSem sig) : (sched (F := F) m).duties (dCell c s) 0 = {false} := by
  dsimp only [sched]; exact if_pos ⟨rfl, rfl⟩

/-- No cell has a duty after round 0. -/
theorem duties_later (g : GSem nD τ sig) : ∀ r, 1 ≤ r → (sched (F := F) m).duties g r = ∅ :=
  fun r hr => by dsimp only [sched]; exact if_neg fun h => by have := h.1; omega

/-- Each barrier signal is one unit. -/
theorem amount_bar (c : Dev nD) (d : Bool) : (sched (F := F) m).amount (barCell c) 0 d = 1 := rfl

/-- A copy credits its cell the credit of its semaphore's class. -/
theorem amount_dma (c : Dev nD) (s : DmaSem sig) (d : Bool) : (sched (F := F) m).amount (dCell c s) 0 d = dmaAmt s := rfl

theorem dmaAmt_sa (i : Fin 16) : dmaAmt (saS i) = N128 := by
  unfold dmaAmt; exact if_pos (show i.val < 64 by have := i.isLt; omega)
theorem dmaAmt_ra (i : Fin 16) : dmaAmt (raS i) = N128 := by
  unfold dmaAmt; exact if_pos (show 16 + i.val < 64 by have := i.isLt; omega)
theorem dmaAmt_sb (i : Fin 16) : dmaAmt (sbS i) = N128 := by
  unfold dmaAmt; exact if_pos (show 32 + i.val < 64 by have := i.isLt; omega)
theorem dmaAmt_rb (i : Fin 16) : dmaAmt (rbS i) = N128 := by
  unfold dmaAmt; exact if_pos (show 48 + i.val < 64 by have := i.isLt; omega)
theorem dmaAmt_in (j : Fin 8) : dmaAmt (inS j) = N512 := by
  unfold dmaAmt
  rw [if_neg (show ¬ (64 + j.val < 64) by omega)]
  exact if_pos (show 64 + j.val < 72 by have := j.isLt; omega)
theorem dmaAmt_loc : dmaAmt locS = N4096 := by
  unfold dmaAmt
  rw [if_neg (show ¬ ((72 : ℕ) < 64) by omega)]
  exact if_neg (show ¬ ((72 : ℕ) < 72) by omega)

/-- The barrier cell expects its two units. -/
theorem expect_bar (c : Dev nD) : (sched (F := F) m).expect (barCell c) 0 = 2 := by
  unfold Schedule.expect Schedule.amountOf
  rw [duties_bar, Finset.sum_congr rfl fun d _ => amount_bar m c d, Finset.sum_const, Finset.card_univ, Fintype.card_bool, smul_eq_mul]

/-- A DMA cell expects its one copy's credit. -/
theorem expect_dma (c : Dev nD) (s : DmaSem sig) : (sched (F := F) m).expect (dCell c s) 0 = dmaAmt s := by
  unfold Schedule.expect Schedule.amountOf; rw [duties_dma, Finset.sum_singleton, amount_dma]

/-! ## Payloads -/

/-- The column partner's signal hands the barrier's owner the partner's chunks. -/
theorem payload_bar_false (c : Dev nD) : (sched (F := F) m).payload (barCell c) 0 false = payBarA c := by
  dsimp only [sched]; exact if_neg Bool.false_ne_true
/-- The row partner's signal hands it that partner's chunks. -/
theorem payload_bar_true (c : Dev nD) : (sched (F := F) m).payload (barCell c) 0 true = payBarB c := by
  dsimp only [sched]; exact if_pos rfl

/-- A copy's landing hands the DMA cell's owner that semaphore's payload. -/
theorem payload_dma (c : Dev nD) (s : DmaSem sig) (d : Bool) : (sched (F := F) m).payload (dCell c s) 0 d = payDma m c s := rfl

theorem payDma_sa (c : Dev nD) (i : Fin 16) : payDma m c (saS i) = paySa m c i := by
  unfold payDma; exact dif_pos (c := (saS i).val < 16) i.isLt

theorem payDma_ra (c : Dev nD) (i : Fin 16) : payDma m c (raS i) = payRa m c i := by
  have h1 : ¬ (raS i).val < 16 := by show ¬ (16 + i.val < 16); omega
  have h2 : (raS i).val < 32 := by show 16 + i.val < 32; have := i.isLt; omega
  unfold payDma
  rw [dif_neg h1, dif_pos h2]
  congr 1
  exact Fin.ext (show 16 + i.val - 16 = i.val by omega)

theorem payDma_sb (c : Dev nD) (i : Fin 16) : payDma m c (sbS i) = paySb m c i := by
  have h1 : ¬ (sbS i).val < 16 := by show ¬ (32 + i.val < 16); omega
  have h2 : ¬ (sbS i).val < 32 := by show ¬ (32 + i.val < 32); omega
  have h3 : (sbS i).val < 48 := by show 32 + i.val < 48; have := i.isLt; omega
  unfold payDma
  rw [dif_neg h1, dif_neg h2, dif_pos h3]
  congr 1
  exact Fin.ext (show 32 + i.val - 32 = i.val by omega)

theorem payDma_rb (c : Dev nD) (i : Fin 16) : payDma m c (rbS i) = payRb m c i := by
  have h1 : ¬ (rbS i).val < 16 := by show ¬ (48 + i.val < 16); omega
  have h2 : ¬ (rbS i).val < 32 := by show ¬ (48 + i.val < 32); omega
  have h3 : ¬ (rbS i).val < 48 := by show ¬ (48 + i.val < 48); omega
  have h4 : (rbS i).val < 64 := by show 48 + i.val < 64; have := i.isLt; omega
  unfold payDma
  rw [dif_neg h1, dif_neg h2, dif_neg h3, dif_pos h4]
  congr 1
  exact Fin.ext (show 48 + i.val - 48 = i.val by omega)

/-- Input copy `j`'s semaphore carries input copy `j`'s payload. -/
theorem payDma_in (c : Dev nD) (j : Fin 8) : payDma m c (inS j) = payIn m c j := by
  have h1 : ¬ (inS j).val < 16 := by show ¬ (64 + j.val < 16); omega
  have h2 : ¬ (inS j).val < 32 := by show ¬ (64 + j.val < 32); omega
  have h3 : ¬ (inS j).val < 48 := by show ¬ (64 + j.val < 48); omega
  have h4 : ¬ (inS j).val < 64 := by show ¬ (64 + j.val < 64); omega
  have h5 : (inS j).val < 72 := by show 64 + j.val < 72; have := j.isLt; omega
  unfold payDma
  rw [dif_neg h1, dif_neg h2, dif_neg h3, dif_neg h4, dif_pos h5]
  congr 1
  exact Fin.ext (show 64 + j.val - 64 = j.val by omega)

theorem payDma_loc (c : Dev nD) : payDma m c locS = payLoc m c := by
  unfold payDma
  rw [dif_neg (show ¬ (locS : DmaSem sig).val < 16 by show ¬ ((72 : ℕ) < 16); omega),
    dif_neg (show ¬ (locS : DmaSem sig).val < 32 by show ¬ ((72 : ℕ) < 32); omega),
    dif_neg (show ¬ (locS : DmaSem sig).val < 48 by show ¬ ((72 : ℕ) < 48); omega),
    dif_neg (show ¬ (locS : DmaSem sig).val < 64 by show ¬ ((72 : ℕ) < 64); omega),
    dif_neg (show ¬ (locS : DmaSem sig).val < 72 by show ¬ ((72 : ℕ) < 72); omega)]

/-- The payload of a slab of the second half does not depend on how its index is written. -/
theorem payIn2_congr (c : Dev nD) (k k' : Fin 4) (h : k' = k) :
    iprop(pts c (vIn2 c k') fullShare (X m c) ∗ pts c (xIn2 c k') fullShare (X m c))
      = iprop(pts c (vIn2 c k) fullShare (X m c) ∗ pts c (xIn2 c k) fullShare (X m c)) := by
  subst h; rfl

/-- The first four input copies land the slabs of the own half and return their sources. -/
theorem payDma_in1 (c : Dev nD) (k : Fin 4) : payDma m c (inS ⟨k.val, by omega⟩)
    = iprop(pts c (vIn1 c k) fullShare (X m c) ∗ pts c (xIn1 c k) fullShare (X m c)) := by
  rw [payDma_in]
  unfold payIn
  rw [dif_pos (show ((⟨k.val, by omega⟩ : Fin 8)).val < 4 from k.isLt)]

/-- The last four land the slabs of the other half. -/
theorem payDma_in2 (c : Dev nD) (k : Fin 4) : payDma m c (inS ⟨4 + k.val, by omega⟩)
    = iprop(pts c (vIn2 c k) fullShare (X m c) ∗ pts c (xIn2 c k) fullShare (X m c)) := by
  rw [payDma_in]
  unfold payIn
  rw [dif_neg (show ¬ ((⟨4 + k.val, by omega⟩ : Fin 8)).val < 4 by show ¬ (4 + k.val < 4); omega)]
  exact payIn2_congr m c k _ (Fin.ext (show 4 + k.val - 4 = k.val by omega))

/-! ## The rest of a round of which nothing has been taken -/

/-- The barrier's: both partners' payloads. -/
theorem rest_bar (c : Dev nD) : bigSep ((sched (F := F) m).duties (barCell c) 0 \ ∅) (fun d => (sched (F := F) m).payload (barCell c) 0 d)
    = iprop(payBarA c ∗ payBarB c) := by
  rw [Finset.sdiff_empty, duties_bar, bigSep_univ_eq_bigSepL [false, true] (by decide) (by decide), bigSepL_cons_cons, bigSepL_singleton,
    payload_bar_false, payload_bar_true]
  rfl

/-- A DMA cell's: its copy's payload. -/
theorem rest_dma (c : Dev nD) (s : DmaSem sig) : bigSep ((sched (F := F) m).duties (dCell c s) 0 \ ∅) (fun d => (sched (F := F) m).payload (dCell c s) 0 d)
    = payDma m c s := by
  rw [Finset.sdiff_empty, duties_dma, bigSep_singleton, payload_dma]

/-! ## Credits -/

theorem N128_pos : 0 < N128 := View.dmaCredit_pos _ (by decide)
theorem N512_pos : 0 < N512 := View.dmaCredit_pos _ (by decide)
theorem N4096_pos : 0 < N4096 := View.dmaCredit_pos _ (by decide)

/-- A view's credit is a function of its shape and element type on this processor, so every 128-row chunk of the result
    or of the bf16 scratch credits alike, every 512-row slab of the f32 scratch alike. -/
theorem amt_dstA (c : Dev nD) (i : Fin 16) : (oDstA c i).view.dmaCredit = N128 := rfl
theorem amt_recvA (c : Dev nD) (i : Fin 16) : (oRecvA c i).view.dmaCredit = N128 := rfl
theorem amt_srcA (c : Dev nD) (i : Fin 16) : (bSrcA c i).view.dmaCredit = N128 := rfl
theorem amt_vIn1 (c : Dev nD) (k : Fin 4) : (vIn1 c k).view.dmaCredit = N512 := rfl
theorem amt_vIn2 (c : Dev nD) (k : Fin 4) : (vIn2 c k).view.dmaCredit = N512 := rfl
theorem amt_own (c : Dev nD) : (oOwn c).view.dmaCredit = N4096 := rfl

/-! ## A big star over a few indices, written out -/

omit [FloatOps F] in
theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- info: 'Cert.Kernel.AG.rest_bar' depends on axioms: [propext, Classical.choice, Quot.sound] -/
#guard_msgs in #print axioms rest_bar

end Cert.Kernel.AG

end
-- ==== Proof.Bits.Geom.lean ====
/-
# The all-gather on the 2 × 2 mesh: the sets

Each of a device's four buffers is cut into the pieces the body holds apart: the f32 argument and scratch into eight
slabs of 512 rows, the bf16 scratch into the sixteen chunks of the half that is sent and the four slabs of the other half,
the result into the own block and the thirty-two chunks of the other block. Every piece is a band of whole rows, so a
set identity is an identity of row ranges, read off the closed forms of the printed offsets and decided by linear arithmetic.
-/
import proofs.«900086_g7700000000000087_dist_ag_v7x_xy2x2_x_m4096_n1024_bf16_1_alg».proof.Proof.Bits.Proto

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The offsets -/

/-- Chunk `i` of the own half is stored to and sent from the same rows of the bf16 scratch. -/
theorem off3_eq_off5 (c : Dev nD) (i : Fin 16) : k0_off3 c (w128 i) = k0_off5 c (w128 i) :=
  (k0_off3_eq c i).trans (k0_off5_eq c i).symm

/-- The rows the column partner sends its chunk `i` to are the rows this device forwards from. -/
theorem off4_pa (c : Dev nD) (i : Fin 16) : k0_off4 (pa c) (w128 i) = k0_off8 c (w128 i) := by
  rw [k0_off4_eq (pa c) i, k0_off8_eq c i]
  have hc : c.val < 4 := c.isLt
  have hi : i.val < 16 := i.isLt
  have hpa : (pa c).val = ((c.val % 2) + 2) - 2 * (c.val / 2) := rfl
  have h : 4096 * ((pa c).val / 2) + 2048 * ((pa c).val % 2) + 128 * i.val
      = (2048 * (c.val % 2) + 128 * i.val + 4096) - 4096 * (c.val / 2) := by
    rw [hpa]; omega
  rw [h]

theorem oDstA_pa (c : Dev nD) (i : Fin 16) : oDstA (pa c) i = oRecvA c i :=
  Memref.slice_unit_congr oM (off4_pa c i) _ _ _ _

/-- The chunk as stored and as sent: the same elements. -/
theorem set_rCh (c : Dev nD) (i : Fin 16) : (bM.access (rCh c i)).set = (bSrcA c i).view.set := by
  have h : rCh c i = rSrcA c i := Rect.unit_congr (off3_eq_off5 c i) _ _
  show (bM.view.slice (rCh c i)).set = (bM.view.slice (rSrcA c i)).set
  rw [h]

/-! ## Membership in a band of whole rows -/

/-- A unit-stride rectangle of a rank-two shape that spans every column: membership is a range of rows. -/
theorem mem_unit_rows (d off size : Fin 2 → ℕ) (inb : ∀ a, off a + size a ≤ (⟨2, d⟩ : Shape).size a)
    (h1 : off 1 = 0) (h1' : size 1 = d 1) (x : (⟨2, d⟩ : Shape).Idx) :
    x ∈ (Rect.unit (s := ⟨2, d⟩) off size inb).set ↔ off 0 ≤ (x 0).val ∧ (x 0).val < off 0 + size 0 := by
  rw [Rect.mem_set_unit, Fin.forall_fin_two]
  have h2 : (x 1).val < d 1 := (x 1).isLt
  constructor
  · intro h; exact h.1
  · intro h; refine ⟨h, ?_, ?_⟩ <;> omega

theorem mem_rOwn (c : Dev nD) (x : S8192x1024.Idx) :
    x ∈ (rOwn c).set ↔ 4096 * (c.val / 2) ≤ (x 0).val ∧ (x 0).val < 4096 * (c.val / 2) + 4096 := by
  have e := k0_off7_eq c
  have e0 : k0_off7 c 0 = 4096 * (c.val / 2) := by rw [e]; rfl
  have h := mem_unit_rows ![8192, 1024] (k0_off7 c) S4096x1024.size (k0_off7_inb c) (by rw [e]; rfl) rfl x
  rw [e0] at h
  exact h

theorem mem_rRecvA (c : Dev nD) (i : Fin 16) (x : S8192x1024.Idx) :
    x ∈ (rRecvA c i).set ↔ (2048 * (c.val % 2) + 128 * i.val + 4096) - 4096 * (c.val / 2) ≤ (x 0).val
      ∧ (x 0).val < (2048 * (c.val % 2) + 128 * i.val + 4096) - 4096 * (c.val / 2) + 128 := by
  have e := k0_off8_eq c i
  have e0 : k0_off8 c (w128 i) 0 = (2048 * (c.val % 2) + 128 * i.val + 4096) - 4096 * (c.val / 2) := by rw [e]; rfl
  have h := mem_unit_rows ![8192, 1024] (k0_off8 c (w128 i)) S128x1024.size (k0_off8_inb c i) (by rw [e]; rfl) rfl x
  rw [e0] at h
  exact h

/-! ## The result: the own block and the thirty-two chunks of the other block -/

theorem mem_o (c : Dev nD) (x : S8192x1024.Idx) :
    x ∈ (rOwn c).set ∪ ((Finset.univ.biUnion fun i : Fin 16 => (rRecvA c i).set)
      ∪ (Finset.univ.biUnion fun i : Fin 16 => (rRecvA (pb c) i).set)) := by
  simp only [Finset.mem_univ, Finset.mem_union, Finset.mem_biUnion, true_and, mem_rOwn, mem_rRecvA]
  have hc : c.val < 4 := c.isLt
  have hpb : (pb c).val = (2 * (c.val / 2) + 1) - (c.val % 2) := rfl
  have hx : (x 0).val < 8192 := (x 0).isLt
  by_cases h1 : 4096 * (c.val / 2) ≤ (x 0).val ∧ (x 0).val < 4096 * (c.val / 2) + 4096
  · exact Or.inl h1
  · right
    by_cases h2 : ((x 0).val % 4096) / 2048 = c.val % 2
    · left; refine ⟨⟨((x 0).val % 2048) / 128, by omega⟩, ?_⟩; dsimp only; constructor <;> omega
    · right; refine ⟨⟨((x 0).val % 2048) / 128, by omega⟩, ?_⟩; rw [hpb]; dsimp only; constructor <;> omega

theorem disj_o1 (c : Dev nD) :
    Disjoint (rOwn c).set ((Finset.univ.biUnion fun i : Fin 16 => (rRecvA c i).set)
      ∪ (Finset.univ.biUnion fun i : Fin 16 => (rRecvA (pb c) i).set)) := by
  rw [Finset.disjoint_left]
  intro x hx hx'
  rw [mem_rOwn] at hx
  simp only [Finset.mem_union, Finset.mem_biUnion, Finset.mem_univ, true_and, mem_rRecvA] at hx'
  have hc : c.val < 4 := c.isLt
  have hpb : (pb c).val = (2 * (c.val / 2) + 1) - (c.val % 2) := rfl
  rcases hx' with ⟨i, h⟩ | ⟨i, h⟩
  · have hi := i.isLt; omega
  · have hi := i.isLt; rw [hpb] at h; omega

theorem disj_o2 (c : Dev nD) :
    Disjoint (Finset.univ.biUnion fun i : Fin 16 => (rRecvA c i).set)
      (Finset.univ.biUnion fun i : Fin 16 => (rRecvA (pb c) i).set) := by
  rw [Finset.disjoint_left]
  intro x hx hx'
  simp only [Finset.mem_biUnion, Finset.mem_univ, true_and, mem_rRecvA] at hx hx'
  have hc : c.val < 4 := c.isLt
  have hpb : (pb c).val = (2 * (c.val / 2) + 1) - (c.val % 2) := rfl
  obtain ⟨i, h⟩ := hx
  obtain ⟨j, h'⟩ := hx'
  have hi := i.isLt; have hj := j.isLt
  rw [hpb] at h'; omega

theorem disj_o3 (c : Dev nD) : ∀ t ∈ (Finset.univ : Finset (Fin 16)), ∀ t' ∈ (Finset.univ : Finset (Fin 16)), t ≠ t' →
    Disjoint (rRecvA c t).set (rRecvA c t').set := by
  intro t _ t' _ hne
  rw [Finset.disjoint_left]
  intro x hx hx'
  rw [mem_rRecvA] at hx hx'
  have hc : c.val < 4 := c.isLt
  have hi := t.isLt; have hj := t'.isLt
  have : t.val ≠ t'.val := fun e => hne (Fin.ext e)
  omega

theorem split_o (c : Dev nD) (q : PosShare TreeShare) (f : Buf (Elt F) (oM.view.loc (c : Thread nD τ))) :
    (pts (F := F) c oM q f) ⊣⊢ iprop(pts c (oOwn c) q f ∗ (bigSep Finset.univ fun i : Fin 16 => pts c (oRecvA c i) q f)
      ∗ (bigSep Finset.univ fun i : Fin 16 => pts c (oRecvA (pb c) i) q f)) := by
  have hu1 : (oM.view.loc (c : Thread nD τ) ↦[(rOwn c).set ∪ ((Finset.univ.biUnion fun i : Fin 16 => (rRecvA c i).set)
      ∪ (Finset.univ.biUnion fun i : Fin 16 => (rRecvA (pb c) i).set))]{q} f : sProp 𝕄) ⊣⊢ _ := pointsTo_union (disj_o1 c)
  have hu2 : (oM.view.loc (c : Thread nD τ) ↦[(Finset.univ.biUnion fun i : Fin 16 => (rRecvA c i).set)
      ∪ (Finset.univ.biUnion fun i : Fin 16 => (rRecvA (pb c) i).set)]{q} f : sProp 𝕄) ⊣⊢ _ := pointsTo_union (disj_o2 c)
  rw [pointsTo_biUnion _ _ (disj_o3 c), pointsTo_biUnion _ _ (disj_o3 (pb c))] at hu2
  have hs : oM.view.set = (rOwn c).set ∪ ((Finset.univ.biUnion fun i : Fin 16 => (rRecvA c i).set)
      ∪ (Finset.univ.biUnion fun i : Fin 16 => (rRecvA (pb c) i).set)) := by
    have e1 : oM.view.set = Finset.univ := View.set_whole main_v1
    ext x
    exact ⟨fun _ => mem_o c x, fun _ => by rw [e1]; exact Finset.mem_univ x⟩
  have e1 : ∀ (d : Dev nD) (i : Fin 16), (oRecvA d i).view.set = (rRecvA d i).set := fun d i => View.set_slice_whole _ _
  have e3 : (oOwn c).view.set = (rOwn c).set := View.set_slice_whole _ _
  show (oM.view.loc (c : Thread nD τ) ↦[oM.view.set]{q} f : sProp 𝕄) ⊣⊢ iprop((oM.view.loc (c : Thread nD τ) ↦[(oOwn c).view.set]{q} f)
      ∗ (bigSep Finset.univ fun i : Fin 16 => oM.view.loc (c : Thread nD τ) ↦[(oRecvA c i).view.set]{q} f)
      ∗ (bigSep Finset.univ fun i : Fin 16 => oM.view.loc (c : Thread nD τ) ↦[(oRecvA (pb c) i).view.set]{q} f))
  rw [e3, hs]
  simp only [e1]
  exact hu1.trans (sep_congr_right hu2)

/-! ## A set cut into two families of pieces -/

/-- A points-to over a set that two families of pairwise disjoint pieces cover is the pieces' points-tos. -/
theorem pointsTo_two_families {ℓ : Loc nD τ sig} {T₁ T₂ : Type} [Fintype T₁] [Fintype T₂]
    (S : Finset (Idx ℓ)) (K₁ : T₁ → Finset (Idx ℓ)) (K₂ : T₂ → Finset (Idx ℓ))
    (hS : ∀ x, x ∈ S) (hcov : ∀ x, (∃ t, x ∈ K₁ t) ∨ (∃ t, x ∈ K₂ t))
    (h₁ : ∀ t t', t ≠ t' → Disjoint (K₁ t) (K₁ t')) (h₂ : ∀ t t', t ≠ t' → Disjoint (K₂ t) (K₂ t'))
    (h₁₂ : ∀ t t', Disjoint (K₁ t) (K₂ t')) (q : PosShare TreeShare) (f : Buf (Elt F) ℓ) :
    (ℓ ↦[S]{q} f : sProp 𝕄) ⊣⊢ iprop((bigSep Finset.univ fun t => ℓ ↦[K₁ t]{q} f) ∗ (bigSep Finset.univ fun t => ℓ ↦[K₂ t]{q} f)) := by
  classical
  have hs : S = (Finset.univ.biUnion K₁) ∪ (Finset.univ.biUnion K₂) := by
    ext x
    simp only [Finset.mem_union, Finset.mem_biUnion, Finset.mem_univ, true_and]
    exact ⟨fun _ => hcov x, fun _ => hS x⟩
  have hd : Disjoint (Finset.univ.biUnion K₁) (Finset.univ.biUnion K₂) := by
    rw [Finset.disjoint_biUnion_left]
    intro t _
    rw [Finset.disjoint_biUnion_right]
    intro t' _
    exact h₁₂ t t'
  have hu : (ℓ ↦[(Finset.univ.biUnion K₁) ∪ (Finset.univ.biUnion K₂)]{q} f : sProp 𝕄) ⊣⊢ _ := pointsTo_union hd
  rw [pointsTo_biUnion _ _ (fun t _ t' _ hne => h₁ t t' hne), pointsTo_biUnion _ _ (fun t _ t' _ hne => h₂ t t' hne)] at hu
  rw [hs]
  exact hu

/-! ## The three buffers of 4096 rows -/

theorem mem_rIn1 (c : Dev nD) (j : Fin 4) (x : S4096x1024.Idx) :
    x ∈ (rIn1 c j).set ↔ 2048 * (c.val % 2) + 512 * j.val ≤ (x 0).val ∧ (x 0).val < 2048 * (c.val % 2) + 512 * j.val + 512 := by
  have e := k0_off1_eq c j
  have e0 : k0_off1 c (w512 j) 0 = 2048 * (c.val % 2) + 512 * j.val := by rw [e]; rfl
  have h := mem_unit_rows ![4096, 1024] (k0_off1 c (w512 j)) S512x1024.size (k0_off1_inb c j) (by rw [e]; rfl) rfl x
  rw [e0] at h
  exact h

theorem mem_rIn2 (c : Dev nD) (j : Fin 4) (x : S4096x1024.Idx) :
    x ∈ (rIn2 c j).set ↔ (512 * j.val + 2048) - 2048 * (c.val % 2) ≤ (x 0).val
      ∧ (x 0).val < (512 * j.val + 2048) - 2048 * (c.val % 2) + 512 := by
  have e := k0_off2_eq c j
  have e0 : k0_off2 c (w512 j) 0 = (512 * j.val + 2048) - 2048 * (c.val % 2) := by rw [e]; rfl
  have h := mem_unit_rows ![4096, 1024] (k0_off2 c (w512 j)) S512x1024.size (k0_off2_inb c j) (by rw [e]; rfl) rfl x
  rw [e0] at h
  exact h

theorem mem_rCh (c : Dev nD) (i : Fin 16) (x : S4096x1024.Idx) :
    x ∈ (rCh c i).set ↔ 2048 * (c.val % 2) + 128 * i.val ≤ (x 0).val ∧ (x 0).val < 2048 * (c.val % 2) + 128 * i.val + 128 := by
  have e := k0_off3_eq c i
  have e0 : k0_off3 c (w128 i) 0 = 2048 * (c.val % 2) + 128 * i.val := by rw [e]; rfl
  have h := mem_unit_rows ![4096, 1024] (k0_off3 c (w128 i)) S128x1024.size (k0_off3_inb c i) (by rw [e]; rfl) rfl x
  rw [e0] at h
  exact h

theorem mem_rSrcA (c : Dev nD) (i : Fin 16) (x : S4096x1024.Idx) :
    x ∈ (rSrcA c i).set ↔ 2048 * (c.val % 2) + 128 * i.val ≤ (x 0).val ∧ (x 0).val < 2048 * (c.val % 2) + 128 * i.val + 128 := by
  have e := k0_off5_eq c i
  have e0 : k0_off5 c (w128 i) 0 = 2048 * (c.val % 2) + 128 * i.val := by rw [e]; rfl
  have h := mem_unit_rows ![4096, 1024] (k0_off5 c (w128 i)) S128x1024.size (k0_off5_inb c i) (by rw [e]; rfl) rfl x
  rw [e0] at h
  exact h

theorem mem_rCh2 (c : Dev nD) (j : Fin 4) (x : S4096x1024.Idx) :
    x ∈ (rCh2 c j).set ↔ (512 * j.val + 2048) - 2048 * (c.val % 2) ≤ (x 0).val
      ∧ (x 0).val < (512 * j.val + 2048) - 2048 * (c.val % 2) + 512 := by
  have e := k0_off6_eq c j
  have e0 : k0_off6 c (w512 j) 0 = (512 * j.val + 2048) - 2048 * (c.val % 2) := by rw [e]; rfl
  have h := mem_unit_rows ![4096, 1024] (k0_off6 c (w512 j)) S512x1024.size (k0_off6_inb c j) (by rw [e]; rfl) rfl x
  rw [e0] at h
  exact h

/-- The eight slabs of 512 rows cover the 4096 rows. -/
theorem cov_in (c : Dev nD) (x : S4096x1024.Idx) : (∃ j, x ∈ (rIn1 c j).set) ∨ (∃ j, x ∈ (rIn2 c j).set) := by
  simp only [mem_rIn1, mem_rIn2]
  have hc : c.val < 4 := c.isLt
  have hx : (x 0).val < 4096 := (x 0).isLt
  by_cases h : (x 0).val / 2048 = c.val % 2
  · left; refine ⟨⟨((x 0).val % 2048) / 512, by omega⟩, ?_⟩; dsimp only; constructor <;> omega
  · right; refine ⟨⟨((x 0).val % 2048) / 512, by omega⟩, ?_⟩; dsimp only; constructor <;> omega

theorem disj_in1 (c : Dev nD) (j j' : Fin 4) (hne : j ≠ j') : Disjoint (rIn1 c j).set (rIn1 c j').set := by
  rw [Finset.disjoint_left]
  intro x hx hx'
  rw [mem_rIn1] at hx hx'
  have : j.val ≠ j'.val := fun e => hne (Fin.ext e)
  omega

theorem disj_in2 (c : Dev nD) (j j' : Fin 4) (hne : j ≠ j') : Disjoint (rIn2 c j).set (rIn2 c j').set := by
  rw [Finset.disjoint_left]
  intro x hx hx'
  rw [mem_rIn2] at hx hx'
  have : j.val ≠ j'.val := fun e => hne (Fin.ext e)
  omega

theorem disj_in12 (c : Dev nD) (j j' : Fin 4) : Disjoint (rIn1 c j).set (rIn2 c j').set := by
  rw [Finset.disjoint_left]
  intro x hx hx'
  rw [mem_rIn1] at hx
  rw [mem_rIn2] at hx'
  have := j.isLt; have := j'.isLt
  omega

/-- The sixteen chunks of the half that is sent and the four slabs of the other half cover the 4096 rows. -/
theorem cov_b (c : Dev nD) (x : S4096x1024.Idx) : (∃ i, x ∈ (rSrcA c i).set) ∨ (∃ k, x ∈ (rCh2 c k).set) := by
  simp only [mem_rSrcA, mem_rCh2]
  have hc : c.val < 4 := c.isLt
  have hx : (x 0).val < 4096 := (x 0).isLt
  by_cases h : (x 0).val / 2048 = c.val % 2
  · left; refine ⟨⟨((x 0).val % 2048) / 128, by omega⟩, ?_⟩; dsimp only; constructor <;> omega
  · right; refine ⟨⟨((x 0).val % 2048) / 512, by omega⟩, ?_⟩; dsimp only; constructor <;> omega

theorem disj_b1 (c : Dev nD) (i i' : Fin 16) (hne : i ≠ i') : Disjoint (rSrcA c i).set (rSrcA c i').set := by
  rw [Finset.disjoint_left]
  intro x hx hx'
  rw [mem_rSrcA] at hx hx'
  have : i.val ≠ i'.val := fun e => hne (Fin.ext e)
  omega

theorem disj_b2 (c : Dev nD) (j j' : Fin 4) (hne : j ≠ j') : Disjoint (rCh2 c j).set (rCh2 c j').set := by
  rw [Finset.disjoint_left]
  intro x hx hx'
  rw [mem_rCh2] at hx hx'
  have : j.val ≠ j'.val := fun e => hne (Fin.ext e)
  omega

theorem disj_b12 (c : Dev nD) (i : Fin 16) (j : Fin 4) : Disjoint (rSrcA c i).set (rCh2 c j).set := by
  rw [Finset.disjoint_left]
  intro x hx hx'
  rw [mem_rSrcA] at hx
  rw [mem_rCh2] at hx'
  have := i.isLt; have := j.isLt
  omega

theorem split_b (c : Dev nD) (q : PosShare TreeShare) (f : Buf (Elt F) (bM.view.loc (c : Thread nD τ))) :
    (pts (F := F) c bM q f) ⊣⊢ iprop((bigSep Finset.univ fun i : Fin 16 => pts c (bSrcA c i) q f)
      ∗ (bigSep Finset.univ fun k : Fin 4 => (bM.view.loc (c : Thread nD τ) ↦[(bM.access (rCh2 c k)).set]{q} f))) := by
  have e0 : bM.view.set = Finset.univ := View.set_whole cc0_scratch1
  have e1 : ∀ i : Fin 16, (bSrcA c i).view.set = (rSrcA c i).set := fun i => View.set_slice_whole _ _
  have e2 : ∀ k : Fin 4, (bM.access (rCh2 c k)).set = (rCh2 c k).set := fun k => View.set_slice_whole _ _
  show (bM.view.loc (c : Thread nD τ) ↦[bM.view.set]{q} f : sProp 𝕄) ⊣⊢ iprop(
      (bigSep Finset.univ fun i : Fin 16 => bM.view.loc (c : Thread nD τ) ↦[(bSrcA c i).view.set]{q} f)
      ∗ (bigSep Finset.univ fun k : Fin 4 => bM.view.loc (c : Thread nD τ) ↦[(bM.access (rCh2 c k)).set]{q} f))
  simp only [e1, e2]
  exact pointsTo_two_families (F := F) (ℓ := bM.view.loc (c : Thread nD τ)) _ (fun i : Fin 16 => (rSrcA c i).set) (fun k : Fin 4 => (rCh2 c k).set)
    (fun x => by rw [e0]; exact Finset.mem_univ x) (cov_b c) (disj_b1 c) (disj_b2 c) (disj_b12 c) q f

theorem split_x (c : Dev nD) (q : PosShare TreeShare) (f : Buf (Elt F) (xM.view.loc (c : Thread nD τ))) :
    (pts (F := F) c xM q f) ⊣⊢ iprop((bigSep Finset.univ fun k : Fin 4 => pts c (xIn1 c k) q f)
      ∗ (bigSep Finset.univ fun k : Fin 4 => pts c (xIn2 c k) q f)) := by
  have e0 : xM.view.set = Finset.univ := View.set_whole main_arg0
  have e1 : ∀ k : Fin 4, (xIn1 c k).view.set = (rIn1 c k).set := fun k => View.set_slice_whole _ _
  have e2 : ∀ k : Fin 4, (xIn2 c k).view.set = (rIn2 c k).set := fun k => View.set_slice_whole _ _
  show (xM.view.loc (c : Thread nD τ) ↦[xM.view.set]{q} f : sProp 𝕄) ⊣⊢ iprop(
      (bigSep Finset.univ fun k : Fin 4 => xM.view.loc (c : Thread nD τ) ↦[(xIn1 c k).view.set]{q} f)
      ∗ (bigSep Finset.univ fun k : Fin 4 => xM.view.loc (c : Thread nD τ) ↦[(xIn2 c k).view.set]{q} f))
  simp only [e1, e2]
  exact pointsTo_two_families (F := F) (ℓ := xM.view.loc (c : Thread nD τ)) _ (fun k : Fin 4 => (rIn1 c k).set) (fun k : Fin 4 => (rIn2 c k).set)
    (fun x => by rw [e0]; exact Finset.mem_univ x) (cov_in c) (disj_in1 c) (disj_in2 c) (disj_in12 c) q f

theorem split_v (c : Dev nD) (q : PosShare TreeShare) (f : Buf (Elt F) (vM.view.loc (c : Thread nD τ))) :
    (pts (F := F) c vM q f) ⊣⊢ iprop((bigSep Finset.univ fun k : Fin 4 => pts c (vIn1 c k) q f)
      ∗ (bigSep Finset.univ fun k : Fin 4 => pts c (vIn2 c k) q f)) := by
  have e0 : vM.view.set = Finset.univ := View.set_whole cc0_scratch0
  have e1 : ∀ k : Fin 4, (vIn1 c k).view.set = (rIn1 c k).set := fun k => View.set_slice_whole _ _
  have e2 : ∀ k : Fin 4, (vIn2 c k).view.set = (rIn2 c k).set := fun k => View.set_slice_whole _ _
  show (vM.view.loc (c : Thread nD τ) ↦[vM.view.set]{q} f : sProp 𝕄) ⊣⊢ iprop(
      (bigSep Finset.univ fun k : Fin 4 => vM.view.loc (c : Thread nD τ) ↦[(vIn1 c k).view.set]{q} f)
      ∗ (bigSep Finset.univ fun k : Fin 4 => vM.view.loc (c : Thread nD τ) ↦[(vIn2 c k).view.set]{q} f))
  simp only [e1, e2]
  exact pointsTo_two_families (F := F) (ℓ := vM.view.loc (c : Thread nD τ)) _ (fun k : Fin 4 => (rIn1 c k).set) (fun k : Fin 4 => (rIn2 c k).set)
    (fun x => by rw [e0]; exact Finset.mem_univ x) (cov_in c) (disj_in1 c) (disj_in2 c) (disj_in12 c) q f

/-! ## What a load through a whole buffer asks for -/

/-- The elements a load reads through a whole buffer at a rectangle lie under the slice at any rectangle that contains it. -/
theorem setOn_whole_sub {κ : Kind} (b : Ref sig κ) (r r' : Rect b.ty.shape) (h : ∀ x, x ∈ r.set → x ∈ r'.set) :
    (Memref.whole b).view.setOn r.toLoadRect.set ⊆ ((View.whole b).slice r').set := by
  rw [View.set_slice_whole]
  intro y hy
  obtain ⟨x, hx, rfl⟩ := Finset.mem_map.mp hy
  exact h x hx

/-- The slab of 512 rows that holds the chunk `i` of 128 rows. -/
abbrev slab (i : Fin 16) : Fin 4 := ⟨i.val / 4, Nat.div_lt_of_lt_mul (show i.val < 4 * 4 from i.isLt)⟩

/-- Chunk `i` of the f32 scratch lies in the slab `i / 4` of the own half. -/
theorem load_ch_sub (c : Dev nD) (i : Fin 16) :
    vM.view.setOn (rCh c i).toLoadRect.set ⊆ (vIn1 c (slab i)).view.set :=
  setOn_whole_sub cc0_scratch0 (rCh c i) (rIn1 c (slab i)) fun x hx => by
    have h := (mem_rCh c i x).mp hx
    refine (mem_rIn1 c _ x).mpr ?_
    dsimp only
    constructor <;> omega

theorem load_ch2_sub (c : Dev nD) (k : Fin 4) : vM.view.setOn (rCh2 c k).toLoadRect.set ⊆ (vIn2 c k).view.set :=
  setOn_whole_sub cc0_scratch0 (rCh2 c k) (rIn2 c k) fun x hx => by
    have h := (mem_rCh2 c k x).mp hx
    exact (mem_rIn2 c k x).mpr h

theorem loadb_ch_sub (c : Dev nD) (i : Fin 16) : bM.view.setOn (rCh c i).toLoadRect.set ⊆ (bSrcA c i).view.set :=
  setOn_whole_sub cc0_scratch1 (rCh c i) (rSrcA c i) fun x hx => by
    have h := (mem_rCh c i x).mp hx
    exact (mem_rSrcA c i x).mpr h

theorem loadb_ch2_sub (c : Dev nD) (k : Fin 4) :
    bM.view.setOn (rCh2 c k).toLoadRect.set ⊆ (bM.access (rCh2 c k)).set :=
  setOn_whole_sub cc0_scratch1 (rCh2 c k) (rCh2 c k) fun x hx => hx

/-- info: 'Cert.Kernel.AG.split_o' depends on axioms: [propext, Classical.choice, Quot.sound] -/
#guard_msgs in #print axioms split_o
/-- info: 'Cert.Kernel.AG.split_b' depends on axioms: [propext, Classical.choice, Quot.sound] -/
#guard_msgs in #print axioms split_b
/-- info: 'Cert.Kernel.AG.split_x' depends on axioms: [propext, Classical.choice, Quot.sound] -/
#guard_msgs in #print axioms split_x
/-- info: 'Cert.Kernel.AG.split_v' depends on axioms: [propext, Classical.choice, Quot.sound] -/
#guard_msgs in #print axioms split_v
/-- info: 'Cert.Kernel.AG.load_ch_sub' depends on axioms: [propext, Classical.choice, Quot.sound] -/
#guard_msgs in #print axioms load_ch_sub
/-- info: 'Cert.Kernel.AG.oDstA_pa' depends on axioms: [propext, Classical.choice, Quot.sound] -/
#guard_msgs in #print axioms oDstA_pa
/-- info: 'Cert.Kernel.AG.set_rCh' depends on axioms: [propext, Classical.choice, Quot.sound] -/
#guard_msgs in #print axioms set_rCh

end Cert.Kernel.AG

end
-- ==== Proof.Bits.Vals.lean ====
/-
# The values: what each landing leaves is the restriction of one whole-buffer function

Every copy, load and store of the all-gather moves a rectangle of rows at unit stride. An element of the
destination's set is the image of a coordinate `y` of the rectangle; the write leaves the payload at `y`
there, the payload is the source read at `y`, and the source's element under `y` is the same row of the
block (shifted by whole blocks in the result). So the contents written agree, on the destination's set, with the
one function the buffer is described by.
-/
import proofs.«900086_g7700000000000087_dist_ag_v7x_xy2x2_x_m4096_n1024_bf16_1_alg».proof.Proof.Bits.Proto
import Idealize.ShloMosaic.Lib.Pipeline.Value

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## The partners' coordinates -/

theorem pa_div (c : Dev nD) : (pa c).val / 2 = 1 - c.val / 2 := by revert c; decide
theorem pa_mod (c : Dev nD) : (pa c).val % 2 = c.val % 2 := by revert c; decide
theorem pb_div (c : Dev nD) : (pb c).val / 2 = c.val / 2 := by revert c; decide
theorem pb_mod (c : Dev nD) : (pb c).val % 2 = 1 - c.val % 2 := by revert c; decide

/-- In a row of the own block the result holds the own block. -/
theorem srcOf_own (c : Dev nD) (r : ℕ) (h : r / 4096 = c.val / 2) : srcOf c r = c := by
  unfold srcOf; rw [if_pos h]
/-- In a row of the other block, in the half the column partner shares, it holds the partner's. -/
theorem srcOf_half (c : Dev nD) (r : ℕ) (h : r / 4096 ≠ c.val / 2) (h' : (r % 4096) / 2048 = c.val % 2) :
    srcOf c r = pa c := by
  unfold srcOf; rw [if_neg h, if_pos h']
/-- In a row of the other block, in the other half, it holds the diagonal device's. -/
theorem srcOf_diag (c : Dev nD) (r : ℕ) (h : r / 4096 ≠ c.val / 2) (h' : (r % 4096) / 2048 ≠ c.val % 2) :
    srcOf c r = pa (pb c) := by
  unfold srcOf; rw [if_neg h, if_neg h']

/-- Chunk `i` of the own half lands in the column partner's result on the rows of the own block and half: there the
    partner's result holds the own block. -/
theorem val_sendA (c : Dev nD) (i : Fin 16) (fd : (oDstA c i).view.ty.Contents (Elt F)) :
    ∀ x ∈ (oDstA c i).view.set,
      (oDstA c i).view.write (Elt F) fd ((bSrcA c i).view.read (Elt F) (BUF m c)) Finset.univ x = OUT m (pa c) x := by
  intro x hx
  obtain ⟨y, rfl⟩ := View.exists_emb_of_mem_set _ hx
  rw [View.write_emb_of_mem _ _ (Finset.mem_univ y), View.read_apply, cast_cast, cast_eq]
  have e0 : (((oDstA c i).view.emb y) 0 : ℕ) = 4096 * (c.val / 2) + 2048 * (c.val % 2) + 128 * i.val + (y 0 : ℕ) := by
    show k0_off4 c (w128 i) 0 + 1 * (y 0 : ℕ) = _
    rw [k0_off4_eq]; simp only [Matrix.cons_val_zero, Nat.one_mul]
  have e1 : (((oDstA c i).view.emb y) 1 : ℕ) = (y 1 : ℕ) := by
    show k0_off4 c (w128 i) 1 + 1 * (y 1 : ℕ) = _
    rw [k0_off4_eq]; simp only [Matrix.cons_val_one, Matrix.head_cons, Matrix.cons_val_zero, Nat.one_mul, Nat.zero_add]
  have s0 : (((bSrcA c i).view.emb y) 0 : ℕ) = 2048 * (c.val % 2) + 128 * i.val + (y 0 : ℕ) := by
    show k0_off5 c (w128 i) 0 + 1 * (y 0 : ℕ) = _
    rw [k0_off5_eq]; simp only [Matrix.cons_val_zero, Nat.one_mul]
  have s1 : (((bSrcA c i).view.emb y) 1 : ℕ) = (y 1 : ℕ) := by
    show k0_off5 c (w128 i) 1 + 1 * (y 1 : ℕ) = _
    rw [k0_off5_eq]; simp only [Matrix.cons_val_one, Matrix.head_cons, Matrix.cons_val_zero, Nat.one_mul, Nat.zero_add]
  have hy0 : (y 0 : ℕ) < 128 := (y 0).isLt
  have hc : c.val < 4 := c.isLt
  have hi : i.val < 16 := i.isLt
  have hsrc : srcOf (pa c) (((oDstA c i).view.emb y) 0 : ℕ) = c := by
    rw [srcOf_half _ _ (by rw [pa_div, e0]; omega) (by rw [pa_mod, e0]; omega), pa_pa]
  show BUF m c _ = BUF m (srcOf (pa c) _) _
  rw [hsrc]
  congr 1
  funext a
  revert a
  refine Fin.forall_fin_two.mpr ⟨Fin.ext ?_, Fin.ext ?_⟩
  · show (((bSrcA c i).view.emb y) 0 : ℕ) = (((oDstA c i).view.emb y) 0 : ℕ) % 4096
    rw [s0, e0]; omega
  · show (((bSrcA c i).view.emb y) 1 : ℕ) = (((oDstA c i).view.emb y) 1 : ℕ)
    rw [s1, e1]

/-- The chunk received from the column partner is forwarded to the row partner on the same rows: rows of the other
    block, in the own half, where the own result and the row partner's both hold the column partner's block. -/
theorem val_sendB (c : Dev nD) (i : Fin 16) (fd : (oRecvA c i).view.ty.Contents (Elt F)) :
    ∀ x ∈ (oRecvA c i).view.set,
      (oRecvA c i).view.write (Elt F) fd ((oRecvA c i).view.read (Elt F) (OUT m c)) Finset.univ x = OUT m (pb c) x := by
  intro x hx
  obtain ⟨y, rfl⟩ := View.exists_emb_of_mem_set _ hx
  rw [View.write_emb_of_mem _ _ (Finset.mem_univ y), View.read_apply, cast_cast, cast_eq]
  have e0 : (((oRecvA c i).view.emb y) 0 : ℕ) = (2048 * (c.val % 2) + 128 * i.val + 4096) - 4096 * (c.val / 2) + (y 0 : ℕ) := by
    show k0_off8 c (w128 i) 0 + 1 * (y 0 : ℕ) = _
    rw [k0_off8_eq]; simp only [Matrix.cons_val_zero, Nat.one_mul]
  have hy0 : (y 0 : ℕ) < 128 := (y 0).isLt
  have hc : c.val < 4 := c.isLt
  have hi : i.val < 16 := i.isLt
  have h1 : srcOf c (((oRecvA c i).view.emb y) 0 : ℕ) = pa c :=
    srcOf_half _ _ (by rw [e0]; omega) (by rw [e0]; omega)
  have h2 : srcOf (pb c) (((oRecvA c i).view.emb y) 0 : ℕ) = pa c := by
    rw [srcOf_diag _ _ (by rw [pb_div, e0]; omega) (by rw [pb_mod, e0]; omega), pb_pb]
  show BUF m (srcOf c _) _ = BUF m (srcOf (pb c) _) _
  rw [h1, h2]

/-- The own block, cast, lands in its rows of the own result. -/
theorem val_local (c : Dev nD) (fd : (oOwn c).view.ty.Contents (Elt F)) :
    ∀ x ∈ (oOwn c).view.set,
      (oOwn c).view.write (Elt F) fd (bM.view.read (Elt F) (BUF m c)) Finset.univ x = OUT m c x := by
  intro x hx
  obtain ⟨y, rfl⟩ := View.exists_emb_of_mem_set _ hx
  rw [View.write_emb_of_mem _ _ (Finset.mem_univ y), View.read_apply, cast_cast, cast_eq]
  have e0 : (((oOwn c).view.emb y) 0 : ℕ) = 4096 * (c.val / 2) + (y 0 : ℕ) := by
    show k0_off7 c 0 + 1 * (y 0 : ℕ) = _
    rw [k0_off7_eq]; simp only [Matrix.cons_val_zero, Nat.one_mul]
  have e1 : (((oOwn c).view.emb y) 1 : ℕ) = (y 1 : ℕ) := by
    show k0_off7 c 1 + 1 * (y 1 : ℕ) = _
    rw [k0_off7_eq]; simp only [Matrix.cons_val_one, Matrix.head_cons, Matrix.cons_val_zero, Nat.one_mul, Nat.zero_add]
  have hy0 : (y 0 : ℕ) < 4096 := (y 0).isLt
  have hc : c.val < 4 := c.isLt
  have hsrc : srcOf c (((oOwn c).view.emb y) 0 : ℕ) = c := srcOf_own _ _ (by rw [e0]; omega)
  show BUF m c _ = BUF m (srcOf c _) _
  rw [hsrc]
  congr 1
  funext a
  revert a
  refine Fin.forall_fin_two.mpr ⟨Fin.ext ?_, Fin.ext ?_⟩
  · show (y 0 : ℕ) = (((oOwn c).view.emb y) 0 : ℕ) % 4096
    rw [e0]; omega
  · show (y 1 : ℕ) = (((oOwn c).view.emb y) 1 : ℕ)
    rw [e1]

/-- An input copy moves a slab of the block between the same rectangle of two buffers. -/
theorem val_in1 (c : Dev nD) (k : Fin 4) (fd : (vIn1 c k).view.ty.Contents (Elt F)) :
    ∀ x ∈ (vIn1 c k).view.set,
      (vIn1 c k).view.write (Elt F) fd ((xIn1 c k).view.read (Elt F) (X m c)) Finset.univ x = X m c x := by
  intro x hx
  obtain ⟨y, rfl⟩ := View.exists_emb_of_mem_set _ hx
  rw [View.write_emb_of_mem _ _ (Finset.mem_univ y), View.read_apply, cast_cast, cast_eq]
  rfl

theorem val_in2 (c : Dev nD) (k : Fin 4) (fd : (vIn2 c k).view.ty.Contents (Elt F)) :
    ∀ x ∈ (vIn2 c k).view.set,
      (vIn2 c k).view.write (Elt F) fd ((xIn2 c k).view.read (Elt F) (X m c)) Finset.univ x = X m c x := by
  intro x hx
  obtain ⟨y, rfl⟩ := View.exists_emb_of_mem_set _ hx
  rw [View.write_emb_of_mem _ _ (Finset.mem_univ y), View.read_apply, cast_cast, cast_eq]
  rfl

/-- A chunk loaded from the f32 scratch, cast elementwise and stored at the same rectangle of the bf16 scratch is the
    cast block there. -/
theorem val_store (c : Dev nD) (i : Fin 16) (fb : (bM.access (rCh c i)).ty.Contents (Elt F)) :
    ∀ x ∈ (bM.access (rCh c i)).set,
      (bM.access (rCh c i)).write (Elt F) fb
        (truncf .bf16 (vM.view.readAt (Elt F) (rCh c i).toLoadRect (X m c)) bitsLt_bf16_f32) Finset.univ x = BUF m c x := by
  intro x hx
  obtain ⟨y, rfl⟩ := View.exists_emb_of_mem_set _ hx
  rw [View.write_emb_of_mem _ _ (Finset.mem_univ y), cast_eq]
  rfl

theorem val_store2 (c : Dev nD) (k : Fin 4) (fb : (bM.access (rCh2 c k)).ty.Contents (Elt F)) :
    ∀ x ∈ (bM.access (rCh2 c k)).set,
      (bM.access (rCh2 c k)).write (Elt F) fb
        (truncf .bf16 (vM.view.readAt (Elt F) (rCh2 c k).toLoadRect (X m c)) bitsLt_bf16_f32) Finset.univ x = BUF m c x := by
  intro x hx
  obtain ⟨y, rfl⟩ := View.exists_emb_of_mem_set _ hx
  rw [View.write_emb_of_mem _ _ (Finset.mem_univ y), cast_eq]
  rfl

/-! ## The payloads: each is the cast of what was loaded (a shape cast to the same shape changes nothing) -/
theorem pay1_eq (v : Vec F S128x1024 .f32) : k0_pay1 v = truncf .bf16 v bitsLt_bf16_f32 := shapeCast_self _ _
theorem pay2_eq (v : Vec F S128x1024 .f32) : k0_pay2 v = truncf .bf16 v bitsLt_bf16_f32 := shapeCast_self _ _
theorem pay3_eq (v : Vec F S128x1024 .f32) : k0_pay3 v = truncf .bf16 v bitsLt_bf16_f32 := shapeCast_self _ _
theorem pay4_eq (v : Vec F S128x1024 .f32) : k0_pay4 v = truncf .bf16 v bitsLt_bf16_f32 := shapeCast_self _ _
theorem pay5_eq (v : Vec F S128x1024 .f32) : k0_pay5 v = truncf .bf16 v bitsLt_bf16_f32 := rfl
theorem pay6_eq (v : FVec F S128x1024 .bf16) : k0_pay6 v = v := shapeCast_self _ _
theorem pay7_eq (v : Vec F S128x1024 .f32) : k0_pay7 v = truncf .bf16 v bitsLt_bf16_f32 := shapeCast_self _ _
theorem pay8_eq (v : Vec F S128x1024 .f32) : k0_pay8 v = truncf .bf16 v bitsLt_bf16_f32 := shapeCast_self _ _
theorem pay9_eq (v : Vec F S128x1024 .f32) : k0_pay9 v = truncf .bf16 v bitsLt_bf16_f32 := shapeCast_self _ _
theorem pay10_eq (v : Vec F S128x1024 .f32) : k0_pay10 v = truncf .bf16 v bitsLt_bf16_f32 := shapeCast_self _ _
theorem pay11_eq (v : Vec F S128x1024 .f32) : k0_pay11 v = truncf .bf16 v bitsLt_bf16_f32 := rfl
theorem pay12_eq (v : FVec F S128x1024 .bf16) : k0_pay12 v = v := shapeCast_self _ _
theorem pay13_eq (v : Vec F S128x1024 .f32) : k0_pay13 v = truncf .bf16 v bitsLt_bf16_f32 := shapeCast_self _ _
theorem pay14_eq (v : Vec F S128x1024 .f32) : k0_pay14 v = truncf .bf16 v bitsLt_bf16_f32 := shapeCast_self _ _
theorem pay15_eq (v : Vec F S128x1024 .f32) : k0_pay15 v = truncf .bf16 v bitsLt_bf16_f32 := shapeCast_self _ _
theorem pay16_eq (v : Vec F S128x1024 .f32) : k0_pay16 v = truncf .bf16 v bitsLt_bf16_f32 := shapeCast_self _ _
theorem pay17_eq (v : Vec F S128x1024 .f32) : k0_pay17 v = truncf .bf16 v bitsLt_bf16_f32 := shapeCast_self _ _
theorem pay18_eq (v : Vec F S128x1024 .f32) : k0_pay18 v = truncf .bf16 v bitsLt_bf16_f32 := shapeCast_self _ _
theorem pay19_eq (v : Vec F S512x1024 .f32) : k0_pay19 v = truncf .bf16 v bitsLt_bf16_f32 := shapeCast_self _ _
theorem pay20_eq (v : Vec F S512x1024 .f32) : k0_pay20 v = truncf .bf16 v bitsLt_bf16_f32 := shapeCast_self _ _
theorem pay21_eq (v : Vec F S512x1024 .f32) : k0_pay21 v = truncf .bf16 v bitsLt_bf16_f32 := shapeCast_self _ _
theorem pay22_eq (v : Vec F S512x1024 .f32) : k0_pay22 v = truncf .bf16 v bitsLt_bf16_f32 := shapeCast_self _ _

/-- info: 'Cert.Kernel.AG.val_sendA' depends on axioms: [propext, Classical.choice, Quot.sound] -/
#guard_msgs in #print axioms val_sendA
/-- info: 'Cert.Kernel.AG.val_sendB' depends on axioms: [propext, Classical.choice, Quot.sound] -/
#guard_msgs in #print axioms val_sendB
/-- info: 'Cert.Kernel.AG.val_local' depends on axioms: [propext, Classical.choice, Quot.sound] -/
#guard_msgs in #print axioms val_local
/-- info: 'Cert.Kernel.AG.val_in1' depends on axioms: [propext, Classical.choice, Quot.sound] -/
#guard_msgs in #print axioms val_in1
/-- info: 'Cert.Kernel.AG.val_in2' depends on axioms: [propext, Classical.choice, Quot.sound] -/
#guard_msgs in #print axioms val_in2
/-- info: 'Cert.Kernel.AG.val_store' depends on axioms: [propext, Classical.choice, Quot.sound] -/
#guard_msgs in #print axioms val_store
/-- info: 'Cert.Kernel.AG.val_store2' depends on axioms: [propext, Classical.choice, Quot.sound] -/
#guard_msgs in #print axioms val_store2
/-- info: 'Cert.Kernel.AG.pay1_eq' depends on axioms: [propext, Classical.choice, Quot.sound] -/
#guard_msgs in #print axioms pay1_eq
/-- info: 'Cert.Kernel.AG.pay22_eq' depends on axioms: [propext, Classical.choice, Quot.sound] -/
#guard_msgs in #print axioms pay22_eq

end Cert.Kernel.AG

end
-- ==== Proof.Bits.Steps.lean ====
import proofs.«900086_g7700000000000087_dist_ag_v7x_xy2x2_x_m4096_n1024_bf16_1_alg».proof.Proof.Bits.Ghost
import proofs.«900086_g7700000000000087_dist_ag_v7x_xy2x2_x_m4096_n1024_bf16_1_alg».proof.Proof.Bits.Sched
import proofs.«900086_g7700000000000087_dist_ag_v7x_xy2x2_x_m4096_n1024_bf16_1_alg».proof.Proof.Bits.Geom
import proofs.«900086_g7700000000000087_dist_ag_v7x_xy2x2_x_m4096_n1024_bf16_1_alg».proof.Proof.Bits.Vals

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's copies, one rule each, at a symbolic device and chunk -/

variable (K : Dev nD × SemLoc sig → ℕ)

/-- The column partner, as the kernel's device chains name it. -/
theorem devA_eq (c : Dev nD) : (⟨k0_dev3 c, k0_dev3_lt c⟩ : Dev nD) = pa c := Fin.ext (k0_dev3_eq c)
/-- The row partner. -/
theorem devB_eq (c : Dev nD) : (⟨k0_dev19 c, k0_dev19_lt c⟩ : Dev nD) = pb c := Fin.ext (k0_dev19_eq c)
theorem devSigA_eq (c : Dev nD) : (⟨k0_dev1 c, k0_dev1_lt c⟩ : Dev nD) = pa c := Fin.ext (k0_dev1_eq c)
theorem devSigB_eq (c : Dev nD) : (⟨k0_dev2 c, k0_dev2_lt c⟩ : Dev nD) = pb c := Fin.ext (k0_dev2_eq c)

/-- Input copy `k` of the own half: HBM rows to the same rows of the f32 scratch, on cell `inS k`. -/
theorem wp_in1 (c : Dev nD) (k : Fin 4)
    {hsrc : (xIn1 c k).view.WordExact} {hdst : (vIn1 c k).view.WordExact}
    {hsem : DmaTarget.Typed (nD := nD) (τ := τ) (p := .tc) .hbm (.dma (inS ⟨k.val, by omega⟩)) (.here (vIn1 c k))}
    {α : Type} {Q : α → sProp 𝕄} {kont : PUnit → Prog (TpuEff nD τ sig (Elt F) Λ₀ .tc) α}
    (fd : Buf (Elt F) ((vIn1 c k).view.loc (c : Thread nD τ))) :
    iprop(cellInv ER (sched m) (K (c, .dma (inS ⟨k.val, by omega⟩))) (dCell c (inS ⟨k.val, by omega⟩))
        ∗ pts c (xIn1 c k) fullShare (X m c) ∗ pts c (vIn1 c k) fullShare fd
        ∗ dutyTok ER (dCell c (inS ⟨k.val, by omega⟩)) 0 false ∗ reached ER (dCell c (inS ⟨k.val, by omega⟩)) 0)
      ⊢ iprop((cred (tallyAt (dCell c (inS ⟨k.val, by omega⟩)) () N512) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xIn1 c k) (.here (vIn1 c k)) (.dma (inS ⟨k.val, by omega⟩)) hsrc hdst hsem) kont) Q) := by
  exact Rounds.wp_copy_pointsTo 𝒱₀ ER (sched m) (c : Thread nD τ) none
    (src := xIn1 c k) (dst := vIn1 c k) (q := fullShare) (fs := X m c)
    (κ := K (c, .dma (inS ⟨k.val, by omega⟩))) (r := 0) (d := false) (fd := fd)
    (by rw [duties_dma]; exact Finset.mem_singleton_self _)
    () N512 rfl ((amount_dma m c (inS ⟨k.val, by omega⟩) false).trans (dmaAmt_in _))
    (by
      rw [payload_dma, payDma_in1, pointsTo_congr (val_in1 m c k fd)])

/-- Input copy `k` of the other half, on cell `inS (4 + k)`. -/
theorem wp_in2 (c : Dev nD) (k : Fin 4)
    {hsrc : (xIn2 c k).view.WordExact} {hdst : (vIn2 c k).view.WordExact}
    {hsem : DmaTarget.Typed (nD := nD) (τ := τ) (p := .tc) .hbm (.dma (inS ⟨4 + k.val, by omega⟩)) (.here (vIn2 c k))}
    {α : Type} {Q : α → sProp 𝕄} {kont : PUnit → Prog (TpuEff nD τ sig (Elt F) Λ₀ .tc) α}
    (fd : Buf (Elt F) ((vIn2 c k).view.loc (c : Thread nD τ))) :
    iprop(cellInv ER (sched m) (K (c, .dma (inS ⟨4 + k.val, by omega⟩))) (dCell c (inS ⟨4 + k.val, by omega⟩))
        ∗ pts c (xIn2 c k) fullShare (X m c) ∗ pts c (vIn2 c k) fullShare fd
        ∗ dutyTok ER (dCell c (inS ⟨4 + k.val, by omega⟩)) 0 false ∗ reached ER (dCell c (inS ⟨4 + k.val, by omega⟩)) 0)
      ⊢ iprop((cred (tallyAt (dCell c (inS ⟨4 + k.val, by omega⟩)) () N512) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xIn2 c k) (.here (vIn2 c k)) (.dma (inS ⟨4 + k.val, by omega⟩)) hsrc hdst hsem) kont) Q) := by
  exact Rounds.wp_copy_pointsTo 𝒱₀ ER (sched m) (c : Thread nD τ) none
    (src := xIn2 c k) (dst := vIn2 c k) (q := fullShare) (fs := X m c)
    (κ := K (c, .dma (inS ⟨4 + k.val, by omega⟩))) (r := 0) (d := false) (fd := fd)
    (by rw [duties_dma]; exact Finset.mem_singleton_self _)
    () N512 rfl ((amount_dma m c (inS ⟨4 + k.val, by omega⟩) false).trans (dmaAmt_in _))
    (by
      rw [payload_dma, payDma_in2, pointsTo_congr (val_in2 m c k fd)])

/-- Remote copy `a i`, addressed to a device `n` known to be the column partner. -/
theorem wp_sendA_at (c n : Dev nD) (hn : n = pa c) (i : Fin 16)
    {hsc : (oDstA c i : Memref sig (Dev.tc n : Thread nD τ).2.kind .hbm S128x1024 .bf16).view.ref.isScScratch = false}
    {hsrc : (bSrcA c i).view.WordExact} {hdst : (oDstA c i).view.WordExact}
    {hsem : DmaTarget.Typed .vmem (.dma (raS i)) (.remote (Dev.tc n : Thread nD τ) (oDstA c i) (.dma (saS i)) hsc)}
    {α : Type} {Q : α → sProp 𝕄} {kont : PUnit → Prog (TpuEff nD τ sig (Elt F) Λ₀ .tc) α}
    (fd : Buf (Elt F) ((oDstA c i).view.loc (pa c : Thread nD τ))) (W : Waits sig Unit) :
    iprop(cellInv ER (sched m) (K (c, .dma (saS i))) (dCell c (saS i)) ∗ cellInv ER (sched m) (K (pa c, .dma (raS i))) (dCell (pa c) (raS i))
        ∗ pts c (bSrcA c i) fullShare.left (BUF m c) ∗ pts (pa c) (oDstA c i) fullShare fd
        ∗ owes (c : Thread nD τ) (owedA c (16 - i.val)) W
        ∗ dutyTok ER (dCell c (saS i)) 0 false ∗ reached ER (dCell c (saS i)) 0
        ∗ dutyTok ER (dCell (pa c) (raS i)) 0 false ∗ reached ER (dCell (pa c) (raS i)) 0)
      ⊢ iprop(((cred (tallyAt (dCell c (saS i)) () N128) ∗ owes (c : Thread nD τ) (owedA c (15 - i.val)) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (bSrcA c i) (.remote (Dev.tc n : Thread nD τ) (oDstA c i) (.dma (saS i)) hsc) (.dma (raS i)) hsrc hdst hsem) kont) Q) := by
  subst hn
  exact Rounds.wp_send_pointsTo 𝒱₀ ER (sched m) (c : Thread nD τ) none (c' := (pa c : Thread nD τ))
    (src := bSrcA c i) (dst := oDstA c i) (q := fullShare.left) (fs := BUF m c)
    (κ₁ := K (c, .dma (saS i))) (κ₂ := K (pa c, .dma (raS i)))
    (r₁ := 0) (r₂ := 0) (d₁ := false) (d₂ := false) (fd := fd)
    (by rw [duties_dma]; exact Finset.mem_singleton_self _) (by rw [duties_dma]; exact Finset.mem_singleton_self _)
    () () N128 rfl ((amount_dma m c (saS i) false).trans (dmaAmt_sa i)) ((amount_dma m (pa c) (raS i) false).trans (dmaAmt_ra i))
    (owedA c (15 - i.val)) (owedA_peel c i) (W := W)
    (by rw [payload_dma, payDma_sa]; exact BI.Entails.refl _)
    (by
      rw [payload_dma, payDma_ra]
      unfold payRa
      rw [pa_pa]
      exact Entails.of_eq (pointsTo_congr (val_sendA m c i fd)))

/-- Remote copy `a i`: chunk `i` of the bf16 scratch (a half share of it) to the column partner's result, paying the arrival
    off what the device owes. -/
theorem wp_sendA (c : Dev nD) (i : Fin 16)
    {hsc : (oDstA c i : Memref sig (Dev.tc (⟨k0_dev3 c, k0_dev3_lt c⟩ : Dev nD) : Thread nD τ).2.kind .hbm S128x1024 .bf16).view.ref.isScScratch = false}
    {hsrc : (bSrcA c i).view.WordExact} {hdst : (oDstA c i).view.WordExact}
    {hsem : DmaTarget.Typed .vmem (.dma (raS i)) (.remote (Dev.tc (⟨k0_dev3 c, k0_dev3_lt c⟩ : Dev nD) : Thread nD τ) (oDstA c i) (.dma (saS i)) hsc)}
    {α : Type} {Q : α → sProp 𝕄} {kont : PUnit → Prog (TpuEff nD τ sig (Elt F) Λ₀ .tc) α}
    (fd : Buf (Elt F) ((oDstA c i).view.loc (pa c : Thread nD τ))) (W : Waits sig Unit) :
    iprop(cellInv ER (sched m) (K (c, .dma (saS i))) (dCell c (saS i)) ∗ cellInv ER (sched m) (K (pa c, .dma (raS i))) (dCell (pa c) (raS i))
        ∗ pts c (bSrcA c i) fullShare.left (BUF m c) ∗ pts (pa c) (oDstA c i) fullShare fd
        ∗ owes (c : Thread nD τ) (owedA c (16 - i.val)) W
        ∗ dutyTok ER (dCell c (saS i)) 0 false ∗ reached ER (dCell c (saS i)) 0
        ∗ dutyTok ER (dCell (pa c) (raS i)) 0 false ∗ reached ER (dCell (pa c) (raS i)) 0)
      ⊢ iprop(((cred (tallyAt (dCell c (saS i)) () N128) ∗ owes (c : Thread nD τ) (owedA c (15 - i.val)) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (bSrcA c i) (.remote (Dev.tc (⟨k0_dev3 c, k0_dev3_lt c⟩ : Dev nD) : Thread nD τ) (oDstA c i) (.dma (saS i)) hsc) (.dma (raS i)) hsrc hdst hsem) kont) Q) :=
  wp_sendA_at m K c _ (devA_eq c) i fd W

/-- Remote copy `b i`, addressed to a device `n` known to be the row partner. -/
theorem wp_sendB_at (c n : Dev nD) (hn : n = pb c) (i : Fin 16)
    {hsc : (oRecvA c i : Memref sig (Dev.tc n : Thread nD τ).2.kind .hbm S128x1024 .bf16).view.ref.isScScratch = false}
    {hsrc : (oRecvA c i).view.WordExact} {hdst : (oRecvA c i).view.WordExact}
    {hsem : DmaTarget.Typed .hbm (.dma (rbS i)) (.remote (Dev.tc n : Thread nD τ) (oRecvA c i) (.dma (sbS i)) hsc)}
    {α : Type} {Q : α → sProp 𝕄} {kont : PUnit → Prog (TpuEff nD τ sig (Elt F) Λ₀ .tc) α}
    (fd : Buf (Elt F) ((oRecvA c i).view.loc (pb c : Thread nD τ))) (W : Waits sig Unit) :
    iprop(cellInv ER (sched m) (K (c, .dma (sbS i))) (dCell c (sbS i)) ∗ cellInv ER (sched m) (K (pb c, .dma (rbS i))) (dCell (pb c) (rbS i))
        ∗ pts c (oRecvA c i) fullShare (OUT m c) ∗ pts (pb c) (oRecvA c i) fullShare fd
        ∗ owes (c : Thread nD τ) (owedB c (16 - i.val)) W
        ∗ dutyTok ER (dCell c (sbS i)) 0 false ∗ reached ER (dCell c (sbS i)) 0
        ∗ dutyTok ER (dCell (pb c) (rbS i)) 0 false ∗ reached ER (dCell (pb c) (rbS i)) 0)
      ⊢ iprop(((cred (tallyAt (dCell c (sbS i)) () N128) ∗ owes (c : Thread nD τ) (owedB c (15 - i.val)) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (oRecvA c i) (.remote (Dev.tc n : Thread nD τ) (oRecvA c i) (.dma (sbS i)) hsc) (.dma (rbS i)) hsrc hdst hsem) kont) Q) := by
  subst hn
  exact Rounds.wp_send_pointsTo 𝒱₀ ER (sched m) (c : Thread nD τ) none (c' := (pb c : Thread nD τ))
    (src := oRecvA c i) (dst := oRecvA c i) (q := fullShare) (fs := OUT m c)
    (κ₁ := K (c, .dma (sbS i))) (κ₂ := K (pb c, .dma (rbS i)))
    (r₁ := 0) (r₂ := 0) (d₁ := false) (d₂ := false) (fd := fd)
    (by rw [duties_dma]; exact Finset.mem_singleton_self _) (by rw [duties_dma]; exact Finset.mem_singleton_self _)
    () () N128 rfl ((amount_dma m c (sbS i) false).trans (dmaAmt_sb i)) ((amount_dma m (pb c) (rbS i) false).trans (dmaAmt_rb i))
    (owedB c (15 - i.val)) (owedB_peel c i) (W := W)
    (by rw [payload_dma, payDma_sb]; exact BI.Entails.refl _)
    (by
      rw [payload_dma, payDma_rb]
      unfold payRb
      rw [pb_pb]
      exact Entails.of_eq (pointsTo_congr (val_sendB m c i fd)))

/-- Remote copy `b i`: the chunk received from the column partner, forwarded to the same rows of the row partner's result. -/
theorem wp_sendB (c : Dev nD) (i : Fin 16)
    {hsc : (oRecvA c i : Memref sig (Dev.tc (⟨k0_dev19 c, k0_dev19_lt c⟩ : Dev nD) : Thread nD τ).2.kind .hbm S128x1024 .bf16).view.ref.isScScratch = false}
    {hsrc : (oRecvA c i).view.WordExact} {hdst : (oRecvA c i).view.WordExact}
    {hsem : DmaTarget.Typed .hbm (.dma (rbS i)) (.remote (Dev.tc (⟨k0_dev19 c, k0_dev19_lt c⟩ : Dev nD) : Thread nD τ) (oRecvA c i) (.dma (sbS i)) hsc)}
    {α : Type} {Q : α → sProp 𝕄} {kont : PUnit → Prog (TpuEff nD τ sig (Elt F) Λ₀ .tc) α}
    (fd : Buf (Elt F) ((oRecvA c i).view.loc (pb c : Thread nD τ))) (W : Waits sig Unit) :
    iprop(cellInv ER (sched m) (K (c, .dma (sbS i))) (dCell c (sbS i)) ∗ cellInv ER (sched m) (K (pb c, .dma (rbS i))) (dCell (pb c) (rbS i))
        ∗ pts c (oRecvA c i) fullShare (OUT m c) ∗ pts (pb c) (oRecvA c i) fullShare fd
        ∗ owes (c : Thread nD τ) (owedB c (16 - i.val)) W
        ∗ dutyTok ER (dCell c (sbS i)) 0 false ∗ reached ER (dCell c (sbS i)) 0
        ∗ dutyTok ER (dCell (pb c) (rbS i)) 0 false ∗ reached ER (dCell (pb c) (rbS i)) 0)
      ⊢ iprop(((cred (tallyAt (dCell c (sbS i)) () N128) ∗ owes (c : Thread nD τ) (owedB c (15 - i.val)) W)
              -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (oRecvA c i) (.remote (Dev.tc (⟨k0_dev19 c, k0_dev19_lt c⟩ : Dev nD) : Thread nD τ) (oRecvA c i) (.dma (sbS i)) hsc) (.dma (rbS i)) hsrc hdst hsem) kont) Q) :=
  wp_sendB_at m K c _ (devB_eq c) i fd W

/-- The local copy: the whole bf16 scratch (the other half share of it) to the own block's rows of the own result. -/
theorem wp_local (c : Dev nD)
    {hsrc : (bM : Memref sig .tc .vmem S4096x1024 .bf16).view.WordExact} {hdst : (oOwn c).view.WordExact}
    {hsem : DmaTarget.Typed (nD := nD) (τ := τ) (p := .tc) .vmem (.dma locS) (.here (oOwn c))}
    {α : Type} {Q : α → sProp 𝕄} {kont : PUnit → Prog (TpuEff nD τ sig (Elt F) Λ₀ .tc) α}
    (fd : Buf (Elt F) ((oOwn c).view.loc (c : Thread nD τ))) :
    iprop(cellInv ER (sched m) (K (c, .dma locS)) (dCell c locS)
        ∗ pts c bM fullShare.right (BUF m c) ∗ pts c (oOwn c) fullShare fd
        ∗ dutyTok ER (dCell c locS) 0 false ∗ reached ER (dCell c locS) 0)
      ⊢ iprop((cred (tallyAt (dCell c locS) () N4096) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma bM (.here (oOwn c)) (.dma locS) hsrc hdst hsem) kont) Q) := by
  exact Rounds.wp_copy_pointsTo 𝒱₀ ER (sched m) (c : Thread nD τ) none
    (src := bM) (dst := oOwn c) (q := fullShare.right) (fs := BUF m c)
    (κ := K (c, .dma locS)) (r := 0) (d := false) (fd := fd)
    (by rw [duties_dma]; exact Finset.mem_singleton_self _)
    () N4096 rfl ((amount_dma m c locS false).trans dmaAmt_loc)
    (by
      rw [payload_dma, payDma_loc, pointsTo_congr (val_local m c fd)]
      exact BI.Entails.refl _)

/-- A wait on one of the device's own DMA cells for its one round: the round's payload comes with it. -/
theorem wp_waitCell (c : Dev nD) (s : DmaSem sig) {sp sp' : Space} {sh sh' : Shape} {e e' : EltTy}
    {src : Memref sig .tc sp' sh' e'} {κ' : Kind} {dst : Memref sig κ' sp sh e} {hsrc : src.view.WordExact} {hdst : dst.view.WordExact}
    (hamt : dst.view.dmaCredit = dmaAmt s)
    {α : Type} {Q : α → sProp 𝕄} {kont : PUnit → Prog (TpuEff nD τ sig (Elt F) Λ₀ .tc) α}
    (O : CellTallies nD τ sig Unit) (W : Waits sig Unit) :
    iprop(cellInv ER (sched m) (K (c, .dma s)) (dCell c s) ∗ cred (tallyAt (dCell c s) () (dmaAmt s)) ∗ owes (c : Thread nD τ) O W
        ∗ MayWait (c : Thread nD τ) (.dma s) () O ∗ atPos ER (dCell c s) 0 ∅ 0)
      ⊢ iprop(((owes (c : Thread nD τ) O (insert (SemLoc.dma s, ()) W) ∗ atPos ER (dCell c s) (0 + 1) ∅ 0 ∗ payDma m c s)
              -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 s src dst hsrc hdst) kont) Q) := by
  have hk : 0 + dst.view.dmaCredit = (sched m).expect ((c : Thread nD τ), SemLoc.dma s) 0 := by
    rw [Nat.zero_add, hamt]; exact (expect_dma m c s).symm
  have h := Rounds.wp_wait_rest_token 𝒱₀ ER (sched m) (c : Thread nD τ) none (κ := K (c, .dma s))
    (wpE_waitDma2_eq (defs := defs₀ (F := F)) 𝒱₀ (c : Thread nD τ) none Set.univ (sem := s) (src := src) (dst := dst) (hsrc := hsrc) (hdst := hdst))
    (Set.mem_univ _) () (O := O) (W := W) (R := 0) (m := 0) (T := ∅) hk (k := kont) (Q := Q)
  rw [rest_dma, hamt] at h
  iintro Hpre Hk
  iapply h $$ Hpre
  iintro ⟨HL, Hat, Hr, Hpay⟩
  iapply Hk
  isplitl [HL]; · iexact HL
  isplitl [Hat]; · iexact Hat
  iexact Hpay

end Cert.Kernel.AG

end
-- ==== Proof.Bits.Cred.lean ====
import proofs.«900086_g7700000000000087_dist_ag_v7x_xy2x2_x_m4096_n1024_bf16_1_alg».proof.Proof.Bits.Ghost

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the owed tallies are positive, and the levels of the cells -/

/-- Row arrivals are owed to the row partner's `rb` cells only. -/
theorem owedB_pos {c : Dev nD} {n : ℕ} {g : GSem nD τ sig} {u : Unit} (h : 0 < owedB c n g u) :
    ∃ i : Fin 16, g = dCell (pb c) (rbS i) := by
  unfold owedB at h
  obtain ⟨k, -, hk⟩ := Pipeline.sum_pos_exists h
  exact ⟨rev16 k, (Pipeline.tallyAt_pos hk).1⟩

/-- With the column arrivals: to those, or to the column partner's `ra` cells. -/
theorem owedA_pos {c : Dev nD} {n : ℕ} {g : GSem nD τ sig} {u : Unit} (h : 0 < owedA c n g u) :
    (∃ i : Fin 16, g = dCell (pb c) (rbS i)) ∨ (∃ i : Fin 16, g = dCell (pa c) (raS i)) := by
  unfold owedA at h
  rcases Pipeline.add_pos_cases h with h | h
  · exact Or.inl (owedB_pos h)
  · obtain ⟨k, -, hk⟩ := Pipeline.sum_pos_exists h
    exact Or.inr ⟨rev16 k, (Pipeline.tallyAt_pos hk).1⟩

theorem lv_bar (d : Dev nD) (u : Unit) : lv (barCell d) u = 1 := rfl
theorem lv_in (d : Dev nD) (j : Fin 8) (u : Unit) : lv (dCell d (inS j)) u = 0 := by
  have hj := j.isLt
  dsimp only [lv]
  rw [if_neg (by omega), if_neg (by omega)]
theorem lv_ra (d : Dev nD) (i : Fin 16) (u : Unit) : lv (dCell d (raS i)) u = 2 := by
  have hi := i.isLt
  dsimp only [lv]
  rw [if_pos ⟨by omega, by omega⟩]
theorem lv_rb (d : Dev nD) (i : Fin 16) (u : Unit) : lv (dCell d (rbS i)) u = 3 := by
  have hi := i.isLt
  dsimp only [lv]
  rw [if_neg (by omega), if_pos ⟨by omega, by omega⟩]

theorem mem_L (d : Dev nD) (sm : SemLoc sig) (u : Unit) : u ∈ L ((d : Thread nD τ), sm) := by
  rw [L_tc]; exact Finset.mem_singleton_self _

/-- Reading the sixteen chunks from the last to the first is reading them all. -/
theorem bigSep_rev16 (Ψ : Fin 16 → sProp 𝕄) :
    bigSep (Finset.range 16) (fun k => Ψ (rev16 k)) = bigSep (Finset.univ : Finset (Fin 16)) Ψ := by
  have hinj : Set.InjOn rev16 (Finset.range 16 : Finset ℕ) := fun a ha b hb h => by
    have ha' := Finset.mem_range.mp (Finset.mem_coe.mp ha)
    have hb' := Finset.mem_range.mp (Finset.mem_coe.mp hb)
    have hv : 15 - a % 16 = 15 - b % 16 := congrArg Fin.val h
    omega
  rw [← bigSep_image_of_injOn hinj Ψ, show (Finset.range 16).image rev16 = (Finset.univ : Finset (Fin 16)) from by decide]

/-- Every device owes its two partners' barrier cells one unit each, its column partner's `ra` cells and its row partner's
    `rb` cells a chunk's credit each; both partner maps are involutions, so device `c` is dealt two units on its own barrier
    cell and a chunk's credit on each of its own `ra` and `rb` cells. -/
theorem creds (c : Dev nD) : (Pipeline.launchCred O₀ c : sProp 𝕄) ⊢ launchCreds c := by
  have e1 : (Pipeline.launchCred O₀ c : sProp 𝕄)
      = iprop(Pipeline.launchCred O₁ c ∗ Pipeline.launchCred (fun d => tallyAt (barCell (pa d)) () 1) c) :=
    Pipeline.launchCred_add O₁ (fun d => tallyAt (barCell (pa d)) () 1) c
  have e2 : (Pipeline.launchCred O₁ c : sProp 𝕄)
      = iprop(Pipeline.launchCred (fun d => owedA d 16) c ∗ Pipeline.launchCred (fun d => tallyAt (barCell (pb d)) () 1) c) :=
    Pipeline.launchCred_add (fun d => owedA d 16) (fun d => tallyAt (barCell (pb d)) () 1) c
  have e3 : (Pipeline.launchCred (fun d => owedA d 16) c : sProp 𝕄)
      = iprop(Pipeline.launchCred (fun d => owedB d 16) c
          ∗ Pipeline.launchCred (fun d => ∑ k ∈ Finset.range 16, tallyAt (dCell (pa d) (raS (rev16 k))) () N128) c) :=
    Pipeline.launchCred_add (fun d => owedB d 16) (fun d => ∑ k ∈ Finset.range 16, tallyAt (dCell (pa d) (raS (rev16 k))) () N128) c
  have e4 : (Pipeline.launchCred (fun d => ∑ k ∈ Finset.range 16, tallyAt (dCell (pa d) (raS (rev16 k))) () N128) c : sProp 𝕄)
      = bigSep (Finset.range 16) fun k => Pipeline.launchCred (fun d => tallyAt (dCell (pa d) (raS (rev16 k))) () N128) c :=
    Pipeline.launchCred_sum (Finset.range 16) (fun k d => tallyAt (dCell (pa d) (raS (rev16 k))) () N128) c
  have e5 : (Pipeline.launchCred (fun d => owedB d 16) c : sProp 𝕄)
      = bigSep (Finset.range 16) fun k => Pipeline.launchCred (fun d => tallyAt (dCell (pb d) (rbS (rev16 k))) () N128) c :=
    Pipeline.launchCred_sum (Finset.range 16) (fun k d => tallyAt (dCell (pb d) (rbS (rev16 k))) () N128) c
  have hbarA : (Pipeline.launchCred (fun d => tallyAt (barCell (pa d)) () 1) c : sProp 𝕄) ⊢ cred (tallyAt (barCell c) () 1) :=
    Pipeline.launchCred_tallyAt (.reg barS) pa pa pa_pa pa_pa () 1 c
  have hbarB : (Pipeline.launchCred (fun d => tallyAt (barCell (pb d)) () 1) c : sProp 𝕄) ⊢ cred (tallyAt (barCell c) () 1) :=
    Pipeline.launchCred_tallyAt (.reg barS) pb pb pb_pb pb_pb () 1 c
  have hbar : (iprop(cred (tallyAt (barCell c) () 1) ∗ cred (tallyAt (barCell c) () 1)) : sProp 𝕄) ⊢ cred (tallyAt (barCell c) () 2) := by
    have h : (iprop(cred (tallyAt (barCell c) () 1) ∗ cred (tallyAt (barCell c) () 1)) : sProp 𝕄)
        ⊢ cred (tallyAt (barCell c) () 1 + tallyAt (barCell c) () 1) := (cred_add _ _).2
    rw [tallyAt_add] at h
    exact h
  have hA : (bigSep (Finset.range 16) fun k => (Pipeline.launchCred (fun d => tallyAt (dCell (pa d) (raS (rev16 k))) () N128) c : sProp 𝕄))
      ⊢ bigSep Finset.univ fun i : Fin 16 => cred (tallyAt (dCell c (raS i)) () N128) := by
    rw [← bigSep_rev16 fun i : Fin 16 => (cred (tallyAt (dCell c (raS i)) () N128) : sProp 𝕄)]
    exact bigSep_mono fun k _ => Pipeline.launchCred_tallyAt (.dma (raS (rev16 k))) pa pa pa_pa pa_pa () N128 c
  have hB : (bigSep (Finset.range 16) fun k => (Pipeline.launchCred (fun d => tallyAt (dCell (pb d) (rbS (rev16 k))) () N128) c : sProp 𝕄))
      ⊢ bigSep Finset.univ fun i : Fin 16 => cred (tallyAt (dCell c (rbS i)) () N128) := by
    rw [← bigSep_rev16 fun i : Fin 16 => (cred (tallyAt (dCell c (rbS i)) () N128) : sProp 𝕄)]
    exact bigSep_mono fun k _ => Pipeline.launchCred_tallyAt (.dma (rbS (rev16 k))) pb pb pb_pb pb_pb () N128 c
  rw [e1, e2, e3, e4, e5]
  unfold launchCreds
  iintro ⟨⟨⟨HB, HA⟩, Hb⟩, Ha⟩
  isplitl [Ha Hb]
  · iapply hbar
    isplitl [Ha]
    · iapply hbarA; iexact Ha
    · iapply hbarB; iexact Hb
  isplitl [HA]
  · iapply hA; iexact HA
  · iapply hB; iexact HB

/-! ## The launch credit, and that every wait sits below what the waiter still owes -/

/-- A wait on an input copy's cell (level 0), whatever arrivals are still owed. -/
theorem mayWait_in (c : Dev nD) (j : Fin 8) (n : ℕ) :
    (levAts L lv : sProp 𝕄) ⊢ MayWait (c : Thread nD τ) (.dma (inS j)) () (owedA c n) :=
  Pipeline.mayWait_of_levAts (mem_L c _ _) fun g u hg => by
    rcases owedA_pos hg with ⟨i, rfl⟩ | ⟨i, rfl⟩
    · exact ⟨mem_L _ _ _, by rw [lv_in, lv_rb]; decide⟩
    · exact ⟨mem_L _ _ _, by rw [lv_in, lv_ra]; decide⟩
/-- The same when only row arrivals are still owed. -/
theorem mayWait_in' (c : Dev nD) (j : Fin 8) (n : ℕ) :
    (levAts L lv : sProp 𝕄) ⊢ MayWait (c : Thread nD τ) (.dma (inS j)) () (owedB c n) :=
  Pipeline.mayWait_of_levAts (mem_L c _ _) fun g u hg => by
    obtain ⟨i, rfl⟩ := owedB_pos hg
    exact ⟨mem_L _ _ _, by rw [lv_in, lv_rb]; decide⟩
/-- The barrier wait (level 1), owing all thirty-two arrivals. -/
theorem mayWait_bar (c : Dev nD) :
    (levAts L lv : sProp 𝕄) ⊢ MayWait (c : Thread nD τ) (.reg barS) () (owedA c 16) :=
  Pipeline.mayWait_of_levAts (mem_L c _ _) fun g u hg => by
    rcases owedA_pos hg with ⟨i, rfl⟩ | ⟨i, rfl⟩
    · exact ⟨mem_L _ _ _, by rw [lv_bar, lv_rb]; decide⟩
    · exact ⟨mem_L _ _ _, by rw [lv_bar, lv_ra]; decide⟩
/-- A wait for a column arrival (level 2), owing row arrivals (level 3) only. -/
theorem mayWait_ra (c : Dev nD) (i : Fin 16) (n : ℕ) :
    (levAts L lv : sProp 𝕄) ⊢ MayWait (c : Thread nD τ) (.dma (raS i)) () (owedB c n) :=
  Pipeline.mayWait_of_levAts (mem_L c _ _) fun g u hg => by
    obtain ⟨i', rfl⟩ := owedB_pos hg
    exact ⟨mem_L _ _ _, by rw [lv_ra, lv_rb]; decide⟩

/-- The pipeline has no window: there is no staging cell to wait on. -/
theorem waits (c : Dev nD) : (levAts L lv : sProp 𝕄) ⊢ Pipeline.cellsWaits cfgs (dats m) () 0 c :=
  Pipeline.cellsWaits_intro cfgs (dats m) () 0 c fun w => w.elim0

/-- info: 'Cert.Kernel.AG.creds' depends on axioms: [propext, Classical.choice, Quot.sound] -/
#guard_msgs in #print axioms creds
/-- info: 'Cert.Kernel.AG.waits' depends on axioms: [propext, Classical.choice, Quot.sound] -/
#guard_msgs in #print axioms waits

end Cert.Kernel.AG

end
-- ==== Proof.Bits.Close.lean ====
/-
# Reading the records, closing the cells, and what the barrier hands over

Every device holds, persistently, every cell's invariant and the fact that every cell's round 0 is reached. From them: a
DMA cell whose only round has been consumed, and which has no duty in any later round, closes with its counter at zero,
and so do all of a device's DMA cells at once; and the chunks of its own result that a device lets a partner write,
renamed as that partner names them, together with the reached facts of the cells those writes credit, are the payload of
the signal the device sends to that partner's barrier cell.
-/
import proofs.«900086_g7700000000000087_dist_ag_v7x_xy2x2_x_m4096_n1024_bf16_1_alg».proof.Proof.Bits.Ghost
import proofs.«900086_g7700000000000087_dist_ag_v7x_xy2x2_x_m4096_n1024_bf16_1_alg».proof.Proof.Bits.Sched
import proofs.«900086_g7700000000000087_dist_ag_v7x_xy2x2_x_m4096_n1024_bf16_1_alg».proof.Proof.Bits.Geom

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Reading the records -/

/-- A cell's invariant, out of the records. -/
theorem inv_at (K : Dev nD × SemLoc sig → ℕ) (ck : Dev nD × SemLoc sig) :
    records m K ⊢ cellInv ER (sched m) (K ck) (gcell ck) := by
  have h : (bigSep Finset.univ fun ck : Dev nD × SemLoc sig => cellInv ER (sched m) (K ck) (gcell ck))
      ⊢ cellInv ER (sched m) (K ck) (gcell ck) := bigSep_elim (Finset.mem_univ ck)
  unfold records
  iintro ⟨H, -⟩
  iapply h
  iexact H

/-- That a cell's round 0 is reached, out of the records. -/
theorem reached_at (K : Dev nD × SemLoc sig → ℕ) (ck : Dev nD × SemLoc sig) :
    records m K ⊢ reached ER (gcell ck) 0 := by
  have h : (bigSep Finset.univ (fun ck : Dev nD × SemLoc sig => reached ER (gcell ck) 0) : sProp 𝕄)
      ⊢ reached ER (gcell ck) 0 := bigSep_elim (Finset.mem_univ ck)
  unfold records
  iintro ⟨-, H⟩
  iapply h
  iexact H

/-! ## Closing the DMA cells -/

/-- A DMA cell whose one round is consumed closes with its counter at zero. -/
theorem close_cell (K : Dev nD × SemLoc sig → ℕ) (c : Dev nD) (s : DmaSem sig) :
    iprop(records m K ∗ atPos ER (dCell c s) (0 + 1) ∅ 0) ⊢ |={Set.univ}=> semVal (dCell c s) 0 :=
  (sep_mono_left (inv_at m K (c, .dma s))).trans
    (Rounds.cell_close ER (sched m) (Set.mem_univ _) (fun h => h) (R := 0 + 1) (duties_later m (dCell c s)))

/-- All seventy-three of a device's DMA cells close. -/
theorem close_cells (K : Dev nD × SemLoc sig → ℕ) (c : Dev nD) :
    iprop(records m K ∗ (bigSep Finset.univ fun s : DmaSem sig => atPos ER (dCell c s) (0 + 1) ∅ 0))
      ⊢ |={Set.univ}=> bigSep Finset.univ fun s : DmaSem sig => semVal (dCell c s) 0 :=
  (bigSep_with_persistent (fun s _ => close_cell m K c s)).trans (bigSep_fupd _ _)

/-! ## The barrier payloads -/

/-- What a device hands its column partner at the barrier: the sixteen chunks of its own result the partner writes,
    named as the partner names them, and that its receive cells of the first movement are at round 0. -/
theorem barA_pay (K : Dev nD × SemLoc sig → ℕ) (c : Dev nD) :
    iprop(records m K ∗ bigSep Finset.univ fun i : Fin 16 => iprop(∃ f, pts c (oRecvA c i) fullShare f)) ⊢ payBarA (pa c) := by
  unfold payBarA
  refine bigSep_with_persistent (fun i _ => ?_)
  rw [pa_pa, oDstA_pa]
  iintro ⟨#R, H⟩
  isplitl [H]
  · iexact H
  · iapply (reached_at m K (c, .dma (raS i)))
    iexact R

/-- What it hands its row partner: the sixteen chunks of its own result the partner forwards into, and that its
    receive cells of the second movement are at round 0. -/
theorem barB_pay (K : Dev nD × SemLoc sig → ℕ) (c : Dev nD) :
    iprop(records m K ∗ bigSep Finset.univ fun i : Fin 16 => iprop(∃ f, pts c (oRecvA (pb c) i) fullShare f)) ⊢ payBarB (pb c) := by
  unfold payBarB
  refine bigSep_with_persistent (fun i _ => ?_)
  rw [pb_pb]
  iintro ⟨#R, H⟩
  isplitl [H]
  · iexact H
  · iapply (reached_at m K (c, .dma (rbS i)))
    iexact R

/-- The same at fixed contents: the chunks held at one `f`. -/
theorem barA_pay_at (K : Dev nD × SemLoc sig → ℕ) (c : Dev nD) (f : Buf (Elt F) (oM.view.loc (c : Thread nD τ))) :
    iprop(records m K ∗ bigSep Finset.univ fun i : Fin 16 => pts c (oRecvA c i) fullShare f) ⊢ payBarA (pa c) := by
  have hi : ∀ i : Fin 16, (pts c (oRecvA c i) fullShare f : sProp 𝕄) ⊢ iprop(∃ f, pts c (oRecvA c i) fullShare f) :=
    fun i => by iintro H; iexists f; iexact H
  have h : (bigSep Finset.univ (fun i : Fin 16 => pts c (oRecvA c i) fullShare f) : sProp 𝕄)
      ⊢ bigSep Finset.univ fun i : Fin 16 => iprop(∃ f, pts c (oRecvA c i) fullShare f) :=
    bigSep_mono fun i _ => hi i
  exact (sep_mono_right h).trans (barA_pay m K c)

theorem barB_pay_at (K : Dev nD × SemLoc sig → ℕ) (c : Dev nD) (f : Buf (Elt F) (oM.view.loc (c : Thread nD τ))) :
    iprop(records m K ∗ bigSep Finset.univ fun i : Fin 16 => pts c (oRecvA (pb c) i) fullShare f) ⊢ payBarB (pb c) := by
  have hi : ∀ i : Fin 16, (pts c (oRecvA (pb c) i) fullShare f : sProp 𝕄) ⊢ iprop(∃ f, pts c (oRecvA (pb c) i) fullShare f) :=
    fun i => by iintro H; iexists f; iexact H
  have h : (bigSep Finset.univ (fun i : Fin 16 => pts c (oRecvA (pb c) i) fullShare f) : sProp 𝕄)
      ⊢ bigSep Finset.univ fun i : Fin 16 => iprop(∃ f, pts c (oRecvA (pb c) i) fullShare f) :=
    bigSep_mono fun i _ => hi i
  exact (sep_mono_right h).trans (barB_pay m K c)

/-- info: 'Cert.Kernel.AG.close_cells' depends on axioms: [propext, Classical.choice, Quot.sound] -/
#guard_msgs in #print axioms close_cells
/-- info: 'Cert.Kernel.AG.barA_pay' depends on axioms: [propext, Classical.choice, Quot.sound] -/
#guard_msgs in #print axioms barA_pay
/-- info: 'Cert.Kernel.AG.barB_pay' depends on axioms: [propext, Classical.choice, Quot.sound] -/
#guard_msgs in #print axioms barB_pay
/-- info: 'Cert.Kernel.AG.barA_pay_at' depends on axioms: [propext, Classical.choice, Quot.sound] -/
#guard_msgs in #print axioms barA_pay_at
/-- info: 'Cert.Kernel.AG.barB_pay_at' depends on axioms: [propext, Classical.choice, Quot.sound] -/
#guard_msgs in #print axioms barB_pay_at

end Cert.Kernel.AG

end
-- ==== Proof.Bits.Rejoin.lean ====
/-
# The four buffers cut apart and whole again

At the start of the body each buffer's points-to is cut into the pieces the copies, loads and stores hold apart; at
its end every piece has come back, at the one function the buffer is described by, and the pieces join into the whole
buffer again. The bf16 scratch comes back in two halves of its share: the left half in pieces (the sent chunks and the
slabs of the other half), the right half whole; the pieces join first, then the two halves.
-/
import proofs.«900086_g7700000000000087_dist_ag_v7x_xy2x2_x_m4096_n1024_bf16_1_alg».proof.Proof.Bits.Geom
import proofs.«900086_g7700000000000087_dist_ag_v7x_xy2x2_x_m4096_n1024_bf16_1_alg».proof.Proof.Bits.Ghost

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cutting a whole buffer into its pieces -/

theorem unjoin_x (c : Dev nD) (f : Buf (Elt F) (xM.view.loc (c : Thread nD τ))) :
    pts (F := F) c xM fullShare f ⊢ iprop((bigSep Finset.univ fun k : Fin 4 => pts c (xIn1 c k) fullShare f)
      ∗ (bigSep Finset.univ fun k : Fin 4 => pts c (xIn2 c k) fullShare f)) :=
  (split_x c _ f).1

theorem unjoin_v (c : Dev nD) (f : Buf (Elt F) (vM.view.loc (c : Thread nD τ))) :
    pts (F := F) c vM fullShare f ⊢ iprop((bigSep Finset.univ fun k : Fin 4 => pts c (vIn1 c k) fullShare f)
      ∗ (bigSep Finset.univ fun k : Fin 4 => pts c (vIn2 c k) fullShare f)) :=
  (split_v c _ f).1

theorem unjoin_b (c : Dev nD) (f : Buf (Elt F) (bM.view.loc (c : Thread nD τ))) :
    pts (F := F) c bM fullShare f ⊢ iprop((bigSep Finset.univ fun i : Fin 16 => pts c (bSrcA c i) fullShare f)
      ∗ (bigSep Finset.univ fun k : Fin 4 => (bM.view.loc (c : Thread nD τ) ↦[(bM.access (rCh2 c k)).set]{fullShare} f))) :=
  (split_b c _ f).1

theorem unjoin_o (c : Dev nD) (f : Buf (Elt F) (oM.view.loc (c : Thread nD τ))) :
    pts (F := F) c oM fullShare f ⊢ iprop(pts c (oOwn c) fullShare f
      ∗ (bigSep Finset.univ fun i : Fin 16 => pts c (oRecvA c i) fullShare f)
      ∗ (bigSep Finset.univ fun i : Fin 16 => pts c (oRecvA (pb c) i) fullShare f)) :=
  (split_o c _ f).1

/-! ## The two halves of a share -/

/-- A points-to at the full share is its left and right halves. -/
theorem halve (c : Dev nD) {sp : Space} {s : Shape} {e : EltTy} (M : Memref sig .tc sp s e)
    (f : Buf (Elt F) (M.view.loc (c : Thread nD τ))) :
    pts (F := F) c M fullShare f ⊣⊢ iprop(pts c M fullShare.left f ∗ pts c M fullShare.right f) :=
  pointsTo_share (PosShare.mem_left_op_right fullShare)

/-- The right half of the bf16 scratch, back in pieces, is whole again. -/
theorem join_b_right (c : Dev nD) :
    iprop((bigSep Finset.univ fun i : Fin 16 => pts c (bSrcA c i) fullShare.right (BUF m c))
      ∗ (bigSep Finset.univ fun k : Fin 4 =>
          (bM.view.loc (c : Thread nD τ) ↦[(bM.access (rCh2 c k)).set]{fullShare.right} (BUF m c))))
      ⊢ pts (F := F) c bM fullShare.right (BUF m c) :=
  (split_b c _ _).2

/-! ## The end of the body: every piece back, the four buffers whole -/

theorem rejoin (c : Dev nD) :
    iprop((bigSep Finset.univ fun k : Fin 4 => pts c (xIn1 c k) fullShare (X m c))
      ∗ (bigSep Finset.univ fun k : Fin 4 => pts c (xIn2 c k) fullShare (X m c))
      ∗ (bigSep Finset.univ fun k : Fin 4 => pts c (vIn1 c k) fullShare (X m c))
      ∗ (bigSep Finset.univ fun k : Fin 4 => pts c (vIn2 c k) fullShare (X m c))
      ∗ (bigSep Finset.univ fun i : Fin 16 => pts c (bSrcA c i) fullShare.left (BUF m c))
      ∗ (bigSep Finset.univ fun k : Fin 4 =>
          (bM.view.loc (c : Thread nD τ) ↦[(bM.access (rCh2 c k)).set]{fullShare.left} (BUF m c)))
      ∗ pts c bM fullShare.right (BUF m c)
      ∗ pts c (oOwn c) fullShare (OUT m c)
      ∗ (bigSep Finset.univ fun i : Fin 16 => pts c (oRecvA c i) fullShare (OUT m c))
      ∗ (bigSep Finset.univ fun i : Fin 16 => pts c (oRecvA (pb c) i) fullShare (OUT m c)))
      ⊢ iprop(pts (F := F) c xM fullShare (X m c) ∗ pts c oM fullShare (OUT m c)
          ∗ (∃ f, pts c vM fullShare f) ∗ (∃ f, pts c bM fullShare f)) := by
  iintro ⟨X1, X2, V1, V2, BL1, BL2, BR, OO, OR1, OR2⟩
  ihave HX := (split_x (F := F) c fullShare (X m c)).2 $$ [X1 X2]
  · isplitl [X1] <;> iassumption
  ihave HV := (split_v (F := F) c fullShare (X m c)).2 $$ [V1 V2]
  · isplitl [V1] <;> iassumption
  ihave HBL := (split_b (F := F) c fullShare.left (BUF m c)).2 $$ [BL1 BL2]
  · isplitl [BL1] <;> iassumption
  ihave HB := (halve (F := F) c bM (BUF m c)).2 $$ [HBL BR]
  · isplitl [HBL] <;> iassumption
  ihave HO := (split_o (F := F) c fullShare (OUT m c)).2 $$ [OO OR1 OR2]
  · isplitl [OO]; · iassumption
    isplitl [OR1] <;> iassumption
  isplitl [HX]; · iexact HX
  isplitl [HO]; · iexact HO
  isplitl [HV]
  · iexists (X m c); iexact HV
  · iexists (BUF m c); iexact HB

/-- info: 'Cert.Kernel.AG.rejoin' depends on axioms: [propext, Classical.choice, Quot.sound] -/
#guard_msgs in #print axioms rejoin
/-- info: 'Cert.Kernel.AG.unjoin_b' depends on axioms: [propext, Classical.choice, Quot.sound] -/
#guard_msgs in #print axioms unjoin_b
/-- info: 'Cert.Kernel.AG.join_b_right' depends on axioms: [propext, Classical.choice, Quot.sound] -/
#guard_msgs in #print axioms join_b_right

end Cert.Kernel.AG

end
-- ==== Proof.Bits.DSem.lean ====
/-
# A big star over a device's semaphores, group by group

The DMA semaphores are numbered `0 … 72` in six groups; a big star over all of them is the star of the big stars over the
groups, and a big star over all of a device's cells is the barrier cell's term and the big star over the DMA semaphores.
-/
import proofs.«900086_g7700000000000087_dist_ag_v7x_xy2x2_x_m4096_n1024_bf16_1_alg».proof.Proof.Bits.Proto

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The seventy-three DMA semaphores by group

Numbers `0 … 15` are the send cells of the first movement, `16 … 31` its receive cells, `32 … 47` and `48 … 63` those of
the second, `64 … 71` the eight input copies' and `72` the local copy's. -/

/-- The group and the place in it of a DMA semaphore. -/
def dsemSplit (s : DmaSem sig) : Fin 16 ⊕ Fin 16 ⊕ Fin 16 ⊕ Fin 16 ⊕ Fin 8 ⊕ Unit :=
  if h : s.val < 16 then .inl ⟨s.val, h⟩
  else if h : s.val < 32 then .inr (.inl ⟨s.val - 16, by omega⟩)
  else if h : s.val < 48 then .inr (.inr (.inl ⟨s.val - 32, by omega⟩))
  else if h : s.val < 64 then .inr (.inr (.inr (.inl ⟨s.val - 48, by omega⟩)))
  else if h : s.val < 72 then .inr (.inr (.inr (.inr (.inl ⟨s.val - 64, by omega⟩))))
  else .inr (.inr (.inr (.inr (.inr ()))))

/-- The semaphore at a place of a group. -/
def dsemJoin : Fin 16 ⊕ Fin 16 ⊕ Fin 16 ⊕ Fin 16 ⊕ Fin 8 ⊕ Unit → DmaSem sig :=
  Sum.elim saS (Sum.elim raS (Sum.elim sbS (Sum.elim rbS (Sum.elim inS fun _ => locS))))

theorem dsemSplit_join : ∀ x, dsemSplit (dsemJoin x) = x := by decide
theorem dsemJoin_split : ∀ s : DmaSem sig, dsemJoin (dsemSplit s) = s := by decide

def dsemEquiv : (Fin 16 ⊕ Fin 16 ⊕ Fin 16 ⊕ Fin 16 ⊕ Fin 8 ⊕ Unit) ≃ DmaSem sig :=
  ⟨dsemJoin, dsemSplit, dsemSplit_join, dsemJoin_split⟩

omit [FloatOps F] in
/-- A big star over the DMA semaphores, group by group. -/
theorem bigSep_dsem (Φ : DmaSem sig → sProp 𝕄) : bigSep Finset.univ Φ
    = iprop((bigSep Finset.univ fun i : Fin 16 => Φ (saS i)) ∗ (bigSep Finset.univ fun i : Fin 16 => Φ (raS i))
      ∗ (bigSep Finset.univ fun i : Fin 16 => Φ (sbS i)) ∗ (bigSep Finset.univ fun i : Fin 16 => Φ (rbS i))
      ∗ (bigSep Finset.univ fun j : Fin 8 => Φ (inS j)) ∗ Φ locS) := by
  rw [bigSep_univ_equiv dsemEquiv Φ, bigSep_univ_sum, bigSep_univ_sum, bigSep_univ_sum, bigSep_univ_sum, bigSep_univ_sum,
    bigSep_univ_of_subsingleton ()]
  rfl

omit [FloatOps F] in
/-- A big star over a device's cells: the barrier's, then the DMA semaphores'. -/
theorem bigSep_semloc (Φ : SemLoc sig → sProp 𝕄) : bigSep Finset.univ Φ
    = iprop(Φ (.reg barS) ∗ bigSep Finset.univ fun s : DmaSem sig => Φ (.dma s)) := by
  rw [bigSep_univ_equiv (SemLoc.equivSum sig).symm Φ, bigSep_univ_sum, bigSep_univ_of_subsingleton (0 : Sem sig)]
  rfl

/-- info: 'Cert.Kernel.AG.bigSep_dsem' depends on axioms: [propext, Classical.choice, Quot.sound] -/
#guard_msgs in #print axioms bigSep_dsem
/-- info: 'Cert.Kernel.AG.bigSep_semloc' depends on axioms: [propext, Classical.choice, Quot.sound] -/
#guard_msgs in #print axioms bigSep_semloc

end Cert.Kernel.AG

end
-- ==== Proof.Bits.BodyLemmas.lean ====
import proofs.«900086_g7700000000000087_dist_ag_v7x_xy2x2_x_m4096_n1024_bf16_1_alg».proof.Proof.Bits.Steps
import proofs.«900086_g7700000000000087_dist_ag_v7x_xy2x2_x_m4096_n1024_bf16_1_alg».proof.Proof.Bits.Cred
import proofs.«900086_g7700000000000087_dist_ag_v7x_xy2x2_x_m4096_n1024_bf16_1_alg».proof.Proof.Bits.Close
import proofs.«900086_g7700000000000087_dist_ag_v7x_xy2x2_x_m4096_n1024_bf16_1_alg».proof.Proof.Bits.Rejoin
import proofs.«900086_g7700000000000087_dist_ag_v7x_xy2x2_x_m4096_n1024_bf16_1_alg».proof.Proof.Bits.DSem
import proofs.«900086_g7700000000000087_dist_ag_v7x_xy2x2_x_m4096_n1024_bf16_1_alg».proof.Proof.Loop

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Loop

set_option maxRecDepth 65536
set_option maxHeartbeats 4000000

/-- A big star over sixteen (eight, four) indices as a chain ending in `emp`: each step of an unrolled loop takes the head. -/
abbrev ch16 (Φ : Fin 16 → sProp 𝕄) : sProp 𝕄 := iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ emp)
abbrev ch8 (Φ : Fin 8 → sProp 𝕄) : sProp 𝕄 := iprop(Φ 0 ∗ Φ 1 ∗ Φ 2 ∗ Φ 3 ∗ Φ 4 ∗ Φ 5 ∗ Φ 6 ∗ Φ 7 ∗ emp)
abbrev ch4 (Φ : Fin 4 → sProp 𝕄) : sProp 𝕄 := iprop(Φ 0 ∗ Φ 1 ∗ Φ 2 ∗ Φ 3 ∗ emp)
omit [FloatOps F] in
theorem chain16 (Φ : Fin 16 → sProp 𝕄) : bigSep Finset.univ Φ = ch16 Φ := by
  have h : (Φ 15 : sProp 𝕄) = iprop(Φ 15 ∗ emp) := BI.equiv_iff.mp (BI.sep_emp (P := Φ 15)).symm
  rw [bigSep_fin16]; conv_lhs => rw [h]
omit [FloatOps F] in
theorem chain8 (Φ : Fin 8 → sProp 𝕄) : bigSep Finset.univ Φ = ch8 Φ := by
  have h : (Φ 7 : sProp 𝕄) = iprop(Φ 7 ∗ emp) := BI.equiv_iff.mp (BI.sep_emp (P := Φ 7)).symm
  rw [bigSep_fin8]; conv_lhs => rw [h]
omit [FloatOps F] in
theorem chain4 (Φ : Fin 4 → sProp 𝕄) : bigSep Finset.univ Φ = ch4 Φ := by
  have h : (Φ 3 : sProp 𝕄) = iprop(Φ 3 ∗ emp) := BI.equiv_iff.mp (BI.sep_emp (P := Φ 3)).symm
  rw [bigSep_fin4]; conv_lhs => rw [h]

/-- Chunk `i` of the bf16 scratch after its store: the cast of the block's rows. -/
theorem store_val (c : Dev nD) (i : Fin 16) (fb : Buf (Elt F) (bM.view.loc (c : Thread nD τ))) :
    ((bM.access (rCh c i)).loc (c : Thread nD τ) ↦[(bSrcA c i).view.set]{fullShare}
        ((bM.access (rCh c i)).write (Elt F) fb (truncf .bf16 (vM.view.readAt (Elt F) (rCh c i).toLoadRect (X m c)) bitsLt_bf16_f32) Finset.univ) : sProp 𝕄)
      ⊢ pts c (bSrcA c i) fullShare (BUF m c) :=
  Entails.of_eq (pointsTo_congr fun x hx => val_store m c i fb x (by rw [set_rCh]; exact hx))
/-- A 512-row slab of the other half after its store. -/
theorem store2_val (c : Dev nD) (k : Fin 4) (fb : Buf (Elt F) (bM.view.loc (c : Thread nD τ))) :
    ((bM.access (rCh2 c k)).loc (c : Thread nD τ) ↦[(bM.access (rCh2 c k)).set]{fullShare}
        ((bM.access (rCh2 c k)).write (Elt F) fb (truncf .bf16 (vM.view.readAt (Elt F) (rCh2 c k).toLoadRect (X m c)) bitsLt_bf16_f32) Finset.univ) : sProp 𝕄)
      ⊢ (bM.view.loc (c : Thread nD τ) ↦[(bM.access (rCh2 c k)).set]{fullShare} (BUF m c) : sProp 𝕄) :=
  Entails.of_eq (pointsTo_congr fun x hx => val_store2 m c k fb x hx)
/-- Both halves of a share of a slab. -/
theorem halve2 (c : Dev nD) (k : Fin 4) (f : Buf (Elt F) (bM.view.loc (c : Thread nD τ))) :
    (bM.view.loc (c : Thread nD τ) ↦[(bM.access (rCh2 c k)).set]{fullShare} f : sProp 𝕄)
      ⊢ iprop((bM.view.loc (c : Thread nD τ) ↦[(bM.access (rCh2 c k)).set]{fullShare.left} f) ∗ (bM.view.loc (c : Thread nD τ) ↦[(bM.access (rCh2 c k)).set]{fullShare.right} f)) :=
  (pointsTo_share (PosShare.mem_left_op_right fullShare)).1

theorem owes_A0 (c : Dev nD) (W : Waits sig Unit) : (owes (c : Thread nD τ) (owedA c 0) W : sProp 𝕄) ⊢ owes (c : Thread nD τ) (owedB c 16) W :=
  Entails.of_eq (by rw [owedA_zero])
theorem owes_B0 (c : Dev nD) (W : Waits sig Unit) : (owes (c : Thread nD τ) (owedB c (15 - (15 : Fin 16).val)) W : sProp 𝕄) ⊢ owes (c : Thread nD τ) 0 W :=
  Entails.of_eq (by rw [show 15 - (15 : Fin 16).val = 0 from rfl, owedB_zero])

/-- The pieces, as chains. -/
theorem open_x (c : Dev nD) : pts (F := F) c xM fullShare (X m c) ⊢ iprop(ch4 (fun k => pts c (xIn1 c k) fullShare (X m c)) ∗ ch4 (fun k => pts c (xIn2 c k) fullShare (X m c))) := by
  rw [← chain4, ← chain4]; exact unjoin_x c _
theorem open_v (c : Dev nD) (f : Buf (Elt F) (vM.view.loc (c : Thread nD τ))) : pts (F := F) c vM fullShare f ⊢ iprop(ch4 (fun k => pts c (vIn1 c k) fullShare f) ∗ ch4 (fun k => pts c (vIn2 c k) fullShare f)) := by
  rw [← chain4, ← chain4]; exact unjoin_v c f
theorem open_b (c : Dev nD) (f : Buf (Elt F) (bM.view.loc (c : Thread nD τ))) : pts (F := F) c bM fullShare f
    ⊢ iprop(ch16 (fun i => pts c (bSrcA c i) fullShare f) ∗ ch4 (fun k => (bM.view.loc (c : Thread nD τ) ↦[(bM.access (rCh2 c k)).set]{fullShare} f))) := by
  rw [← chain16, ← chain4]; exact unjoin_b c f
theorem close_b_right (c : Dev nD) : iprop(ch16 (fun i => pts c (bSrcA c i) fullShare.right (BUF m c)) ∗ ch4 (fun k => (bM.view.loc (c : Thread nD τ) ↦[(bM.access (rCh2 c k)).set]{fullShare.right} (BUF m c))))
    ⊢ pts c bM fullShare.right (BUF m c) := by
  rw [← chain16, ← chain4]; exact join_b_right m c
theorem rejoin_ch (c : Dev nD) :
    iprop(ch4 (fun k => pts c (xIn1 c k) fullShare (X m c)) ∗ ch4 (fun k => pts c (xIn2 c k) fullShare (X m c))
      ∗ ch4 (fun k => pts c (vIn1 c k) fullShare (X m c)) ∗ ch4 (fun k => pts c (vIn2 c k) fullShare (X m c))
      ∗ ch16 (fun i => pts c (bSrcA c i) fullShare.left (BUF m c))
      ∗ ch4 (fun k => (bM.view.loc (c : Thread nD τ) ↦[(bM.access (rCh2 c k)).set]{fullShare.left} (BUF m c)))
      ∗ pts c bM fullShare.right (BUF m c) ∗ pts c (oOwn c) fullShare (OUT m c)
      ∗ ch16 (fun i => pts c (oRecvA c i) fullShare (OUT m c)) ∗ ch16 (fun i => pts c (oRecvA (pb c) i) fullShare (OUT m c)))
      ⊢ iprop(pts c xM fullShare (X m c) ∗ pts c oM fullShare (OUT m c) ∗ (∃ f, pts c vM fullShare f) ∗ (∃ f, pts c bM fullShare f)) := by
  rw [← chain4, ← chain4, ← chain4, ← chain4, ← chain16, ← chain4, ← chain16, ← chain16]; exact rejoin m c
/-- All seventy-three own cells closed, family by family. -/
theorem closed_ch (c : Dev nD) :
    iprop(ch16 (fun i => semVal (dCell c (saS i)) 0) ∗ ch16 (fun i => semVal (dCell c (raS i)) 0) ∗ ch16 (fun i => semVal (dCell c (sbS i)) 0)
      ∗ ch16 (fun i => semVal (dCell c (rbS i)) 0) ∗ ch8 (fun j => semVal (dCell c (inS j)) 0) ∗ semVal (dCell c locS) 0)
      ⊢ (bigSep Finset.univ fun s : DmaSem sig => semVal (dCell c s) 0 : sProp 𝕄) := by
  rw [← chain16, ← chain16, ← chain16, ← chain16, ← chain8]
  exact Entails.of_eq (bigSep_dsem (fun s => (semVal (dCell c s) 0 : sProp 𝕄))).symm

/-- A cell's invariant and its round 0 reached, out of the records, by device and semaphore. -/
theorem inv_cell (K : Dev nD × SemLoc sig → ℕ) (c : Dev nD) (sm : SemLoc sig) :
    records m K ⊢ cellInv ER (sched m) (K (c, sm)) ((c : Thread nD τ), sm) := inv_at m K (c, sm)
theorem reached_cell (K : Dev nD × SemLoc sig → ℕ) (c : Dev nD) (sm : SemLoc sig) :
    records m K ⊢ reached ER ((c : Thread nD τ), sm) 0 := reached_at m K (c, sm)

/-- A memref renamed. -/
theorem pts_memref_congr {sp : Space} {s : Shape} {e : EltTy} {M M' : Memref sig .tc sp s e} (h : M = M') (c : Dev nD) (q : PosShare TreeShare)
    (f : Buf (Elt F) (M.view.loc (c : Thread nD τ))) (f' : Buf (Elt F) (M'.view.loc (c : Thread nD τ))) (hf : HEq f f') :
    (pts c M q f : sProp 𝕄) = pts c M' q f' := by
  subst h; cases hf; rfl
/-- The chunk landed from the column partner, in the device's own spelling of its rows. -/
theorem payRa_eq (c : Dev nD) (i : Fin 16) : payRa m c i = pts c (oRecvA c i) fullShare (OUT m c) :=
  pts_memref_congr (oDstA_pa c i) c _ _ _ HEq.rfl

end Cert.Kernel.AG

end
-- ==== Proof.Bits.Body.lean ====
import proofs.«900086_g7700000000000087_dist_ag_v7x_xy2x2_x_m4096_n1024_bf16_1_alg».proof.Proof.Bits.Steps
import proofs.«900086_g7700000000000087_dist_ag_v7x_xy2x2_x_m4096_n1024_bf16_1_alg».proof.Proof.Bits.Cred
import proofs.«900086_g7700000000000087_dist_ag_v7x_xy2x2_x_m4096_n1024_bf16_1_alg».proof.Proof.Bits.Close
import proofs.«900086_g7700000000000087_dist_ag_v7x_xy2x2_x_m4096_n1024_bf16_1_alg».proof.Proof.Bits.Rejoin
import proofs.«900086_g7700000000000087_dist_ag_v7x_xy2x2_x_m4096_n1024_bf16_1_alg».proof.Proof.Bits.DSem
import proofs.«900086_g7700000000000087_dist_ag_v7x_xy2x2_x_m4096_n1024_bf16_1_alg».proof.Proof.Bits.BodyLemmas

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Loop

set_option maxRecDepth 65536
set_option maxHeartbeats 4000000

/-- One device's body, at a symbolic device: from `Φ₀` — the four buffers, the device's cells at round 0, the tokens of the duties it
    pays, the credit for what its partners owe it — to `Φ₁`, paying off everything it owes. In program order: the eight input copies
    are enqueued; each partner's barrier cell is signalled, the signal handing that partner the rows of this device's result it will
    write; the wait for both partners brings the rows of their results this device writes; the own half is cast chunk by chunk and
    each chunk sent to the column partner (a half share of it: the other half stays for the local copy); the other half is cast; the
    whole bf16 scratch is copied into the own block's rows; each chunk received from the column partner is forwarded to the row
    partner; then every landing and every departure is waited for, each wait returning its round's payload with the contents it
    landed; at the end every piece is back, the four buffers are whole again and every own cell has had its one round. -/
theorem body_obligation (c : Dev nD) : BodyObligation (dats (F := F) m 0 c) (defs₀ (F := F)) 𝒱₀ () Set.univ := fun t => by
  rw [fin_N0 t]
  show iprop(Φ₀ m c ∗ (dats m 0 c).owesAt () (t0_0).castSucc ∗ bigSep (Finset.univ : Finset (Fin 0)) _)
    ⊢ wp frame (wpE (defs₀ (F := F)) 𝒱₀ c none) Set.univ (bodyAt0 t0_0) _
  unfold bodyAt0
  simp only [cc0_body_eq_skeleton]; unfold cc0_body_skel
  simp only [k0_part33_eq_skeleton]; unfold k0_part33_skel
  simp only [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton, k0_part14_eq_skeleton, k0_part15_eq_skeleton, k0_part16_eq_skeleton,
    k0_part17_eq_skeleton, k0_part18_eq_skeleton, k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton, k0_part31_eq_skeleton, k0_part32_eq_skeleton]
  unfold k0_part1_skel k0_part2_skel k0_part3_skel k0_part4_skel k0_part5_skel k0_part6_skel k0_part7_skel k0_part8_skel k0_part9_skel k0_part10_skel k0_part11_skel k0_part12_skel
    k0_part13_skel k0_part14_skel k0_part15_skel k0_part16_skel k0_part17_skel k0_part18_skel k0_part19_skel k0_part20_skel k0_part21_skel k0_part22_skel k0_part23_skel k0_part24_skel
    k0_part25_skel k0_part26_skel k0_part27_skel k0_part28_skel k0_part29_skel k0_part30_skel k0_part31_skel k0_part32_skel
  simp only [semSignalWord, semWaitWord, Prog.lift, Prog.bind_op, Prog.bind_ret, Prog.pure_eq_ret, wp_deviceId]
  simp only [pay1_eq, pay2_eq, pay3_eq, pay4_eq, pay5_eq, pay6_eq, pay7_eq, pay8_eq, pay9_eq, pay10_eq, pay11_eq, pay12_eq, pay13_eq, pay14_eq, pay15_eq, pay16_eq, pay17_eq, pay18_eq, pay19_eq, pay20_eq, pay21_eq, pay22_eq, devSigA_eq c, devSigB_eq c]
  unfold Φ₀ start ghost positions payToks launchCreds Dat.owesAt Pipeline.owesWithin
  simp only [chain16, chain8]
  iintro ⟨⟨⟨⟨%K, #HR, ⟨HpBar, HpSa, HpRa, HpSb, HpRb, HpIn, HpLoc⟩, ⟨HtBarA, HtBarB, HtRa, HtRb, HtSa, HtSb, HtIn, HtLoc⟩⟩, ⟨HcBar, HcRa, HcRb⟩, #Hlev, Hx, ⟨%fo, Ho⟩⟩, ⟨%fv, Hv⟩, ⟨%fb, Hb⟩⟩, ⟨%W, %hW, HO⟩, -⟩
  -- the four buffers cut into the pieces the copies move
  ihave Hxs := (open_x m c) $$ Hx
  icases Hxs with ⟨HxA, HxB⟩
  ihave Hvs := (open_v c fv) $$ Hv
  icases Hvs with ⟨HvA, HvB⟩
  ihave Hbs := (open_b c fb) $$ Hb
  icases Hbs with ⟨HbA, HbB⟩
  ihave Hos := (unjoin_o c fo) $$ Ho
  icases Hos with ⟨HoOwn, HoA, HoB⟩
  -- the eight input copies
  for_fin 4 k =>
    icases HxA with ⟨HxAₓ, HxA⟩
    icases HvA with ⟨HvAₓ, HvA⟩
    icases HtIn with ⟨HtInAₓ, HtIn⟩
    iapply (wp_in1 m K c k fv) $$ [HxAₓ HvAₓ HtInAₓ]
    · isplitr; · iapply (inv_at m K _); iexact HR
      isplitl [HxAₓ]; · iexact HxAₓ
      isplitl [HvAₓ]; · iexact HvAₓ
      isplitl [HtInAₓ]; · iexact HtInAₓ
      iapply (reached_cell m K _ _); iexact HR
    iintro HcInAₓ
  for_fin 4 k =>
    icases HxB with ⟨HxBₓ, HxB⟩
    icases HvB with ⟨HvBₓ, HvB⟩
    icases HtIn with ⟨HtInBₓ, HtIn⟩
    iapply (wp_in2 m K c k fv) $$ [HxBₓ HvBₓ HtInBₓ]
    · isplitr; · iapply (inv_at m K _); iexact HR
      isplitl [HxBₓ]; · iexact HxBₓ
      isplitl [HvBₓ]; · iexact HvBₓ
      isplitl [HtInBₓ]; · iexact HtInBₓ
      iapply (reached_cell m K _ _); iexact HR
    iintro HcInBₓ
  -- the two barrier signals: each hands the partner the chunks of this device's result the partner writes
  iapply (Rounds.wp_signal 𝒱₀ ER (sched m) (c : Thread nD τ) none (dst := (pa c : Thread nD τ)) (κ := K (pa c, .reg barS))
      (d := false) (by rw [duties_bar]; exact Finset.mem_univ _) ((amount_bar m (pa c) false).trans (by decide)) () (O₁ c) rfl)
    $$ [HO HtBarA HoA]
  · isplitr; · iapply (inv_at m K _); iexact HR
    isplitl [HO]; · iexact HO
    isplitl [HtBarA]; · iexact HtBarA
    isplitl [HoA]
    · rw [payload_bar_false]; iapply (barA_pay_at m K c fo); isplitr; · iexact HR
      iexact HoA
    · iapply (reached_cell m K _ _); iexact HR
  iintro HO
  iapply (Rounds.wp_signal 𝒱₀ ER (sched m) (c : Thread nD τ) none (dst := (pb c : Thread nD τ)) (κ := K (pb c, .reg barS))
      (d := true) (by rw [duties_bar]; exact Finset.mem_univ _) ((amount_bar m (pb c) true).trans (by decide)) () (owedA c 16) rfl)
    $$ [HO HtBarB HoB]
  · isplitr; · iapply (inv_at m K _); iexact HR
    isplitl [HO]; · iexact HO
    isplitl [HtBarB]; · iexact HtBarB
    isplitl [HoB]
    · rw [payload_bar_true]; iapply (barB_pay_at m K c fo); isplitr; · iexact HR
      iexact HoB
    · iapply (reached_cell m K _ _); iexact HR
  iintro HO
  -- the wait for both partners: their chunks come with it
  iapply (Rounds.wp_wait_rest_token 𝒱₀ ER (sched m) (c : Thread nD τ) none (κ := K (c, .reg barS))
      (wpE_semWait_eq 𝒱₀ (c : Thread nD τ) none Set.univ) (Set.mem_univ _) () (O := owedA c 16) (W := W) (R := 0) (m := 0) (T := ∅)
      (by rw [expect_bar]; decide)) $$ [HcBar HO HpBar]
  · isplitr; · iapply (inv_at m K _); iexact HR
    isplitl [HcBar]; · iexact HcBar
    isplitl [HO]; · iexact HO
    isplitr; · iapply (mayWait_bar c); iexact Hlev
    iexact HpBar
  iintro ⟨HO, HpBar, -, Hpay⟩
  ihave Hp := (Entails.of_eq (rest_bar m c)) $$ Hpay
  icases Hp with ⟨HdA, HdB⟩
  ihave HdA := (Entails.of_eq (show payBarA (F := F) c = _ from chain16 _)) $$ HdA
  ihave HdB := (Entails.of_eq (show payBarB (F := F) c = _ from chain16 _)) $$ HdB
  -- the own half, chunk by chunk: (wait for its slab,) load, cast, store, send to the column partner
  for_fin 16 i =>
    first
      | (icases HcInAᵩ with HcW
         icases HpIn with ⟨HpW, HpIn'⟩
         iapply (wp_waitCell m K c (inS ⟨iq, by decide⟩) (dst := vIn1 c iq) rfl (owedA c (16 - i)) _) $$ [HcW HO HpW]
         · isplitr; · iapply (inv_at m K _); iexact HR
           isplitl [HcW]; · iexact HcW
           isplitl [HO]; · iexact HO
           isplitr; · iapply (mayWait_in c _ (16 - i)); iexact Hlev
           iexact HpW
         iintro ⟨HO, HqInAᵩ, Hpay⟩
         ihave Hp := (Entails.of_eq (payDma_in1 m c iq)) $$ Hpay
         icases Hp with ⟨HvLᵩ, HxLᵩ⟩
         irename HpIn' => HpIn)
      | skip
    iapply (wp_load 𝒱₀ (c : Thread nD τ) none Set.univ (m := vM) (load_ch_sub c i)) $$ HvLᵩ
    iintro HvLᵩ
    icases HbA with ⟨HbAₓ, HbA⟩
    iapply (wp_load 𝒱₀ (c : Thread nD τ) none Set.univ (m := bM) (loadb_ch_sub c i)) $$ HbAₓ
    iintro HbAₓ
    iapply (wp_store 𝒱₀ (c : Thread nD τ) none Set.univ (m := bM) (r := rCh c i) (Mk := Finset.univ) (set_rCh c i).subset) $$ HbAₓ
    iintro HbAₓ
    ihave HbAₓ := (store_val m c i fb) $$ HbAₓ
    ihave HbAₓ := (halve c (bSrcA c i) (BUF m c)).1 $$ HbAₓ
    icases HbAₓ with ⟨HbLₓ, HbRₓ⟩
    icases HdA with ⟨⟨⟨%faₓ, HdAₓ⟩, -⟩, HdA⟩
    icases HtSa with ⟨HtSaₓ, HtSa⟩
    icases HtRa with ⟨HtRaₓ, HtRa⟩
    iapply (wp_sendA m K c i faₓ _) $$ [HbLₓ HdAₓ HO HtSaₓ HtRaₓ]
    · isplitr; · iapply (inv_at m K _); iexact HR
      isplitr; · iapply (inv_at m K _); iexact HR
      isplitl [HbLₓ]; · iexact HbLₓ
      isplitl [HdAₓ]; · iexact HdAₓ
      isplitl [HO]; · iexact HO
      isplitl [HtSaₓ]; · iexact HtSaₓ
      isplitr; · iapply (reached_cell m K _ _); iexact HR
      isplitl [HtRaₓ]; · iexact HtRaₓ
      iapply (reached_cell m K _ _); iexact HR
    iintro ⟨HcSaₓ, HO⟩
  -- the other half, slab by slab: wait for it, load, cast, store
  for_fin 4 k =>
    icases HpIn with ⟨HpW, HpIn'⟩
    iapply (wp_waitCell m K c (inS ⟨4 + k, by decide⟩) (dst := vIn2 c k) rfl (owedA c 0) _) $$ [HcInBₓ HO HpW]
    · isplitr; · iapply (inv_cell m K _ _); iexact HR
      isplitl [HcInBₓ]; · iexact HcInBₓ
      isplitl [HO]; · iexact HO
      isplitr; · iapply (mayWait_in c _ 0); iexact Hlev
      iexact HpW
    iintro ⟨HO, HqInBₓ, Hpay⟩
    ihave Hp := (Entails.of_eq (payDma_in2 m c k)) $$ Hpay
    icases Hp with ⟨HvMₓ, HxMₓ⟩
    irename HpIn' => HpIn
    iapply (wp_load 𝒱₀ (c : Thread nD τ) none Set.univ (m := vM) (load_ch2_sub c k)) $$ HvMₓ
    iintro HvMₓ
    icases HbB with ⟨HbBₓ, HbB⟩
    iapply (wp_load 𝒱₀ (c : Thread nD τ) none Set.univ (m := bM) (loadb_ch2_sub c k)) $$ HbBₓ
    iintro HbBₓ
    iapply (wp_store 𝒱₀ (c : Thread nD τ) none Set.univ (m := bM) (r := rCh2 c k) (Mk := Finset.univ) (show (bM.access (rCh2 c k)).setOn Finset.univ ⊆ (bM.access (rCh2 c k)).set from Finset.Subset.refl _)) $$ HbBₓ
    iintro HbBₓ
    ihave HbBₓ := (store2_val m c k fb) $$ HbBₓ
    ihave HbBₓ := (halve2 c k (BUF m c)) $$ HbBₓ
    icases HbBₓ with ⟨HbBLₓ, HbBRₓ⟩
  -- the local copy: the whole bf16 scratch (the halves not lent) into the own block's rows
  have hcb := close_b_right m c
  dsimp only [ch16, ch4] at hcb
  ihave Hbr := hcb $$ [$]
  iapply (wp_local m K c fo) $$ [Hbr HoOwn HtLoc]
  · isplitr; · iapply (inv_cell m K _ _); iexact HR
    isplitl [Hbr]; · iexact Hbr
    isplitl [HoOwn]; · iexact HoOwn
    isplitl [HtLoc]; · iexact HtLoc
    iapply (reached_cell m K _ _); iexact HR
  iintro HcLoc
  -- each chunk from the column partner: wait for it, forward it to the row partner
  ihave HO := (owes_A0 c _) $$ HO
  for_fin 16 i =>
    icases HcRa with ⟨HcRaₓ, HcRa⟩
    icases HpRa with ⟨HpRaₓ, HpRa⟩
    iapply (wp_waitCell m K c (raS i) (dst := oDstA c i) rfl (owedB c (16 - i)) _) $$ [HcRaₓ HO HpRaₓ]
    · isplitr; · iapply (inv_cell m K _ _); iexact HR
      isplitl [HcRaₓ]; · iexact HcRaₓ
      isplitl [HO]; · iexact HO
      isplitr; · iapply (mayWait_ra c i (16 - i)); iexact Hlev
      iexact HpRaₓ
    iintro ⟨HO, HqRaₓ, Hpay⟩
    ihave HoAₓ := (Entails.of_eq ((payDma_ra m c i).trans (payRa_eq m c i))) $$ Hpay
    icases HdB with ⟨⟨⟨%fbbₓ, HdBₓ⟩, -⟩, HdB⟩
    icases HtSb with ⟨HtSbₓ, HtSb⟩
    icases HtRb with ⟨HtRbₓ, HtRb⟩
    iapply (wp_sendB m K c i fbbₓ _) $$ [HoAₓ HdBₓ HO HtSbₓ HtRbₓ]
    · isplitr; · iapply (inv_cell m K _ _); iexact HR
      isplitr; · iapply (inv_cell m K _ _); iexact HR
      isplitl [HoAₓ]; · iexact HoAₓ
      isplitl [HdBₓ]; · iexact HdBₓ
      isplitl [HO]; · iexact HO
      isplitl [HtSbₓ]; · iexact HtSbₓ
      isplitr; · iapply (reached_cell m K _ _); iexact HR
      isplitl [HtRbₓ]; · iexact HtRbₓ
      iapply (reached_cell m K _ _); iexact HR
    iintro ⟨HcSbₓ, HO⟩
  -- the chunks from the row partner
  ihave HO := (owes_B0 c _) $$ HO
  for_fin 16 i =>
    icases HcRb with ⟨HcRbₓ, HcRb⟩
    icases HpRb with ⟨HpRbₓ, HpRb⟩
    iapply (wp_waitCell m K c (rbS i) (dst := oRecvA c i) rfl 0 _) $$ [HcRbₓ HO HpRbₓ]
    · isplitr; · iapply (inv_cell m K _ _); iexact HR
      isplitl [HcRbₓ]; · iexact HcRbₓ
      isplitl [HO]; · iexact HO
      isplitr; · rw [MayWait_zero]; iempintro
      iexact HpRbₓ
    iintro ⟨HO, HqRbₓ, Hpay⟩
    ihave HoBₓ := (Entails.of_eq ((payDma_rb m c i).trans (show payRb m c i = pts c (oRecvA (pb c) i) fullShare (OUT m c) from rfl))) $$ Hpay
  -- the sends read out: the lent chunks come back
  for_fin 16 i =>
    icases HpSa with ⟨HpSaₓ, HpSa⟩
    iapply (wp_waitCell m K c (saS i) (dst := bSrcA c i) rfl 0 _) $$ [HcSaₓ HO HpSaₓ]
    · isplitr; · iapply (inv_cell m K _ _); iexact HR
      isplitl [HcSaₓ]; · iexact HcSaₓ
      isplitl [HO]; · iexact HO
      isplitr; · rw [MayWait_zero]; iempintro
      iexact HpSaₓ
    iintro ⟨HO, HqSaₓ, Hpay⟩
    ihave HbLₓ := (Entails.of_eq ((payDma_sa m c i).trans (show paySa m c i = pts c (bSrcA c i) fullShare.left (BUF m c) from rfl))) $$ Hpay
    icases HpSb with ⟨HpSbₓ, HpSb⟩
    iapply (wp_waitCell m K c (sbS i) (dst := oRecvA c i) rfl 0 _) $$ [HcSbₓ HO HpSbₓ]
    · isplitr; · iapply (inv_cell m K _ _); iexact HR
      isplitl [HcSbₓ]; · iexact HcSbₓ
      isplitl [HO]; · iexact HO
      isplitr; · rw [MayWait_zero]; iempintro
      iexact HpSbₓ
    iintro ⟨HO, HqSbₓ, Hpay⟩
    ihave HoAₓ := (Entails.of_eq ((payDma_sb m c i).trans (show paySb m c i = pts c (oRecvA c i) fullShare (OUT m c) from rfl))) $$ Hpay
  -- the local copy landed
  iapply (wp_waitCell m K c locS (dst := oOwn c) rfl 0 _) $$ [HcLoc HO HpLoc]
  · isplitr; · iapply (inv_cell m K _ _); iexact HR
    isplitl [HcLoc]; · iexact HcLoc
    isplitl [HO]; · iexact HO
    isplitr; · rw [MayWait_zero]; iempintro
    iexact HpLoc
  iintro ⟨HO, HqLoc, Hpay⟩
  ihave Hp := (Entails.of_eq ((payDma_loc m c).trans (show payLoc m c = iprop(pts c (oOwn c) fullShare (OUT m c) ∗ pts c bM fullShare.right (BUF m c)) from rfl))) $$ Hpay
  icases Hp with ⟨HoOwn, Hbr⟩
  rw [wp_ret]
  -- every own cell has had its one round: close them
  for_fin 16 i =>
    imod (close_cell m K c (saS i)) $$ [HqSaₓ] with HzSaₓ
    · isplitr; · iexact HR
      iexact HqSaₓ
    imod (close_cell m K c (raS i)) $$ [HqRaₓ] with HzRaₓ
    · isplitr; · iexact HR
      iexact HqRaₓ
    imod (close_cell m K c (sbS i)) $$ [HqSbₓ] with HzSbₓ
    · isplitr; · iexact HR
      iexact HqSbₓ
    imod (close_cell m K c (rbS i)) $$ [HqRbₓ] with HzRbₓ
    · isplitr; · iexact HR
      iexact HqRbₓ
  for_fin 4 k =>
    imod (close_cell m K c (inS ⟨k, by decide⟩)) $$ [HqInAₓ] with HzInAₓ
    · isplitr; · iexact HR
      iexact HqInAₓ
    imod (close_cell m K c (inS ⟨4 + k, by decide⟩)) $$ [HqInBₓ] with HzInBₓ
    · isplitr; · iexact HR
      iexact HqInBₓ
  imod (close_cell m K c locS) $$ [HqLoc] with HzLoc
  · isplitr; · iexact HR
    iexact HqLoc
  imodintro
  -- the four buffers whole again
  have hrj := rejoin_ch m c
  dsimp only [ch16, ch8, ch4] at hrj
  ihave Hmem := hrj $$ [$]
  have hcl := closed_ch (F := F) c
  dsimp only [ch16, ch8, ch4] at hcl
  ihave Hcl := hcl $$ [$]
  icases Hmem with ⟨H1, H2, H3, H4⟩
  isplitl [H1 H2 H3 H4 Hcl]
  · rw [show (dats m 0 c).Φ t0_0.succ = Φ₁ m c from rfl]
    unfold Φ₁
    isplitl [H1]; · iexact H1
    isplitl [H2]; · iexact H2
    isplitl [H3]; · iexact H3
    isplitl [H4]; · iexact H4
    iexact Hcl
  isplitl [HO]
  · iexists _
    isplitr
    rotate_left
    · rw [show (dats m 0 c).owed t0_0.succ = 0 from rfl]
      iexact HO
    · ipureintro; exact fun _ _ => Or.inl trivial
  rw [Finset.univ_eq_empty, bigSep_empty]; iempintro

end Cert.Kernel.AG

end
-- ==== Proof.Fund.lean ====
import proofs.«900086_g7700000000000087_dist_ag_v7x_xy2x2_x_m4096_n1024_bf16_1_alg».proof.Proof.Ghost
import proofs.«900086_g7700000000000087_dist_ag_v7x_xy2x2_x_m4096_n1024_bf16_1_alg».proof.Proof.DSem

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost resources: every cell's invariant allocated, the tokens dealt to their payers -/

theorem gcell_injective : Function.Injective (gcell : Dev nD × SemLoc sig → GSem nD τ sig) := by
  rintro ⟨c, k⟩ ⟨c', k'⟩ h
  have h1 : c = c' := by have := congrArg (fun g : GSem nD τ sig => g.1.1) h; exact this
  subst h1
  have h2 : k = k' := congrArg Prod.snd h
  subst h2; rfl
def ringCells : Finset (GSem nD τ sig) := Finset.univ.map ⟨gcell, gcell_injective⟩

/-- The duty tokens minted: per device, its barrier cell's two and one for each of its DMA cells. -/
abbrev tokOf (cj : Dev nD × (Bool ⊕ DmaSem sig)) : GSem nD τ sig × ℕ × Bool := match cj.2 with
  | .inl b => (barCell cj.1, 0, b)
  | .inr s => (dCell cj.1 s, 0, false)
theorem tokOf_injective : Function.Injective (tokOf : Dev nD × (Bool ⊕ DmaSem sig) → GSem nD τ sig × ℕ × Bool) := by
  rintro ⟨c, j⟩ ⟨c', j'⟩ h
  have h1 : c = c' := by
    have := congrArg (fun x : GSem nD τ sig × ℕ × Bool => x.1.1.1) h
    rcases j with b | s <;> rcases j' with b' | s' <;> exact this
  subst h1
  have : j = j' := by
    rcases j with b | s <;> rcases j' with b' | s'
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · exact congrArg Sum.inr (SemLoc.dma.inj (congrArg (fun x : GSem nD τ sig × ℕ × Bool => x.1.2) h))
  subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The kernel's own (scoped) semaphores: all seventy-three DMA semaphores. -/
abbrev osem : DmaSem sig → SemLoc sig := fun k => .dma k
theorem ownSemFacts : Pipeline.OwnSemFacts cfg0.spec osem := by decide

/-- The tokens of device `c`'s own cells, as minted. -/
def toks (c : Dev nD) : sProp 𝕄 :=
  iprop(dutyTok ER (barCell c) 0 false ∗ dutyTok ER (barCell c) 0 true ∗ bigSep Finset.univ fun s : DmaSem sig => dutyTok ER (dCell c s) 0 false)

/-- What the launch element deals device `c`. -/
def G (c : Dev nD) : sProp 𝕄 :=
  iprop((bigSep Finset.univ fun sm : SemLoc sig => roundState ER (sched m) (gcell (c, sm)) 0)
    ∗ (bigSep Finset.univ fun sm : SemLoc sig => iprop(atPos ER (gcell (c, sm)) 0 ∅ 0 ∗ reached ER (gcell (c, sm)) 0)) ∗ toks c)

/-- What the global step makes of it. -/
def G' (c : Dev nD) : sProp 𝕄 := iprop(∃ K, ghost m K c)

/-- A big star over the two truth values. -/
theorem bigSep_bool (Φ : Bool → sProp 𝕄) : bigSep Finset.univ Φ = iprop(Φ false ∗ Φ true) :=
  bigSep_univ_eq_bigSepL [false, true] (by decide) (by decide) Φ

/-- The protocol's launch element, funded and regrouped by device: the cells are the devices' cells, the tokens each
    device's barrier cell's two and its DMA cells' one each. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun sm : SemLoc sig => Φ (gcell (c, sm)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    unfold toks; rw [bigSep_univ_sum, bigSep_bool]
    exact Idealize.SL.BI.sep_assoc
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-- The DMA semaphores are the kernel's own seventy-three; -/
theorem ownSems0_eq (c : Dev nD) : (Pipeline.ownSems0 (Ix := Unit) (Name := ℕ) (U := UU) (Lvl := ℕ) (Val := Elt F) (τ := τ) osem c : sProp 𝕄)
    = bigSep Finset.univ fun s : DmaSem sig => semVal (dCell c s) 0 := rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (gcell (c, sm)) 0 : sProp 𝕄) := by
  rw [ownSems0_eq, unscopedSems0_eq, bigSep_semloc]
  iintro ⟨HS, HB⟩
  isplitl [HB]; · iexact HB
  iexact HS

/-- Every cell of device `c` gets its invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (sched m) κ (gcell (c, sm))))
          ∗ (bigSep Finset.univ fun sm : SemLoc sig => iprop(atPos ER (gcell (c, sm)) 0 ∅ 0 ∗ reached ER (gcell (c, sm)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (gcell (c, sm)) 0) ∗ bigSep Finset.univ fun sm : SemLoc sig => roundState ER (sched m) (gcell (c, sm)) 0)
      ⊢ (|={Set.univ}=> bigSep Finset.univ fun sm : SemLoc sig => iprop(∃ κ : ℕ, cellInv ER (sched m) κ (gcell (c, sm))) : sProp 𝕄) from by
        rw [← bigSep_sep']
        exact (bigSep_mono fun k _ => (Rounds.body_intro ER (sched m) (gcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays linear with device `c`. -/
def linear (c : Dev nD) : sProp 𝕄 := iprop(positions c ∗ payToks c)

theorem ghost_intro (K : Dev nD × SemLoc sig → ℕ) (c : Dev nD) : iprop(records m K ∗ linear c) ⊢ G' m c := by
  unfold linear G' ghost
  iintro ⟨#HR, HP, HT⟩
  iexists K
  isplitr; · iexact HR
  isplitl [HP]; · iexact HP
  iexact HT

/-- The tokens dealt across the mesh: a barrier cell's `false` token and the column arrivals' tokens go to the column
    partner, its `true` token and the row arrivals' to the row partner; the send, input and local copies' stay. -/
theorem toks_around : (bigSep Finset.univ fun c : Dev nD => (toks c : sProp 𝕄)) ⊢ bigSep Finset.univ fun c : Dev nD => payToks c := by
  have e : (fun c : Dev nD => (toks c : sProp 𝕄)) = fun c : Dev nD => iprop(dutyTok ER (barCell c) 0 false ∗ dutyTok ER (barCell c) 0 true
      ∗ (bigSep Finset.univ fun i : Fin 16 => dutyTok ER (dCell c (saS i)) 0 false)
      ∗ (bigSep Finset.univ fun i : Fin 16 => dutyTok ER (dCell c (raS i)) 0 false)
      ∗ (bigSep Finset.univ fun i : Fin 16 => dutyTok ER (dCell c (sbS i)) 0 false)
      ∗ (bigSep Finset.univ fun i : Fin 16 => dutyTok ER (dCell c (rbS i)) 0 false)
      ∗ (bigSep Finset.univ fun j : Fin 8 => dutyTok ER (dCell c (inS j)) 0 false)
      ∗ dutyTok ER (dCell c locS) 0 false) := funext fun c => by unfold toks; rw [bigSep_dsem]
  rw [e]; unfold payToks
  simp only [bigSep_sep']
  rw [bigSep_univ_equiv swapA (fun c : Dev nD => (dutyTok ER (barCell c) 0 false : sProp 𝕄)),
    bigSep_univ_equiv swapB (fun c : Dev nD => (dutyTok ER (barCell c) 0 true : sProp 𝕄)),
    bigSep_univ_equiv swapA (fun c : Dev nD => (bigSep Finset.univ fun i : Fin 16 => dutyTok ER (dCell c (raS i)) 0 false : sProp 𝕄)),
    bigSep_univ_equiv swapB (fun c : Dev nD => (bigSep Finset.univ fun i : Fin 16 => dutyTok ER (dCell c (rbS i)) 0 false : sProp 𝕄))]
  iintro ⟨H1, H2, H3, H4, H5, H6, H7, H8⟩
  isplitl [H1]; · iexact H1
  isplitl [H2]; · iexact H2
  isplitl [H4]; · iexact H4
  isplitl [H6]; · iexact H6
  isplitl [H3]; · iexact H3
  isplitl [H5]; · iexact H5
  isplitl [H7]; · iexact H7
  iexact H8

theorem regroup :
    (bigSep Finset.univ fun c : Dev nD => iprop((bigSep Finset.univ fun sm : SemLoc sig => iprop(∃ κ : ℕ, cellInv ER (sched m) κ (gcell (c, sm))))
          ∗ (bigSep Finset.univ fun sm : SemLoc sig => iprop(atPos ER (gcell (c, sm)) 0 ∅ 0 ∗ reached ER (gcell (c, sm)) 0)) ∗ toks c) : sProp 𝕄)
      ⊢ bigSep Finset.univ (G' m) := by
  rw [bigSep_sep', bigSep_sep', ← bigSep_univ_prod (fun ck : Dev nD × SemLoc sig => iprop(∃ κ : ℕ, cellInv ER (sched m) κ (gcell ck))),
    bigSep_congr (s := Finset.univ) (fun (c : Dev nD) _ => bigSep_sep' Finset.univ (fun sm : SemLoc sig => (atPos ER (gcell (c, sm)) 0 ∅ 0 : sProp 𝕄)) (fun sm => reached ER (gcell (c, sm)) 0)),
    bigSep_sep', ← bigSep_univ_prod (fun ck : Dev nD × SemLoc sig => (reached ER (gcell ck) 0 : sProp 𝕄))]
  iintro ⟨HI, ⟨Hat, #HR⟩, Htok⟩
  ihave HK := (BI.bigSep_exists_pi Finset.univ (fun (ck : Dev nD × SemLoc sig) (κ : ℕ) => (cellInv ER (sched m) κ (gcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun sm : SemLoc sig => (atPos ER (gcell (c, sm)) 0 ∅ 0 : sProp 𝕄)) payToks).symm).trans
      (bigSep_mono fun c _ => show _ ⊢ linear c from Entails.of_eq (by unfold linear positions; rw [bigSep_semloc, bigSep_dsem])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  exact ((bigSep_mono fun c _ => core_alloc m c).trans (bigSep_fupd _ _)).trans (BI.fupd_mono (regroup m))

/-- info: 'Cert.KernelIdeal.AG.hu₀' depends on axioms: [propext, Classical.choice, Quot.sound] -/
#guard_msgs in #print axioms hu₀

/-- info: 'Cert.KernelIdeal.AG.glob' depends on axioms: [propext, Classical.choice, Quot.sound] -/
#guard_msgs in #print axioms glob

end Cert.KernelIdeal.AG

end
-- ==== Proof.Launch.lean ====
/-
# The launch: from each device's body to the run of the whole mesh

Every device's body, proved from `Φ₀` to `Φ₁` while paying what it owes, gives the run of the four kernels together:
every fair interleaving terminates, and in every final state each device's result holds the gathered blocks and its
block of `x` is what it was. The pipeline stages nothing (no window), so both HBM arrays reach the body as the unscoped
rest and the two scratch buffers as the scoped rest; the seventy-three DMA semaphores are the kernel's own.
-/
import proofs.«900086_g7700000000000087_dist_ag_v7x_xy2x2_x_m4096_n1024_bf16_1_alg».proof.Proof.Fund
import proofs.«900086_g7700000000000087_dist_ag_v7x_xy2x2_x_m4096_n1024_bf16_1_alg».proof.Proof.Cred

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A whole buffer's points-to, under its memref and under its reference -/

theorem pts_x (c : Dev nD) (f : Buf (Elt F) ((c : Thread nD τ).loc main_arg0)) :
    pts c xM fullShare f = (((c : Thread nD τ).loc main_arg0) ↦{fullShare} f : sProp 𝕄) := by
  show ((xM : Memref sig .tc .hbm S4096x1024 .f32).view.loc (c : Thread nD τ) ↦[(xM : Memref sig .tc .hbm S4096x1024 .f32).view.set]{fullShare} f) = _
  rw [View.set_whole]
theorem pts_o (c : Dev nD) (f : Buf (Elt F) ((c : Thread nD τ).loc main_v1)) :
    pts c oM fullShare f = (((c : Thread nD τ).loc main_v1) ↦{fullShare} f : sProp 𝕄) := by
  show ((oM : Memref sig .tc .hbm S8192x1024 .bf16).view.loc (c : Thread nD τ) ↦[(oM : Memref sig .tc .hbm S8192x1024 .bf16).view.set]{fullShare} f) = _
  rw [View.set_whole]
theorem pts_v (c : Dev nD) (f : Buf (Elt F) ((c : Thread nD τ).loc cc0_scratch0)) :
    pts c vM fullShare f = (((c : Thread nD τ).loc cc0_scratch0) ↦{fullShare} f : sProp 𝕄) := by
  show ((vM : Memref sig .tc .vmem S4096x1024 .f32).view.loc (c : Thread nD τ) ↦[(vM : Memref sig .tc .vmem S4096x1024 .f32).view.set]{fullShare} f) = _
  rw [View.set_whole]
theorem pts_b (c : Dev nD) (f : Buf (Elt F) ((c : Thread nD τ).loc cc0_scratch1)) :
    pts c bM fullShare f = (((c : Thread nD τ).loc cc0_scratch1) ↦{fullShare} f : sProp 𝕄) := by
  show ((bM : Memref sig .tc .vmem S4096x1024 .bf16).view.loc (c : Thread nD τ) ↦[(bM : Memref sig .tc .vmem S4096x1024 .bf16).view.set]{fullShare} f) = _
  rw [View.set_whole]

/-! ## The launch theorem's side conditions -/

/-- What is left of a device's two HBM arrays once the body is done: `x` as it was, the result gathered. -/
def Yc (c : Dev nD) : sProp 𝕄 := iprop(pts c xM fullShare (X m c) ∗ pts c oM fullShare (OUT m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]
    · rw [pts_x]; iexact Hx
    · iexists (m ((c : Thread nD τ).loc main_v1)); rw [pts_o]; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hv⟩, ⟨%g, Hb⟩⟩
  isplitl [Hs]; · iexact Hs
  isplitl [Hv]
  · iexists f; rw [pts_v]; iexact Hv
  · iexists g; rw [pts_b]; iexact Hb

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc Pipeline.ownSems0
  iintro ⟨Hx, Ho, ⟨%f, Hv⟩, ⟨%g, Hb⟩, Hs⟩
  isplitl [Hx Ho]
  · isplitl [Hx] <;> iassumption
  isplitl [Hs]; · iexact Hs
  isplitl [Hv]
  · iexists f; rw [← pts_v]; iexact Hv
  · iexists g; rw [← pts_b]; iexact Hb

theorem read_Y (c : Dev nD) (s' : Phys nD τ sig (Elt F)) :
    iprop(Yc m c ∗ emp ∗ SI s')
      ⊢ |={Set.univ}=> iprop(⌜s'.mem.mem ((c : Thread nD τ).loc main_v1) = OUT m c ∧ s'.mem.mem ((c : Thread nD τ).loc main_arg0) = X m c⌝ ∗ SI s') := by
  unfold Yc
  rw [pts_x, pts_o]
  iintro ⟨⟨Hx, Ho⟩, -, HSI⟩
  icombine HSI Hx gives %hx
  icombine HSI Ho gives %ho
  imodintro
  isplitr
  · ipureintro; exact ⟨Buf.eq_of_forall_mem_univ ho, Buf.eq_of_forall_mem_univ hx⟩
  iexact HSI

/-! ## The run -/

set_option maxRecDepth 8000 in
/-- At the compiled mesh of four devices, for any float values, from any memory with every counter at zero: given each
    device's body, every weakly fair execution of @main terminates, and in every final state each device's result is
    the gathered array and its block of `x` is unchanged. -/
theorem run_main (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_v1) = OUT m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := fun w => w.elim0) (hstage := fun w => w.elim0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = OUT m c ∧ s.mem ((c : Thread nD τ).loc main_arg0) = X m c)
    (hY := read_Y m)
    (hQ := fun s h c => ⟨(h c).2.2.1, (h c).2.2.2⟩)

/-- The frame form: every fair execution terminates and leaves each device's block of `x` as it was. -/
theorem frame_main (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run _ _ _).mono (fun r h c => (h c).2) (run_main m ρ hbody)

end Cert.KernelIdeal.AG

end
-- ==== Proof.Bits.Fund.lean ====
import proofs.«900086_g7700000000000087_dist_ag_v7x_xy2x2_x_m4096_n1024_bf16_1_alg».proof.Proof.Bits.Ghost
import proofs.«900086_g7700000000000087_dist_ag_v7x_xy2x2_x_m4096_n1024_bf16_1_alg».proof.Proof.Bits.DSem

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost resources: every cell's invariant allocated, the tokens dealt to their payers -/

theorem gcell_injective : Function.Injective (gcell : Dev nD × SemLoc sig → GSem nD τ sig) := by
  rintro ⟨c, k⟩ ⟨c', k'⟩ h
  have h1 : c = c' := by have := congrArg (fun g : GSem nD τ sig => g.1.1) h; exact this
  subst h1
  have h2 : k = k' := congrArg Prod.snd h
  subst h2; rfl
def ringCells : Finset (GSem nD τ sig) := Finset.univ.map ⟨gcell, gcell_injective⟩

/-- The duty tokens minted: per device, its barrier cell's two and one for each of its DMA cells. -/
abbrev tokOf (cj : Dev nD × (Bool ⊕ DmaSem sig)) : GSem nD τ sig × ℕ × Bool := match cj.2 with
  | .inl b => (barCell cj.1, 0, b)
  | .inr s => (dCell cj.1 s, 0, false)
theorem tokOf_injective : Function.Injective (tokOf : Dev nD × (Bool ⊕ DmaSem sig) → GSem nD τ sig × ℕ × Bool) := by
  rintro ⟨c, j⟩ ⟨c', j'⟩ h
  have h1 : c = c' := by
    have := congrArg (fun x : GSem nD τ sig × ℕ × Bool => x.1.1.1) h
    rcases j with b | s <;> rcases j' with b' | s' <;> exact this
  subst h1
  have : j = j' := by
    rcases j with b | s <;> rcases j' with b' | s'
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · exact congrArg Sum.inr (SemLoc.dma.inj (congrArg (fun x : GSem nD τ sig × ℕ × Bool => x.1.2) h))
  subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The kernel's own (scoped) semaphores: all seventy-three DMA semaphores. -/
abbrev osem : DmaSem sig → SemLoc sig := fun k => .dma k
theorem ownSemFacts : Pipeline.OwnSemFacts cfg0.spec osem := by decide

/-- The tokens of device `c`'s own cells, as minted. -/
def toks (c : Dev nD) : sProp 𝕄 :=
  iprop(dutyTok ER (barCell c) 0 false ∗ dutyTok ER (barCell c) 0 true ∗ bigSep Finset.univ fun s : DmaSem sig => dutyTok ER (dCell c s) 0 false)

/-- What the launch element deals device `c`. -/
def G (c : Dev nD) : sProp 𝕄 :=
  iprop((bigSep Finset.univ fun sm : SemLoc sig => roundState ER (sched m) (gcell (c, sm)) 0)
    ∗ (bigSep Finset.univ fun sm : SemLoc sig => iprop(atPos ER (gcell (c, sm)) 0 ∅ 0 ∗ reached ER (gcell (c, sm)) 0)) ∗ toks c)

/-- What the global step makes of it. -/
def G' (c : Dev nD) : sProp 𝕄 := iprop(∃ K, ghost m K c)

/-- A big star over the two truth values. -/
theorem bigSep_bool (Φ : Bool → sProp 𝕄) : bigSep Finset.univ Φ = iprop(Φ false ∗ Φ true) :=
  bigSep_univ_eq_bigSepL [false, true] (by decide) (by decide) Φ

/-- The protocol's launch element, funded and regrouped by device: the cells are the devices' cells, the tokens each
    device's barrier cell's two and its DMA cells' one each. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun sm : SemLoc sig => Φ (gcell (c, sm)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    unfold toks; rw [bigSep_univ_sum, bigSep_bool]
    exact Idealize.SL.BI.sep_assoc
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

/-- The DMA semaphores are the kernel's own seventy-three; -/
theorem ownSems0_eq (c : Dev nD) : (Pipeline.ownSems0 (Ix := Unit) (Name := ℕ) (U := UU) (Lvl := ℕ) (Val := Elt F) (τ := τ) osem c : sProp 𝕄)
    = bigSep Finset.univ fun s : DmaSem sig => semVal (dCell c s) 0 := rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal (gcell (c, sm)) 0 : sProp 𝕄) := by
  rw [ownSems0_eq, unscopedSems0_eq, bigSep_semloc]
  iintro ⟨HS, HB⟩
  isplitl [HB]; · iexact HB
  iexact HS

/-- Every cell of device `c` gets its invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (sched m) κ (gcell (c, sm))))
          ∗ (bigSep Finset.univ fun sm : SemLoc sig => iprop(atPos ER (gcell (c, sm)) 0 ∅ 0 ∗ reached ER (gcell (c, sm)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (gcell (c, sm)) 0) ∗ bigSep Finset.univ fun sm : SemLoc sig => roundState ER (sched m) (gcell (c, sm)) 0)
      ⊢ (|={Set.univ}=> bigSep Finset.univ fun sm : SemLoc sig => iprop(∃ κ : ℕ, cellInv ER (sched m) κ (gcell (c, sm))) : sProp 𝕄) from by
        rw [← bigSep_sep']
        exact (bigSep_mono fun k _ => (Rounds.body_intro ER (sched m) (gcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays linear with device `c`. -/
def linear (c : Dev nD) : sProp 𝕄 := iprop(positions c ∗ payToks c)

theorem ghost_intro (K : Dev nD × SemLoc sig → ℕ) (c : Dev nD) : iprop(records m K ∗ linear c) ⊢ G' m c := by
  unfold linear G' ghost
  iintro ⟨#HR, HP, HT⟩
  iexists K
  isplitr; · iexact HR
  isplitl [HP]; · iexact HP
  iexact HT

/-- The tokens dealt across the mesh: a barrier cell's `false` token and the column arrivals' tokens go to the column
    partner, its `true` token and the row arrivals' to the row partner; the send, input and local copies' stay. -/
theorem toks_around : (bigSep Finset.univ fun c : Dev nD => (toks c : sProp 𝕄)) ⊢ bigSep Finset.univ fun c : Dev nD => payToks c := by
  have e : (fun c : Dev nD => (toks c : sProp 𝕄)) = fun c : Dev nD => iprop(dutyTok ER (barCell c) 0 false ∗ dutyTok ER (barCell c) 0 true
      ∗ (bigSep Finset.univ fun i : Fin 16 => dutyTok ER (dCell c (saS i)) 0 false)
      ∗ (bigSep Finset.univ fun i : Fin 16 => dutyTok ER (dCell c (raS i)) 0 false)
      ∗ (bigSep Finset.univ fun i : Fin 16 => dutyTok ER (dCell c (sbS i)) 0 false)
      ∗ (bigSep Finset.univ fun i : Fin 16 => dutyTok ER (dCell c (rbS i)) 0 false)
      ∗ (bigSep Finset.univ fun j : Fin 8 => dutyTok ER (dCell c (inS j)) 0 false)
      ∗ dutyTok ER (dCell c locS) 0 false) := funext fun c => by unfold toks; rw [bigSep_dsem]
  rw [e]; unfold payToks
  simp only [bigSep_sep']
  rw [bigSep_univ_equiv swapA (fun c : Dev nD => (dutyTok ER (barCell c) 0 false : sProp 𝕄)),
    bigSep_univ_equiv swapB (fun c : Dev nD => (dutyTok ER (barCell c) 0 true : sProp 𝕄)),
    bigSep_univ_equiv swapA (fun c : Dev nD => (bigSep Finset.univ fun i : Fin 16 => dutyTok ER (dCell c (raS i)) 0 false : sProp 𝕄)),
    bigSep_univ_equiv swapB (fun c : Dev nD => (bigSep Finset.univ fun i : Fin 16 => dutyTok ER (dCell c (rbS i)) 0 false : sProp 𝕄))]
  iintro ⟨H1, H2, H3, H4, H5, H6, H7, H8⟩
  isplitl [H1]; · iexact H1
  isplitl [H2]; · iexact H2
  isplitl [H4]; · iexact H4
  isplitl [H6]; · iexact H6
  isplitl [H3]; · iexact H3
  isplitl [H5]; · iexact H5
  isplitl [H7]; · iexact H7
  iexact H8

theorem regroup :
    (bigSep Finset.univ fun c : Dev nD => iprop((bigSep Finset.univ fun sm : SemLoc sig => iprop(∃ κ : ℕ, cellInv ER (sched m) κ (gcell (c, sm))))
          ∗ (bigSep Finset.univ fun sm : SemLoc sig => iprop(atPos ER (gcell (c, sm)) 0 ∅ 0 ∗ reached ER (gcell (c, sm)) 0)) ∗ toks c) : sProp 𝕄)
      ⊢ bigSep Finset.univ (G' m) := by
  rw [bigSep_sep', bigSep_sep', ← bigSep_univ_prod (fun ck : Dev nD × SemLoc sig => iprop(∃ κ : ℕ, cellInv ER (sched m) κ (gcell ck))),
    bigSep_congr (s := Finset.univ) (fun (c : Dev nD) _ => bigSep_sep' Finset.univ (fun sm : SemLoc sig => (atPos ER (gcell (c, sm)) 0 ∅ 0 : sProp 𝕄)) (fun sm => reached ER (gcell (c, sm)) 0)),
    bigSep_sep', ← bigSep_univ_prod (fun ck : Dev nD × SemLoc sig => (reached ER (gcell ck) 0 : sProp 𝕄))]
  iintro ⟨HI, ⟨Hat, #HR⟩, Htok⟩
  ihave HK := (BI.bigSep_exists_pi Finset.univ (fun (ck : Dev nD × SemLoc sig) (κ : ℕ) => (cellInv ER (sched m) κ (gcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun sm : SemLoc sig => (atPos ER (gcell (c, sm)) 0 ∅ 0 : sProp 𝕄)) payToks).symm).trans
      (bigSep_mono fun c _ => show _ ⊢ linear c from Entails.of_eq (by unfold linear positions; rw [bigSep_semloc, bigSep_dsem])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  exact ((bigSep_mono fun c _ => core_alloc m c).trans (bigSep_fupd _ _)).trans (BI.fupd_mono (regroup m))

/-- info: 'Cert.Kernel.AG.hu₀' depends on axioms: [propext, Classical.choice, Quot.sound] -/
#guard_msgs in #print axioms hu₀

/-- info: 'Cert.Kernel.AG.glob' depends on axioms: [propext, Classical.choice, Quot.sound] -/
#guard_msgs in #print axioms glob

end Cert.Kernel.AG

end
-- ==== Proof.Bits.Launch.lean ====
/-
# The launch: from each device's body to the run of the whole mesh

Every device's body, proved from `Φ₀` to `Φ₁` while paying what it owes, gives the run of the four kernels together:
every fair interleaving terminates, and in every final state each device's result holds the gathered blocks and its
block of `x` is what it was. The pipeline stages nothing (no window), so both HBM arrays reach the body as the unscoped
rest and the two scratch buffers as the scoped rest; the seventy-three DMA semaphores are the kernel's own.
-/
import proofs.«900086_g7700000000000087_dist_ag_v7x_xy2x2_x_m4096_n1024_bf16_1_alg».proof.Proof.Bits.Fund
import proofs.«900086_g7700000000000087_dist_ag_v7x_xy2x2_x_m4096_n1024_bf16_1_alg».proof.Proof.Bits.Cred

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A whole buffer's points-to, under its memref and under its reference -/

theorem pts_x (c : Dev nD) (f : Buf (Elt F) ((c : Thread nD τ).loc main_arg0)) :
    pts c xM fullShare f = (((c : Thread nD τ).loc main_arg0) ↦{fullShare} f : sProp 𝕄) := by
  show ((xM : Memref sig .tc .hbm S4096x1024 .f32).view.loc (c : Thread nD τ) ↦[(xM : Memref sig .tc .hbm S4096x1024 .f32).view.set]{fullShare} f) = _
  rw [View.set_whole]
theorem pts_o (c : Dev nD) (f : Buf (Elt F) ((c : Thread nD τ).loc main_v1)) :
    pts c oM fullShare f = (((c : Thread nD τ).loc main_v1) ↦{fullShare} f : sProp 𝕄) := by
  show ((oM : Memref sig .tc .hbm S8192x1024 .bf16).view.loc (c : Thread nD τ) ↦[(oM : Memref sig .tc .hbm S8192x1024 .bf16).view.set]{fullShare} f) = _
  rw [View.set_whole]
theorem pts_v (c : Dev nD) (f : Buf (Elt F) ((c : Thread nD τ).loc cc0_scratch0)) :
    pts c vM fullShare f = (((c : Thread nD τ).loc cc0_scratch0) ↦{fullShare} f : sProp 𝕄) := by
  show ((vM : Memref sig .tc .vmem S4096x1024 .f32).view.loc (c : Thread nD τ) ↦[(vM : Memref sig .tc .vmem S4096x1024 .f32).view.set]{fullShare} f) = _
  rw [View.set_whole]
theorem pts_b (c : Dev nD) (f : Buf (Elt F) ((c : Thread nD τ).loc cc0_scratch1)) :
    pts c bM fullShare f = (((c : Thread nD τ).loc cc0_scratch1) ↦{fullShare} f : sProp 𝕄) := by
  show ((bM : Memref sig .tc .vmem S4096x1024 .bf16).view.loc (c : Thread nD τ) ↦[(bM : Memref sig .tc .vmem S4096x1024 .bf16).view.set]{fullShare} f) = _
  rw [View.set_whole]

/-! ## The launch theorem's side conditions -/

/-- What is left of a device's two HBM arrays once the body is done: `x` as it was, the result gathered. -/
def Yc (c : Dev nD) : sProp 𝕄 := iprop(pts c xM fullShare (X m c) ∗ pts c oM fullShare (OUT m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start G'
  isplitl
  · isplitl [HG]; · iexact HG
    isplitl [Hc]; · iexact Hc
    isplitl [Hlev]; · iexact Hlev
    isplitl [Hx]
    · rw [pts_x]; iexact Hx
    · iexists (m ((c : Thread nD τ).loc main_v1)); rw [pts_o]; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hv⟩, ⟨%g, Hb⟩⟩
  isplitl [Hs]; · iexact Hs
  isplitl [Hv]
  · iexists f; rw [pts_v]; iexact Hv
  · iexists g; rw [pts_b]; iexact Hb

theorem phi1_exit (c : Dev nD) :
    (dats m 0 c).Φ (Fin.last cfg0.N) ⊢ iprop(Yc m c ∗ Pipeline.ownSems0 osem c ∗ Pipeline.scopedRest cfg0.spec c) := by
  rw [show (dats m 0 c).Φ (Fin.last cfg0.N) = Φ₁ m c from rfl, scopedRest0_eq]
  unfold Φ₁ Yc Pipeline.ownSems0
  iintro ⟨Hx, Ho, ⟨%f, Hv⟩, ⟨%g, Hb⟩, Hs⟩
  isplitl [Hx Ho]
  · isplitl [Hx] <;> iassumption
  isplitl [Hs]; · iexact Hs
  isplitl [Hv]
  · iexists f; rw [← pts_v]; iexact Hv
  · iexists g; rw [← pts_b]; iexact Hb

theorem read_Y (c : Dev nD) (s' : Phys nD τ sig (Elt F)) :
    iprop(Yc m c ∗ emp ∗ SI s')
      ⊢ |={Set.univ}=> iprop(⌜s'.mem.mem ((c : Thread nD τ).loc main_v1) = OUT m c ∧ s'.mem.mem ((c : Thread nD τ).loc main_arg0) = X m c⌝ ∗ SI s') := by
  unfold Yc
  rw [pts_x, pts_o]
  iintro ⟨⟨Hx, Ho⟩, -, HSI⟩
  icombine HSI Hx gives %hx
  icombine HSI Ho gives %ho
  imodintro
  isplitr
  · ipureintro; exact ⟨Buf.eq_of_forall_mem_univ ho, Buf.eq_of_forall_mem_univ hx⟩
  iexact HSI

/-! ## The run -/

set_option maxRecDepth 8000 in
/-- At the compiled mesh of four devices, for any float values, from any memory with every counter at zero: given each
    device's body, every weakly fair execution of @main terminates, and in every final state each device's result is
    the gathered array and its block of `x` is unchanged. -/
theorem run_main (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_v1) = OUT m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := fun w => w.elim0) (hstage := fun w => w.elim0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = OUT m c ∧ s.mem ((c : Thread nD τ).loc main_arg0) = X m c)
    (hY := read_Y m)
    (hQ := fun s h c => ⟨(h c).2.2.1, (h c).2.2.2⟩)

/-- The frame form: every fair execution terminates and leaves each device's block of `x` as it was. -/
theorem frame_main (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, r.2.mem ((c.tc : Thread nD τ).loc main_arg0) = m ((c.tc : Thread nD τ).loc main_arg0)) :=
  (θ_run _ _ _).mono (fun r h c => (h c).2) (run_main m ρ hbody)

end Cert.Kernel.AG

end
-- ==== Proof.RefValue.lean ====
/-
# The reference side and the join

The reference converts its whole f32[8192, 1024] argument to bf16, element by element. Device `c` of the mesh holds
block `c / 2` of that argument (4096 rows). The all-gather's result on device `c`, `OUT m c`, reads at row `r` the
converted row `r % 4096` of the block held by device `srcOf c r`; that device sits in mesh row `r / 4096`, so what is
read is the whole argument's row `4096 (r / 4096) + r % 4096 = r`: every device's result is the reference's.
-/
import proofs.«900086_g7700000000000087_dist_ag_v7x_xy2x2_x_m4096_n1024_bf16_1_alg».proof.Proof.Proto
import proofs.«900086_g7700000000000087_dist_ag_v7x_xy2x2_x_m4096_n1024_bf16_1_alg».proof.Proof.Gen.ReferenceIdeal.Run
import proofs.«900086_g7700000000000087_dist_ag_v7x_xy2x2_x_m4096_n1024_bf16_1_alg».proof.Proof.Gen.ReferenceIdeal.Read
import proofs.«900086_g7700000000000087_dist_ag_v7x_xy2x2_x_m4096_n1024_bf16_1_alg».proof.Defs
import proofs.«900086_g7700000000000087_dist_ag_v7x_xy2x2_x_m4096_n1024_bf16_1_alg».proof.Proof.Gen.ReferenceIdeal
import proofs.«900086_g7700000000000087_dist_ag_v7x_xy2x2_x_m4096_n1024_bf16_1_alg».proof.Proof.Gen.Pre_finite_inputs_ReferenceIdeal
import Idealize.ShloMosaic.Lib.Layout

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Whose block a row of the result comes from -/

/-- The device whose block row `r` of device `c`'s result is read from sits in mesh row `r / 4096`. -/
theorem srcOf_row (c : Dev nD) (r : ℕ) (hr : r < 8192) : (srcOf c r).val / 2 = r / 4096 := by
  have hc : c.val < 4 := c.isLt
  unfold srcOf
  split
  · omega
  · split
    · show (((c.val % 2) + 2) - 2 * (c.val / 2)) / 2 = r / 4096
      omega
    · show ((((2 * (c.val / 2) + 1) - (c.val % 2)) % 2 + 2) - 2 * (((2 * (c.val / 2) + 1) - (c.val % 2)) / 2)) / 2 = r / 4096
      omega

/-- Device `d` holds block `d / 2` along the rows and the one block along the columns. -/
theorem meshBlock_rows (d : Dev nD) : ((Layout.meshBlock [2, 2] ![[0], []] d) 0).val = d.val / 2 := by
  revert d; decide
theorem meshBlock_cols (d : Dev nD) : ((Layout.meshBlock [2, 2] ![[0], []] d) 1).val = 0 := by
  revert d; decide

/-! ## The join: every device's result is the reference's -/

theorem OUT_eq_whole (m : (ℓ : Loc nD τ sig) → Buf (Elt F) ℓ) (whole : Vec F S8192x1024 .f32)
    (h : ∀ c : Dev nD, m ((c : Thread nD τ).loc main_arg0)
      = Layout.blockN ⟨2, ![4096, 1024]⟩ ⟨2, ![8192, 1024]⟩ (Layout.meshBlock [2, 2] ![[0], []] c) whole) :
    ∀ c : Dev nD, OUT m c = truncf .bf16 whole bitsLt_bf16_f32 := by
  intro c
  funext i
  have hi0 : (i 0).val < 8192 := (i 0).isLt
  show FloatOps.truncf .bf16 bitsLt_bf16_f32 (X m (srcOf c (i 0).val) _) = FloatOps.truncf .bf16 bitsLt_bf16_f32 (whole i)
  unfold X
  rw [h]
  show FloatOps.truncf .bf16 bitsLt_bf16_f32 (whole (Layout.TilesN.idx _ _ _)) = FloatOps.truncf .bf16 bitsLt_bf16_f32 (whole i)
  congr 2
  funext b
  apply Fin.ext
  rw [Layout.TilesN.idx_val]
  match b with
  | ⟨0, _⟩ =>
    show ((Layout.meshBlock [2, 2] ![[0], []] (srcOf c (i 0).val)) 0).val * 4096 + (i 0).val % 4096 = (i 0).val
    rw [meshBlock_rows, srcOf_row c _ hi0]
    omega
  | ⟨1, _⟩ =>
    show ((Layout.meshBlock [2, 2] ![[0], []] (srcOf c (i 0).val)) 1).val * 1024 + (i 1).val = (i 1).val
    rw [meshBlock_cols]
    omega

/-! ## The reference's run -/

/-- The reference terminates from any memory with its argument unchanged: its run with the value dropped. -/
theorem ref_frame :
    Cert.frame_ReferenceIdeal (hReferenceIdeal := Cert.ReferenceIdeal.Gen.facts)
      (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

/-- The reference's run read on its one device: the result is the argument converted, the argument unchanged. -/
theorem ref_run_val
    (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread Cert.ReferenceIdeal.nD Cert.ReferenceIdeal.τ).loc Cert.ReferenceIdeal.main_v0)
          = truncf (F := Ideal) (s := Cert.ReferenceIdeal.S8192x1024) .bf16 (m' (((0 : Dev Cert.ReferenceIdeal.nD).tc : Thread Cert.ReferenceIdeal.nD Cert.ReferenceIdeal.τ).loc Cert.ReferenceIdeal.main_arg0)) Cert.ReferenceIdeal.Gen.bitsLt_bf16_f32
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0)
    (Cert.ReferenceIdeal.Value.run (F := Ideal) m' ρ')

/-! ## The two runs joined -/

/-- The comparison of the two programs, from the all-gather's run with its result named: the common value is the
    reference's argument converted; each device's result is that by `OUT_eq_whole`, the reference's by its run. -/
theorem algebraic_of_run [hPre_finite_inputs_Kernel : Cert.Pre_finite_inputs_Kernel.Facts]
    (hrun : ∀ (m : (ℓ : Loc nD τ sig) → Buf (Elt Ideal) ℓ) (g : Dev nD → PrngReg), Cert.Pre_KernelIdeal m →
      θ_run (Cert.KernelIdeal.defs (F := Ideal)) (onTc (τ := τ) (Cert.KernelIdeal.main (F := Ideal))) ⟨m, fun _ => 0, g⟩
        (fun r => ∀ c : Dev nD,
          r.2.mem ((c.tc : Thread nD τ).loc main_v1) = OUT m c
          ∧ r.2.mem ((c.tc : Thread nD τ).loc main_arg0) = m ((c.tc : Thread nD τ).loc main_arg0))) :
    Cert.algebraic_KernelIdeal_ReferenceIdeal (hKernelIdeal := Cert.KernelIdeal.Gen.facts)
      (hReferenceIdeal := Cert.ReferenceIdeal.Gen.facts) := by
  intro m g m' g' hpre hblk
  refine ⟨truncf (F := Ideal) (s := Cert.ReferenceIdeal.S8192x1024) .bf16
    (m' (((0 : Dev Cert.ReferenceIdeal.nD).tc : Thread Cert.ReferenceIdeal.nD Cert.ReferenceIdeal.τ).loc Cert.ReferenceIdeal.main_arg0))
    Cert.ReferenceIdeal.Gen.bitsLt_bf16_f32, ?_, ref_run_val m' g'⟩
  exact (θ_run _ _ _).mono (fun r h c => ⟨(h c).1.trans (OUT_eq_whole m _ hblk c), (h c).2⟩) (hrun m g hpre)

/-- info: 'Cert.KernelIdeal.AG.OUT_eq_whole' depends on axioms: [propext, Classical.choice, Quot.sound] -/
#guard_msgs in #print axioms OUT_eq_whole
/-- info: 'Cert.KernelIdeal.AG.ref_frame' depends on axioms: [propext, Classical.choice, Quot.sound] -/
#guard_msgs in #print axioms ref_frame
/-- info: 'Cert.KernelIdeal.AG.ref_run_val' depends on axioms: [propext, Classical.choice, Quot.sound] -/
#guard_msgs in #print axioms ref_run_val
/-- info: 'Cert.KernelIdeal.AG.algebraic_of_run' depends on axioms: [propext, Classical.choice, Quot.sound] -/
#guard_msgs in #print axioms algebraic_of_run

end Cert.KernelIdeal.AG

end
-- ==== Proof.lean ====
/-
# The claim: the all-gather on the 2 × 2 mesh against the one-device reference

`Cert.Claim` is five statements, under the side conditions the programs and the precondition function state (witnessed by
the generated instances).

* `frame_Kernel`, `frame_KernelIdeal`: from any memory with every counter at zero, every fair interleaving of the four
  devices' kernels terminates without fault and leaves each device's block of `x` as it was. Each is the run of the whole
  mesh with the value dropped. The run follows from one device's body, proved once at a symbolic device and for any float
  instance: from the invariant `Φ₀` (its block of `x`, its result and scratch buffers, its cells at round 0, the tokens of
  the duties it pays, the credit for what the others owe it) the body reaches `Φ₁` (its result gathered, `x` as it was, every
  own counter back at zero) while paying what it owes — one signal to each partner's barrier cell, sixteen arrivals at the
  column partner and sixteen at the row partner — and every wait sits at a level below everything the waiter still owes,
  which is the deadlock argument. The word-level program is the same text read at `Bits`. No step depends on a value, so
  the precondition is not used.
* `frame_ReferenceIdeal`: the reference's generated run with the value dropped.
* `preserves_Kernel_KernelIdeal`: the ideal pass rewrote no operation; the statement is `True`.
* `algebraic_KernelIdeal_ReferenceIdeal`: at the ideal instance the run names each device's result: row `r` of device `c`'s
  result is row `r % 4096` of the block of `x` held by the device `srcOf c r`, converted to the result's format. When every
  device's block is its block of the reference's whole argument (blocks along the first mesh axis), that array is the whole
  argument converted — an index equation through the block layout — and that is what the reference's run leaves in its
  result. Both programs leave their arguments unchanged.
-/
import proofs.«900086_g7700000000000087_dist_ag_v7x_xy2x2_x_m4096_n1024_bf16_1_alg».proof.Defs
import proofs.«900086_g7700000000000087_dist_ag_v7x_xy2x2_x_m4096_n1024_bf16_1_alg».proof.Proof.Gen.Kernel
import proofs.«900086_g7700000000000087_dist_ag_v7x_xy2x2_x_m4096_n1024_bf16_1_alg».proof.Proof.Gen.Kernel.Skeleton
import proofs.«900086_g7700000000000087_dist_ag_v7x_xy2x2_x_m4096_n1024_bf16_1_alg».proof.Proof.Gen.Kernel.Launch
import proofs.«900086_g7700000000000087_dist_ag_v7x_xy2x2_x_m4096_n1024_bf16_1_alg».proof.Proof.Gen.Kernel.Points
import proofs.«900086_g7700000000000087_dist_ag_v7x_xy2x2_x_m4096_n1024_bf16_1_alg».proof.Proof.Gen.Kernel.Frame
import proofs.«900086_g7700000000000087_dist_ag_v7x_xy2x2_x_m4096_n1024_bf16_1_alg».proof.Proof.Gen.KernelIdeal
import proofs.«900086_g7700000000000087_dist_ag_v7x_xy2x2_x_m4096_n1024_bf16_1_alg».proof.Proof.Gen.KernelIdeal.Skeleton
import proofs.«900086_g7700000000000087_dist_ag_v7x_xy2x2_x_m4096_n1024_bf16_1_alg».proof.Proof.Gen.KernelIdeal.Launch
import proofs.«900086_g7700000000000087_dist_ag_v7x_xy2x2_x_m4096_n1024_bf16_1_alg».proof.Proof.Gen.KernelIdeal.Points
import proofs.«900086_g7700000000000087_dist_ag_v7x_xy2x2_x_m4096_n1024_bf16_1_alg».proof.Proof.Gen.KernelIdeal.Frame
import proofs.«900086_g7700000000000087_dist_ag_v7x_xy2x2_x_m4096_n1024_bf16_1_alg».proof.Proof.Gen.ReferenceIdeal
import proofs.«900086_g7700000000000087_dist_ag_v7x_xy2x2_x_m4096_n1024_bf16_1_alg».proof.Proof.Gen.Pre_finite_inputs_Kernel
import proofs.«900086_g7700000000000087_dist_ag_v7x_xy2x2_x_m4096_n1024_bf16_1_alg».proof.Proof.Gen.Pre_finite_inputs_ReferenceIdeal
import Idealize.ShloMosaic.Adequacy
import Idealize.ShloMosaic.Init
import proofs.«900086_g7700000000000087_dist_ag_v7x_xy2x2_x_m4096_n1024_bf16_1_alg».proof.Proof.Body
import proofs.«900086_g7700000000000087_dist_ag_v7x_xy2x2_x_m4096_n1024_bf16_1_alg».proof.Proof.Bits.Body
import proofs.«900086_g7700000000000087_dist_ag_v7x_xy2x2_x_m4096_n1024_bf16_1_alg».proof.Proof.Launch
import proofs.«900086_g7700000000000087_dist_ag_v7x_xy2x2_x_m4096_n1024_bf16_1_alg».proof.Proof.Bits.Launch
import proofs.«900086_g7700000000000087_dist_ag_v7x_xy2x2_x_m4096_n1024_bf16_1_alg».proof.Proof.RefValue

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m ρ _ => Cert.Kernel.AG.frame_main m ρ (Cert.Kernel.AG.body_obligation m),
  fun m ρ _ => Cert.KernelIdeal.AG.frame_main m ρ (Cert.KernelIdeal.AG.body_obligation m),
  Cert.KernelIdeal.AG.ref_frame,
  trivial,
  Cert.KernelIdeal.AG.algebraic_of_run fun m g _ => Cert.KernelIdeal.AG.run_main m g (Cert.KernelIdeal.AG.body_obligation m)⟩

end Cert.Proof

end
